-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2000000x19 : Shape := ⟨2, ![2000000, 19]⟩
abbrev S2x2000000 : Shape := ⟨2, ![2, 2000000]⟩
abbrev S100000 : Shape := ⟨1, ![100000]⟩
abbrev S16 : Shape := ⟨1, ![16]⟩
abbrev S19 : Shape := ⟨1, ![19]⟩
abbrev S51x64 : Shape := ⟨2, ![51, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16x8 : Shape := ⟨2, ![16, 8]⟩
abbrev S8 : Shape := ⟨1, ![8]⟩
abbrev S8x2 : Shape := ⟨2, ![8, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S2000000x19 : S_.BroadcastsInDim S2000000x19 (![] : Fin 0 → Fin S2000000x19.rank)
  reducesTo_S2000000x19_S_d0_1 : S2000000x19.ReducesTo [0, 1] S_
  bcast_S_S16 : S_.BroadcastsInDim S16 (![] : Fin 0 → Fin S16.rank)
  reducesTo_S16_S_d0 : S16.ReducesTo [0] S_
  bcast_S_S19 : S_.BroadcastsInDim S19 (![] : Fin 0 → Fin S19.rank)
  reducesTo_S19_S_d0 : S19.ReducesTo [0] S_
  bcast_S_S51x64 : S_.BroadcastsInDim S51x64 (![] : Fin 0 → Fin S51x64.rank)
  reducesTo_S51x64_S_d0_1 : S51x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_
  bcast_S_S2x2000000 : S_.BroadcastsInDim S2x2000000 (![] : Fin 0 → Fin S2x2000000.rank)
  reducesTo_S2x2000000_S_d0_1 : S2x2000000.ReducesTo [0, 1] S_

variable [Facts]

def fn_part5 {F : FTy → Type} [FloatOps F] (main_arg2 : IVec S2x2000000 32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_c_34 : IVec S_ 32 := constantI S_ 32 0#32
  let main_v89 : IVec S2x2000000 32 := broadcastInDim S2x2000000 ![] bcast_S_S2x2000000 main_c_34
  let main_v90 : IVec S2x2000000 1 := cmpi .sge main_arg2 main_v89
  let main_c_35 : IVec S_ 32 := constantI S_ 32 100000#32
  let main_v91 : IVec S2x2000000 32 := broadcastInDim S2x2000000 ![] bcast_S_S2x2000000 main_c_35
  let main_v92 : IVec S2x2000000 1 := cmpi .slt main_arg2 main_v91
  let main_v93 : IVec S2x2000000 1 := andi main_v90 main_v92
  let main_c_36 : IVec S_ 1 := constantI S_ 1 1#1
  let main_v94 : IVec S_ 1 := (fun x v => Host.reduce IntOp.andi x v reducesTo_S2x2000000_S_d0_1 h_S_) main_v93 main_c_36
  let main_v95 : IVec S_ 1 := andi main_v88 main_v94
  main_v95

def fn_part4 {F : FTy → Type} [FloatOps F] (main_arg2 : IVec S2x2000000 32) (main_arg16 : FVec F S16x8 .f32) (main_arg17 : FVec F S8 .f32) (main_arg18 : FVec F S8x2 .f32) (main_arg19 : FVec F S2 .f32) (main_v63 : IVec S_ 1) (main_v67 : IVec S_ 1) : IVec S_ 1 :=
  let main_v68 : IVec S_ 1 := andi main_v63 main_v67
  let main_v69 : FVec F S16x8 .f32 := Host.absf main_arg16
  let main_cst_26 : FVec F S_ .f32 := constant S_ .f32 0x7F800000#32
  let main_v70 : FVec F S16x8 .f32 := broadcastInDim S16x8 ![] bcast_S_S16x8 main_cst_26
  let main_v71 : IVec S16x8 1 := cmpf .olt main_v69 main_v70
  let main_c_27 : IVec S_ 1 := constantI S_ 1 1#1
  let main_v72 : IVec S_ 1 := (fun x v => Host.reduce IntOp.andi x v reducesTo_S16x8_S_d0_1 h_S_) main_v71 main_c_27
  let main_v73 : IVec S_ 1 := andi main_v68 main_v72
  let main_v74 : FVec F S8 .f32 := Host.absf main_arg17
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S8x2 .f32 := Host.absf main_arg18
  let main_cst_30 : FVec F S_ .f32 := constant S_ .f32 0x7F800000#32
  let main_v80 : FVec F S8x2 .f32 := broadcastInDim S8x2 ![] bcast_S_S8x2 main_cst_30
  let main_v81 : IVec S8x2 1 := cmpf .olt main_v79 main_v80
  let main_c_31 : IVec S_ 1 := constantI S_ 1 1#1
  let main_v82 : IVec S_ 1 := (fun x v => Host.reduce IntOp.andi x v reducesTo_S8x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_arg2 main_v83 main_v84 main_cst_32

def fn_part3 {F : FTy → Type} [FloatOps F] (main_arg2 : IVec S2x2000000 32) (main_arg13 : FVec F S32 .f32) (main_arg14 : FVec F S32x16 .f32) (main_arg15 : FVec F S16 .f32) (main_arg16 : FVec F S16x8 .f32) (main_arg17 : FVec F S8 .f32) (main_arg18 : FVec F S8x2 .f32) (main_arg19 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x16 .f32 := Host.absf main_arg14
  let main_cst_22 : FVec F S_ .f32 := constant S_ .f32 0x7F800000#32
  let main_v60 : FVec F S32x16 .f32 := broadcastInDim S32x16 ![] bcast_S_S32x16 main_cst_22
  let main_v61 : IVec S32x16 1 := cmpf .olt main_v59 main_v60
  let main_c_23 : IVec S_ 1 := constantI S_ 1 1#1
  let main_v62 : IVec S_ 1 := (fun x v => Host.reduce IntOp.andi x v reducesTo_S32x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg2 main_arg16 main_arg17 main_arg18 main_arg19 main_v63 main_v67

def fn_part2 {F : FTy → Type} [FloatOps F] (main_arg2 : IVec S2x2000000 32) (main_arg9 : FVec F S64 .f32) (main_arg10 : FVec F S64x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x2 .f32) (main_arg19 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg2 main_arg13 main_arg14 main_arg15 main_arg16 main_arg17 main_arg18 main_arg19 main_v48 main_v49 main_v50

def fn_part1 {F : FTy → Type} [FloatOps F] (main_arg2 : IVec S2x2000000 32) (main_arg6 : FVec F S19 .f32) (main_arg7 : FVec F S19 .f32) (main_arg8 : FVec F S51x64 .f32) (main_arg9 : FVec F S64 .f32) (main_arg10 : FVec F S64x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x2 .f32) (main_arg19 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S19 .f32 := Host.absf main_arg6
  let main_cst_6 : FVec F S_ .f32 := constant S_ .f32 0x7F800000#32
  let main_v20 : FVec F S19 .f32 := broadcastInDim S19 ![] bcast_S_S19 main_cst_6
  let main_v21 : IVec S19 1 := cmpf .olt main_v19 main_v20
  let main_c_7 : IVec S_ 1 := constantI S_ 1 1#1
  let main_v22 : IVec S_ 1 := (fun x v => Host.reduce IntOp.andi x v reducesTo_S19_S_d0 h_S_) main_v21 main_c_7
  let main_v23 : IVec S_ 1 := andi main_v18 main_v22
  let main_v24 : FVec F S19 .f32 := Host.absf main_arg7
  let main_cst_8 : FVec F S_ .f32 := constant S_ .f32 0x7F800000#32
  let main_v25 : FVec F S19 .f32 := broadcastInDim S19 ![] bcast_S_S19 main_cst_8
  let main_v26 : IVec S19 1 := cmpf .olt main_v24 main_v25
  let main_c_9 : IVec S_ 1 := constantI S_ 1 1#1
  let main_v27 : IVec S_ 1 := (fun x v => Host.reduce IntOp.andi x v reducesTo_S19_S_d0 h_S_) main_v26 main_c_9
  let main_v28 : IVec S_ 1 := andi main_v23 main_v27
  let main_v29 : FVec F S51x64 .f32 := Host.absf main_arg8
  let main_cst_10 : FVec F S_ .f32 := constant S_ .f32 0x7F800000#32
  let main_v30 : FVec F S51x64 .f32 := broadcastInDim S51x64 ![] bcast_S_S51x64 main_cst_10
  let main_v31 : IVec S51x64 1 := cmpf .olt main_v29 main_v30
  let main_c_11 : IVec S_ 1 := constantI S_ 1 1#1
  let main_v32 : IVec S_ 1 := (fun x v => Host.reduce IntOp.andi x v reducesTo_S51x64_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_v33

def fn {F : FTy → Type} [FloatOps F] (main_arg0 : FVec F S100000x16 .f32) (main_arg1 : FVec F S2000000x19 .f32) (main_arg2 : IVec S2x2000000 32) (main_arg3 : IVec S100000 32) (main_arg4 : FVec F S16 .f32) (main_arg5 : FVec F S16 .f32) (main_arg6 : FVec F S19 .f32) (main_arg7 : FVec F S19 .f32) (main_arg8 : FVec F S51x64 .f32) (main_arg9 : FVec F S64 .f32) (main_arg10 : FVec F S64x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x2 .f32) (main_arg19 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S2000000x19 .f32 := Host.absf main_arg1
  let main_cst_0 : FVec F S_ .f32 := constant S_ .f32 0x7F800000#32
  let main_v5 : FVec F S2000000x19 .f32 := broadcastInDim S2000000x19 ![] bcast_S_S2000000x19 main_cst_0
  let main_v6 : IVec S2000000x19 1 := cmpf .olt main_v4 main_v5
  let main_c_1 : IVec S_ 1 := constantI S_ 1 1#1
  let main_v7 : IVec S_ 1 := (fun x v => Host.reduce IntOp.andi x v reducesTo_S2000000x19_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_v13 main_v16
-- ==== Kernel.lean ====
abbrev S100000x16 : Shape := ⟨2, ![100000, 16]⟩
abbrev S2000000x19 : Shape := ⟨2, ![2000000, 19]⟩
abbrev S2x2000000 : Shape := ⟨2, ![2, 2000000]⟩
abbrev S100000 : Shape := ⟨1, ![100000]⟩
abbrev S16 : Shape := ⟨1, ![16]⟩
abbrev S19 : Shape := ⟨1, ![19]⟩
abbrev S51x64 : Shape := ⟨2, ![51, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16x8 : Shape := ⟨2, ![16, 8]⟩
abbrev S8 : Shape := ⟨1, ![8]⟩
abbrev S8x2 : Shape := ⟨2, ![8, 2]⟩
abbrev S2 : Shape := ⟨1, ![2]⟩
abbrev S1x19 : Shape := ⟨2, ![1, 19]⟩
abbrev S5000x19 : Shape := ⟨2, ![5000, 19]⟩
abbrev S_ : Shape := ⟨0, ![]⟩
abbrev S1x16 : Shape := ⟨2, ![1, 16]⟩
abbrev S1x2000000 : Shape := ⟨2, ![1, 2000000]⟩
abbrev S2000000 : Shape := ⟨1, ![2000000]⟩
abbrev S2000000x1 : Shape := ⟨2, ![2000000, 1]⟩
abbrev S1 : Shape := ⟨1, ![1]⟩
abbrev S1x1 : Shape := ⟨2, ![1, 1]⟩
abbrev S2000000x16 : Shape := ⟨2, ![2000000, 16]⟩
abbrev S1x64 : Shape := ⟨2, ![1, 64]⟩
abbrev S1x32 : Shape := ⟨2, ![1, 32]⟩
abbrev S1x8 : Shape := ⟨2, ![1, 8]⟩
abbrev S1x2 : Shape := ⟨2, ![1, 2]⟩
abbrev S2000000x2 : Shape := ⟨2, ![2000000, 2]⟩
abbrev S5000x16 : Shape := ⟨2, ![5000, 16]⟩
abbrev S5000x2 : Shape := ⟨2, ![5000, 2]⟩
abbrev S5000x51 : Shape := ⟨2, ![5000, 51]⟩
abbrev S5000x64 : Shape := ⟨2, ![5000, 64]⟩
abbrev S5000x32 : Shape := ⟨2, ![5000, 32]⟩
abbrev S5000x8 : Shape := ⟨2, ![5000, 8]⟩

abbrev nBuf : Space → Nat
  | .hbm => 127
  | .vmem => 28
  | .smem => 0
  | _ => 0

abbrev bufTy : (tb : Table) → Fin (tcTables nBuf tb) → BufTy
  | .hbm, ⟨0, _⟩ => ⟨S100000x16, .f32⟩
  | .hbm, ⟨1, _⟩ => ⟨S2000000x19, .f32⟩
  | .hbm, ⟨2, _⟩ => ⟨S2x2000000, .i32⟩
  | .hbm, ⟨3, _⟩ => ⟨S100000, .i32⟩
  | .hbm, ⟨4, _⟩ => ⟨S16, .f32⟩
  | .hbm, ⟨5, _⟩ => ⟨S16, .f32⟩
  | .hbm, ⟨6, _⟩ => ⟨S19, .f32⟩
  | .hbm, ⟨7, _⟩ => ⟨S19, .f32⟩
  | .hbm, ⟨8, _⟩ => ⟨S51x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x16, .f32⟩
  | .hbm, ⟨15, _⟩ => ⟨S16, .f32⟩
  | .hbm, ⟨16, _⟩ => ⟨S16x8, .f32⟩
  | .hbm, ⟨17, _⟩ => ⟨S8, .f32⟩
  | .hbm, ⟨18, _⟩ => ⟨S8x2, .f32⟩
  | .hbm, ⟨19, _⟩ => ⟨S2, .f32⟩
  | .hbm, ⟨20, _⟩ => ⟨S1x19, .f32⟩
  | .hbm, ⟨21, _⟩ => ⟨S1x19, .f32⟩
  | .hbm, ⟨22, _⟩ => ⟨S19, .f32⟩
  | .hbm, ⟨23, _⟩ => ⟨S_, .f32⟩
  | .hbm, ⟨24, _⟩ => ⟨S19, .f32⟩
  | .hbm, ⟨25, _⟩ => ⟨S19, .f32⟩
  | .hbm, ⟨26, _⟩ => ⟨S19, .f32⟩
  | .hbm, ⟨27, _⟩ => ⟨S_, .f32⟩
  | .hbm, ⟨28, _⟩ => ⟨S19, .f32⟩
  | .hbm, ⟨29, _⟩ => ⟨S19, .f32⟩
  | .hbm, ⟨30, _⟩ => ⟨S19, .f32⟩
  | .hbm, ⟨31, _⟩ => ⟨S19, .f32⟩
  | .hbm, ⟨32, _⟩ => ⟨S_, .f32⟩
  | .hbm, ⟨33, _⟩ => ⟨S19, .f32⟩
  | .hbm, ⟨34, _⟩ => ⟨S19, .f32⟩
  | .hbm, ⟨35, _⟩ => ⟨S_, .f32⟩
  | .hbm, ⟨36, _⟩ => ⟨S19, .f32⟩
  | .hbm, ⟨37, _⟩ => ⟨S19, .f32⟩
  | .hbm, ⟨38, _⟩ => ⟨S19, .f32⟩
  | .hbm, ⟨39, _⟩ => ⟨S19, .f32⟩
  | .hbm, ⟨40, _⟩ => ⟨S19, .f32⟩
  | .hbm, ⟨41, _⟩ => ⟨S19, .f32⟩
  | .hbm, ⟨42, _⟩ => ⟨S_, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S1x16, .f32⟩
  | .hbm, ⟨48, _⟩ => ⟨S100000x16, .f32⟩
  | .hbm, ⟨49, _⟩ => ⟨S100000x16, .f32⟩
  | .hbm, ⟨50, _⟩ => ⟨S100000x16, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S1x2000000, .i32⟩
  | .hbm, ⟨67, _⟩ => ⟨S2000000, .i32⟩
  | .hbm, ⟨68, _⟩ => ⟨S1x2000000, .i32⟩
  | .hbm, ⟨69, _⟩ => ⟨S2000000, .i32⟩
  | .hbm, ⟨70, _⟩ => ⟨S_, .i32⟩
  | .hbm, ⟨71, _⟩ => ⟨S2000000, .i32⟩
  | .hbm, ⟨72, _⟩ => ⟨S2000000, .i1⟩
  | .hbm, ⟨73, _⟩ => ⟨S_, .i32⟩
  | .hbm, ⟨74, _⟩ => ⟨S2000000, .i32⟩
  | .hbm, ⟨75, _⟩ => ⟨S2000000, .i32⟩
  | .hbm, ⟨76, _⟩ => ⟨S2000000, .i32⟩
  | .hbm, ⟨77, _⟩ => ⟨S2000000x1, .i32⟩
  | .hbm, ⟨78, _⟩ => ⟨S1, .i32⟩
  | .hbm, ⟨79, _⟩ => ⟨S_, .i32⟩
  | .hbm, ⟨80, _⟩ => ⟨S2000000x1, .i32⟩
  | .hbm, ⟨81, _⟩ => ⟨S2000000x1, .i1⟩
  | .hbm, ⟨82, _⟩ => ⟨S1x1, .i32⟩
  | .hbm, ⟨83, _⟩ => ⟨S2000000x1, .i32⟩
  | .hbm, ⟨84, _⟩ => ⟨S2000000x1, .i1⟩
  | .hbm, ⟨85, _⟩ => ⟨S2000000x1, .i1⟩
  | .hbm, ⟨86, _⟩ => ⟨S_, .i1⟩
  | .hbm, ⟨87, _⟩ => ⟨S2000000, .i1⟩
  | .hbm, ⟨88, _⟩ => ⟨S2000000x16, .f32⟩
  | .hbm, ⟨89, _⟩ => ⟨S2000000x16, .i1⟩
  | .hbm, ⟨90, _⟩ => ⟨S_, .f32⟩
  | .hbm, ⟨91, _⟩ => ⟨S2000000x16, .f32⟩
  | .hbm, ⟨92, _⟩ => ⟨S2000000x16, .f32⟩
  | .hbm, ⟨93, _⟩ => ⟨S_, .i32⟩
  | .hbm, ⟨94, _⟩ => ⟨S2000000, .i32⟩
  | .hbm, ⟨95, _⟩ => ⟨S2000000, .i1⟩
  | .hbm, ⟨96, _⟩ => ⟨S_, .i32⟩
  | .hbm, ⟨97, _⟩ => ⟨S2000000, .i32⟩
  | .hbm, ⟨98, _⟩ => ⟨S2000000, .i32⟩
  | .hbm, ⟨99, _⟩ => ⟨S2000000, .i32⟩
  | .hbm, ⟨100, _⟩ => ⟨S2000000x1, .i32⟩
  | .hbm, ⟨101, _⟩ => ⟨S1, .i32⟩
  | .hbm, ⟨102, _⟩ => ⟨S_, .i32⟩
  | .hbm, ⟨103, _⟩ => ⟨S2000000x1, .i32⟩
  | .hbm, ⟨104, _⟩ => ⟨S2000000x1, .i1⟩
  | .hbm, ⟨105, _⟩ => ⟨S1x1, .i32⟩
  | .hbm, ⟨106, _⟩ => ⟨S2000000x1, .i32⟩
  | .hbm, ⟨107, _⟩ => ⟨S2000000x1, .i1⟩
  | .hbm, ⟨108, _⟩ => ⟨S2000000x1, .i1⟩
  | .hbm, ⟨109, _⟩ => ⟨S_, .i1⟩
  | .hbm, ⟨110, _⟩ => ⟨S2000000, .i1⟩
  | .hbm, ⟨111, _⟩ => ⟨S2000000x16, .f32⟩
  | .hbm, ⟨112, _⟩ => ⟨S2000000x16, .i1⟩
  | .hbm, ⟨113, _⟩ => ⟨S_, .f32⟩
  | .hbm, ⟨114, _⟩ => ⟨S2000000x16, .f32⟩
  | .hbm, ⟨115, _⟩ => ⟨S2000000x16, .f32⟩
  | .hbm, ⟨116, _⟩ => ⟨S1x16, .f32⟩
  | .hbm, ⟨117, _⟩ => ⟨S1x16, .f32⟩
  | .hbm, ⟨118, _⟩ => ⟨S1x19, .f32⟩
  | .hbm, ⟨119, _⟩ => ⟨S1x19, .f32⟩
  | .hbm, ⟨120, _⟩ => ⟨S1x64, .f32⟩
  | .hbm, ⟨121, _⟩ => ⟨S1x64, .f32⟩
  | .hbm, ⟨122, _⟩ => ⟨S1x32, .f32⟩
  | .hbm, ⟨123, _⟩ => ⟨S1x16, .f32⟩
  | .hbm, ⟨124, _⟩ => ⟨S1x8, .f32⟩
  | .hbm, ⟨125, _⟩ => ⟨S1x2, .f32⟩
  | .hbm, ⟨126, _⟩ => ⟨S2000000x2, .f32⟩
  | .local _ .vmem, ⟨0, _⟩ => ⟨S5000x19, .f32⟩
  | .local _ .vmem, ⟨1, _⟩ => ⟨S5000x19, .f32⟩
  | .local _ .vmem, ⟨2, _⟩ => ⟨S1x19, .f32⟩
  | .local _ .vmem, ⟨3, _⟩ => ⟨S1x19, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x19, .f32⟩
  | .local _ .vmem, ⟨9, _⟩ => ⟨S5000x19, .f32⟩
  | .local _ .vmem, ⟨10, _⟩ => ⟨S1x16, .f32⟩
  | .local _ .vmem, ⟨11, _⟩ => ⟨S1x16, .f32⟩
  | .local _ .vmem, ⟨12, _⟩ => ⟨S1x19, .f32⟩
  | .local _ .vmem, ⟨13, _⟩ => ⟨S1x19, .f32⟩
  | .local _ .vmem, ⟨14, _⟩ => ⟨S51x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S32x16, .f32⟩
  | .local _ .vmem, ⟨21, _⟩ => ⟨S1x16, .f32⟩
  | .local _ .vmem, ⟨22, _⟩ => ⟨S16x8, .f32⟩
  | .local _ .vmem, ⟨23, _⟩ => ⟨S1x8, .f32⟩
  | .local _ .vmem, ⟨24, _⟩ => ⟨S8x2, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_cst_7 : Ref sig .tc := ⟨.hbm, 56, rfl⟩
abbrev main_v27 : Ref sig .tc := ⟨.hbm, 57, rfl⟩
abbrev main_v28 : Ref sig .tc := ⟨.hbm, 58, rfl⟩
abbrev main_cst_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call0_c : Ref sig .tc := ⟨.hbm, 70, rfl⟩
abbrev main_call0_v0 : Ref sig .tc := ⟨.hbm, 71, rfl⟩
abbrev main_call0_v1 : Ref sig .tc := ⟨.hbm, 72, rfl⟩
abbrev main_call0_c_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_c_1 : Ref sig .tc := ⟨.hbm, 78, rfl⟩
abbrev main_call0_c_2 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_3 : Ref sig .tc := ⟨.hbm, 86, rfl⟩
abbrev main_call0_v12 : Ref sig .tc := ⟨.hbm, 87, rfl⟩
abbrev main_call0_v13 : Ref sig .tc := ⟨.hbm, 88, rfl⟩
abbrev main_call0_v14 : Ref sig .tc := ⟨.hbm, 89, rfl⟩
abbrev main_call0_cst : Ref sig .tc := ⟨.hbm, 90, rfl⟩
abbrev main_call0_v15 : Ref sig .tc := ⟨.hbm, 91, rfl⟩
abbrev main_v39 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg16_0 : Ref sig .tc := ⟨.vmem, 23, rfl⟩
abbrev cc1_stg17_0 : Ref sig .tc := ⟨.vmem, 24, rfl⟩
abbrev cc1_stg18_0 : Ref sig .tc := ⟨.vmem, 25, rfl⟩
abbrev cc1_stg19_0 : Ref sig .tc := ⟨.vmem, 26, rfl⟩
abbrev cc1_stg19_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem19_1 : DmaSem sig := 27

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x19 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x19 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x19 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x19 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S51x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S32x16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S16x8 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x8 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S8x2 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x2 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S5000x2 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

class Facts₀ : Prop where
  inb_S1x19_S1x19_0_0 : ∀ a, (![0, 0] : Fin 2 → Nat) a + S1x19.size a ≤ S1x19.size a
  h_S1x19 : 0 < S1x19.numel
  inb_S5000x19_S5000x19_0_0 : ∀ a, (![0, 0] : Fin 2 → Nat) a + S5000x19.size a ≤ S5000x19.size a
  h_S5000x19 : 0 < S5000x19.numel
  shapeCasts_S1x19_S1x19 : S1x19.ShapeCasts S1x19
  reduces_S5000x19_S19 : S5000x19.Reduces [0] S19
  shapeCasts_S19_S1x19 : S19.ShapeCasts S1x19
  shapeCasts_S1x19_S19 : S1x19.ShapeCasts S19
  bcast_S_S19 : S_.BroadcastsInDim S19 (![] : Fin 0 → Fin S19.rank)
  reducesTo_S100000x16_S16_d0 : S100000x16.ReducesTo [0] S16
  h_S_ : 0 < S_.numel
  bcast_S_S16 : S_.BroadcastsInDim S16 (![] : Fin 0 → Fin S16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  bcast_S2000000_S2000000x16_0 : S2000000.BroadcastsInDim S2000000x16 (![0] : Fin 1 → Fin S2000000x16.rank)
  bcast_S_S2000000x16 : S_.BroadcastsInDim S2000000x16 (![] : Fin 0 → Fin S2000000x16.rank)
  shapeCasts_S16_S1x16 : S16.ShapeCasts S1x16
  shapeCasts_S64_S1x64 : S64.ShapeCasts S1x64
  shapeCasts_S32_S1x32 : S32.ShapeCasts S1x32
  shapeCasts_S8_S1x8 : S8.ShapeCasts S1x8
  shapeCasts_S2_S1x2 : S2.ShapeCasts S1x2
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S1x16_S5000x16 : S1x16.Broadcasts S5000x16
  broadcasts_S1x19_S5000x19 : S1x19.Broadcasts S5000x19
  concatenates_S5000x16_S5000x16_S5000x19_S5000x51_d1 : Shape.Concatenates [S5000x16, S5000x16, S5000x19] S5000x51 1
  inb_S51x64_S51x64_0_0 : ∀ a, (![0, 0] : Fin 2 → Nat) a + S51x64.size a ≤ S51x64.size a
  h_S51x64 : 0 < S51x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x2_S8x2_0_0 : ∀ a, (![0, 0] : Fin 2 → Nat) a + S8x2.size a ≤ S8x2.size a
  h_S8x2 : 0 < S8x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x16_S2000000x1_S2000000x16_1_0_n_n_0_1_116_wf : GatherDims.WF S100000x16 S2000000x1 S2000000x16 [1] [0] [] [0] [] 1 ![1, 16]
  dot_S5000x51_S51x64_S5000x64_1_0_0_1_n_n_wf : DotDims.WF S5000x51 S51x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x16_S5000x16_1_0_0_1_n_n_wf : DotDims.WF S5000x32 S32x16 S5000x16 [1] [0] [0] [1] [] []
  dot_S5000x16_S16x8_S5000x8_1_0_0_1_n_n_wf : DotDims.WF S5000x16 S16x8 S5000x8 [1] [0] [0] [1] [] []
  dot_S5000x8_S8x2_S5000x2_1_0_0_1_n_n_wf : DotDims.WF S5000x8 S8x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x19.size a ≤ S2000000x19.size a
  hwx0_0 : ∀ i : grid0.Coords, EltTy.bits .f32 = 32 ∨ (Rect.block (s := S2000000x19) S5000x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x19.size a ≤ S1x19.size a
  hwx0_1 : ∀ i : grid0.Coords, EltTy.bits .f32 = 32 ∨ (Rect.block (s := S1x19) S1x19.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x19.size a ≤ S1x19.size a
  hwx0_2 : ∀ i : grid0.Coords, EltTy.bits .f32 = 32 ∨ (Rect.block (s := S1x19) S1x19.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S2000000x16.size a
  hwx1_0 : ∀ i : grid1.Coords, EltTy.bits .f32 = 32 ∨ (Rect.block (s := S2000000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S2000000x16.size a
  hwx1_1 : ∀ i : grid1.Coords, EltTy.bits .f32 = 32 ∨ (Rect.block (s := S2000000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x19.size a ≤ S2000000x19.size a
  hwx1_2 : ∀ i : grid1.Coords, EltTy.bits .f32 = 32 ∨ (Rect.block (s := S2000000x19) S5000x19.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x19.size a ≤ S1x19.size a
  hwx1_5 : ∀ i : grid1.Coords, EltTy.bits .f32 = 32 ∨ (Rect.block (s := S1x19) S1x19.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x19.size a ≤ S1x19.size a
  hwx1_6 : ∀ i : grid1.Coords, EltTy.bits .f32 = 32 ∨ (Rect.block (s := S1x19) S1x19.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S51x64.size a ≤ S51x64.size a
  hwx1_7 : ∀ i : grid1.Coords, EltTy.bits .f32 = 32 ∨ (Rect.block (s := S51x64) S51x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x32.size a ≤ S64x32.size a
  hwx1_11 : ∀ i : grid1.Coords, EltTy.bits .f32 = 32 ∨ (Rect.block (s := S64x32) S64x32.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x32.size a ≤ S1x32.size a
  hwx1_12 : ∀ i : grid1.Coords, EltTy.bits .f32 = 32 ∨ (Rect.block (s := S1x32) S1x32.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S32x16.size a ≤ S32x16.size a
  hwx1_13 : ∀ i : grid1.Coords, EltTy.bits .f32 = 32 ∨ (Rect.block (s := S32x16) S32x16.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x16.size a ≤ S1x16.size a
  hwx1_14 : ∀ i : grid1.Coords, EltTy.bits .f32 = 32 ∨ (Rect.block (s := S1x16) S1x16.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S16x8.size a ≤ S16x8.size a
  hwx1_15 : ∀ i : grid1.Coords, EltTy.bits .f32 = 32 ∨ (Rect.block (s := S16x8) S16x8.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x8.size a ≤ S1x8.size a
  hwx1_16 : ∀ i : grid1.Coords, EltTy.bits .f32 = 32 ∨ (Rect.block (s := S1x8) S1x8.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S8x2.size a ≤ S8x2.size a
  hwx1_17 : ∀ i : grid1.Coords, EltTy.bits .f32 = 32 ∨ (Rect.block (s := S8x2) S8x2.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x2.size a ≤ S1x2.size a
  hwx1_18 : ∀ i : grid1.Coords, EltTy.bits .f32 = 32 ∨ (Rect.block (s := S1x2) S1x2.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S5000x2.size a ≤ S2000000x2.size a
  hwx1_19 : ∀ i : grid1.Coords, EltTy.bits .f32 = 32 ∨ (Rect.block (s := S2000000x2) S5000x2.size (cc1_transform_19 i) (hinb1_19 i)).WholeWords (EltTy.packing .f32)

variable [Facts₀]

def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def dot_S5000x51_S51x64_S5000x64_1_0_0_1_n_n : DotDims S5000x51 S51x64 S5000x64 where
  lhsContracting := [1]
  rhsContracting := [0]
  lhsNonContracting := [0]
  rhsNonContracting := [1]
  lhsBatch := []
  rhsBatch := []
  wf := dot_S5000x51_S51x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def dot_S5000x8_S8x2_S5000x2_1_0_0_1_n_n : DotDims S5000x8 S8x2 S5000x2 where
  lhsContracting := [1]
  rhsContracting := [0]
  lhsNonContracting := [0]
  rhsNonContracting := [1]
  lhsBatch := []
  rhsBatch := []
  wf := dot_S5000x8_S8x2_S5000x2_1_0_0_1_n_n_wf

abbrev win0_0 : Pipeline.Window sig grid0 :=
  Pipeline.Window.ofSpec (Memref.whole main_arg1) S5000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x19.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x19.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x19.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x19.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x19.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S51x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v45) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v46) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S64x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v47) S1x32.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S32x16.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v48) S1x16.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg16) S16x8.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v49) S1x8.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg18) S8x2.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v50) S1x2.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v51) S5000x2.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

class Facts : Prop extends Facts₀ where

variable [Facts]
-- ==== ReferenceIdeal.lean ====
abbrev S100000x16 : Shape := ⟨2, ![100000, 16]⟩
abbrev S2000000x19 : Shape := ⟨2, ![2000000, 19]⟩
abbrev S2x2000000 : Shape := ⟨2, ![2, 2000000]⟩
abbrev S100000 : Shape := ⟨1, ![100000]⟩
abbrev S16 : Shape := ⟨1, ![16]⟩
abbrev S19 : Shape := ⟨1, ![19]⟩
abbrev S51x64 : Shape := ⟨2, ![51, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16x8 : Shape := ⟨2, ![16, 8]⟩
abbrev S8 : Shape := ⟨1, ![8]⟩
abbrev S8x2 : Shape := ⟨2, ![8, 2]⟩
abbrev S2 : Shape := ⟨1, ![2]⟩
abbrev S_ : Shape := ⟨0, ![]⟩
abbrev S1x19 : Shape := ⟨2, ![1, 19]⟩
abbrev S1x16 : Shape := ⟨2, ![1, 16]⟩
abbrev S1x2000000 : Shape := ⟨2, ![1, 2000000]⟩
abbrev S2000000 : Shape := ⟨1, ![2000000]⟩
abbrev S2000000x1 : Shape := ⟨2, ![2000000, 1]⟩
abbrev S2000000x16 : Shape := ⟨2, ![2000000, 16]⟩
abbrev S2000000x51 : Shape := ⟨2, ![2000000, 51]⟩
abbrev S2000000x64 : Shape := ⟨2, ![2000000, 64]⟩
abbrev S1x64 : Shape := ⟨2, ![1, 64]⟩
abbrev S2000000x32 : Shape := ⟨2, ![2000000, 32]⟩
abbrev S1x32 : Shape := ⟨2, ![1, 32]⟩
abbrev S2000000x8 : Shape := ⟨2, ![2000000, 8]⟩
abbrev S1x8 : Shape := ⟨2, ![1, 8]⟩
abbrev S2000000x2 : Shape := ⟨2, ![2000000, 2]⟩
abbrev S1x2 : Shape := ⟨2, ![1, 2]⟩

abbrev nBuf : Space → Nat
  | .hbm => 158
  | .vmem => 0
  | .smem => 0
  | _ => 0

abbrev hbmTy0_0 (i : Nat) : BufTy := match i % 128 with
  | 0 => ⟨S100000x16, .f32⟩
  | 1 => ⟨S2000000x19, .f32⟩
  | 2 => ⟨S2x2000000, .i32⟩
  | 3 => ⟨S100000, .i32⟩
  | 4 => ⟨S16, .f32⟩
  | 5 => ⟨S16, .f32⟩
  | 6 => ⟨S19, .f32⟩
  | 7 => ⟨S19, .f32⟩
  | 8 => ⟨S51x64, .f32⟩
  | 9 => ⟨S64, .f32⟩
  | 10 => ⟨S64x64, .f32⟩
  | 11 => ⟨S64, .f32⟩
  | 12 => ⟨S64x32, .f32⟩
  | 13 => ⟨S32, .f32⟩
  | 14 => ⟨S32x16, .f32⟩
  | 15 => ⟨S16, .f32⟩
  | 16 => ⟨S16x8, .f32⟩
  | 17 => ⟨S8, .f32⟩
  | 18 => ⟨S8x2, .f32⟩
  | 19 => ⟨S2, .f32⟩
  | 20 => ⟨S_, .f32⟩
  | 21 => ⟨S19, .f32⟩
  | 22 => ⟨S_, .f32⟩
  | 23 => ⟨S19, .f32⟩
  | 24 => ⟨S19, .f32⟩
  | 25 => ⟨S1x19, .f32⟩
  | 26 => ⟨S2000000x19, .f32⟩
  | 27 => ⟨S2000000x19, .f32⟩
  | 28 => ⟨S2000000x19, .f32⟩
  | 29 => ⟨S_, .f32⟩
  | 30 => ⟨S19, .f32⟩
  | 31 => ⟨S_, .f32⟩
  | 32 => ⟨S19, .f32⟩
  | 33 => ⟨S19, .f32⟩
  | 34 => ⟨S1x19, .f32⟩
  | 35 => ⟨S2000000x19, .f32⟩
  | 36 => ⟨S2000000x19, .f32⟩
  | 37 => ⟨S_, .f32⟩
  | 38 => ⟨S19, .f32⟩
  | 39 => ⟨S19, .f32⟩
  | 40 => ⟨S19, .f32⟩
  | 41 => ⟨S19, .f32⟩
  | 42 => ⟨S1x19, .f32⟩
  | 43 => ⟨S2000000x19, .f32⟩
  | 44 => ⟨S2000000x19, .f32⟩
  | 45 => ⟨S1x19, .f32⟩
  | 46 => ⟨S2000000x19, .f32⟩
  | 47 => ⟨S2000000x19, .f32⟩
  | 48 => ⟨S_, .f32⟩
  | 49 => ⟨S16, .f32⟩
  | 50 => ⟨S_, .f32⟩
  | 51 => ⟨S16, .f32⟩
  | 52 => ⟨S16, .f32⟩
  | 53 => ⟨S1x16, .f32⟩
  | 54 => ⟨S100000x16, .f32⟩
  | 55 => ⟨S100000x16, .f32⟩
  | 56 => ⟨S100000x16, .f32⟩
  | 57 => ⟨S_, .f32⟩
  | 58 => ⟨S16, .f32⟩
  | 59 => ⟨S_, .f32⟩
  | 60 => ⟨S16, .f32⟩
  | 61 => ⟨S16, .f32⟩
  | 62 => ⟨S1x16, .f32⟩
  | 63 => ⟨S100000x16, .f32⟩
  | 64 => ⟨S100000x16, .f32⟩
  | 65 => ⟨S_, .f32⟩
  | 66 => ⟨S16, .f32⟩
  | 67 => ⟨S16, .f32⟩
  | 68 => ⟨S16, .f32⟩
  | 69 => ⟨S16, .f32⟩
  | 70 => ⟨S1x16, .f32⟩
  | 71 => ⟨S100000x16, .f32⟩
  | 72 => ⟨S100000x16, .f32⟩
  | 73 => ⟨S1x16, .f32⟩
  | 74 => ⟨S100000x16, .f32⟩
  | 75 => ⟨S100000x16, .f32⟩
  | 76 => ⟨S1x2000000, .i32⟩
  | 77 => ⟨S2000000, .i32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x16, .f32⟩
  | 87 => ⟨S1x2000000, .i32⟩
  | 88 => ⟨S2000000, .i32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x16, .f32⟩
  | 98 => ⟨S2000000x51, .f32⟩
  | 99 => ⟨S2000000x64, .f32⟩
  | 100 => ⟨S1x64, .f32⟩
  | 101 => ⟨S2000000x64, .f32⟩
  | 102 => ⟨S2000000x64, .f32⟩
  | 103 => ⟨S_, .f32⟩
  | 104 => ⟨S2000000x64, .f32⟩
  | 105 => ⟨S2000000x64, .i1⟩
  | 106 => ⟨S_, .f32⟩
  | 107 => ⟨S2000000x64, .f32⟩
  | 108 => ⟨S2000000x64, .f32⟩
  | 109 => ⟨S2000000x64, .f32⟩
  | 110 => ⟨S2000000x64, .f32⟩
  | 111 => ⟨S1x64, .f32⟩
  | 112 => ⟨S2000000x64, .f32⟩
  | 113 => ⟨S2000000x64, .f32⟩
  | 114 => ⟨S_, .f32⟩
  | 115 => ⟨S2000000x64, .f32⟩
  | 116 => ⟨S2000000x64, .i1⟩
  | 117 => ⟨S_, .f32⟩
  | 118 => ⟨S2000000x64, .f32⟩
  | 119 => ⟨S2000000x64, .f32⟩
  | 120 => ⟨S2000000x64, .f32⟩
  | 121 => ⟨S2000000x32, .f32⟩
  | 122 => ⟨S1x32, .f32⟩
  | 123 => ⟨S2000000x32, .f32⟩
  | 124 => ⟨S2000000x32, .f32⟩
  | 125 => ⟨S_, .f32⟩
  | 126 => ⟨S2000000x32, .f32⟩
  | 127 => ⟨S2000000x32, .i1⟩
  | _ => ⟨S100000x16, .f32⟩

abbrev hbmTy0_1 (i : Nat) : BufTy := match i % 128 with
  | 0 => ⟨S_, .f32⟩
  | 1 => ⟨S2000000x32, .f32⟩
  | 2 => ⟨S2000000x32, .f32⟩
  | 3 => ⟨S2000000x32, .f32⟩
  | 4 => ⟨S2000000x16, .f32⟩
  | 5 => ⟨S1x16, .f32⟩
  | 6 => ⟨S2000000x16, .f32⟩
  | 7 => ⟨S2000000x16, .f32⟩
  | 8 => ⟨S_, .f32⟩
  | 9 => ⟨S2000000x16, .f32⟩
  | 10 => ⟨S2000000x16, .i1⟩
  | 11 => ⟨S_, .f32⟩
  | 12 => ⟨S2000000x16, .f32⟩
  | 13 => ⟨S2000000x16, .f32⟩
  | 14 => ⟨S2000000x16, .f32⟩
  | 15 => ⟨S2000000x8, .f32⟩
  | 16 => ⟨S1x8, .f32⟩
  | 17 => ⟨S2000000x8, .f32⟩
  | 18 => ⟨S2000000x8, .f32⟩
  | 19 => ⟨S_, .f32⟩
  | 20 => ⟨S2000000x8, .f32⟩
  | 21 => ⟨S2000000x8, .i1⟩
  | 22 => ⟨S_, .f32⟩
  | 23 => ⟨S2000000x8, .f32⟩
  | 24 => ⟨S2000000x8, .f32⟩
  | 25 => ⟨S2000000x8, .f32⟩
  | 26 => ⟨S2000000x2, .f32⟩
  | 27 => ⟨S1x2, .f32⟩
  | 28 => ⟨S2000000x2, .f32⟩
  | 29 => ⟨S2000000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_16 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_cst_19 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_cst_21 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩

abbrev nD : Nat := 1
abbrev τ : Topo := Topo.v7x

variable {F : FTy → Type} [FloatOps F]

class Facts₀ : Prop where
  reducesTo_S2000000x19_S19_d0 : S2000000x19.ReducesTo [0] S19
  h_S_ : 0 < S_.numel
  bcast_S_S19 : S_.BroadcastsInDim S19 (![] : Fin 0 → Fin S19.rank)
  bcast_S19_S1x19_1 : S19.BroadcastsInDim S1x19 (![1] : Fin 1 → Fin S1x19.rank)
  bcast_S1x19_S2000000x19_0_1 : S1x19.BroadcastsInDim S2000000x19 (![0, 1] : Fin 2 → Fin S2000000x19.rank)
  reducesTo_S100000x16_S16_d0 : S100000x16.ReducesTo [0] S16
  bcast_S_S16 : S_.BroadcastsInDim S16 (![] : Fin 0 → Fin S16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x16_S2000000x16_S2000000x19_S2000000x51_d1 : Shape.Concatenates [S2000000x16, S2000000x16, S2000000x19] S2000000x51 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S1x16_S2000000x16_0_1 : S1x16.BroadcastsInDim S2000000x16 (![0, 1] : Fin 2 → Fin S2000000x16.rank)
  bcast_S_S2000000x16 : S_.BroadcastsInDim S2000000x16 (![] : Fin 0 → Fin S2000000x16.rank)
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  gather_S100000x16_S2000000x1_S2000000x16_1_0_n_n_0_1_116_wf : GatherDims.WF S100000x16 S2000000x1 S2000000x16 [1] [0] [] [0] [] 1 ![1, 16]
  dot_S2000000x51_S51x64_S2000000x64_1_0_0_1_n_n_wf : DotDims.WF S2000000x51 S51x64 S2000000x64 [1] [0] [0] [1] [] []
  dot_S2000000x64_S64x64_S2000000x64_1_0_0_1_n_n_wf : DotDims.WF S2000000x64 S64x64 S2000000x64 [1] [0] [0] [1] [] []
  dot_S2000000x64_S64x32_S2000000x32_1_0_0_1_n_n_wf : DotDims.WF S2000000x64 S64x32 S2000000x32 [1] [0] [0] [1] [] []
  dot_S2000000x32_S32x16_S2000000x16_1_0_0_1_n_n_wf : DotDims.WF S2000000x32 S32x16 S2000000x16 [1] [0] [0] [1] [] []
  dot_S2000000x16_S16x8_S2000000x8_1_0_0_1_n_n_wf : DotDims.WF S2000000x16 S16x8 S2000000x8 [1] [0] [0] [1] [] []
  dot_S2000000x8_S8x2_S2000000x2_1_0_0_1_n_n_wf : DotDims.WF S2000000x8 S8x2 S2000000x2 [1] [0] [0] [1] [] []

variable [Facts₀]

def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def dot_S2000000x51_S51x64_S2000000x64_1_0_0_1_n_n : DotDims S2000000x51 S51x64 S2000000x64 where
  lhsContracting := [1]
  rhsContracting := [0]
  lhsNonContracting := [0]
  rhsNonContracting := [1]
  lhsBatch := []
  rhsBatch := []
  wf := dot_S2000000x51_S51x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def dot_S2000000x32_S32x16_S2000000x16_1_0_0_1_n_n : DotDims S2000000x32 S32x16 S2000000x16 where
  lhsContracting := [1]
  rhsContracting := [0]
  lhsNonContracting := [0]
  rhsNonContracting := [1]
  lhsBatch := []
  rhsBatch := []
  wf := dot_S2000000x32_S32x16_S2000000x16_1_0_0_1_n_n_wf
def dot_S2000000x16_S16x8_S2000000x8_1_0_0_1_n_n : DotDims S2000000x16 S16x8 S2000000x8 where
  lhsContracting := [1]
  rhsContracting := [0]
  lhsNonContracting := [0]
  rhsNonContracting := [1]
  lhsBatch := []
  rhsBatch := []
  wf := dot_S2000000x16_S16x8_S2000000x8_1_0_0_1_n_n_wf
def dot_S2000000x8_S8x2_S2000000x2_1_0_0_1_n_n : DotDims S2000000x8 S8x2 S2000000x2 where
  lhsContracting := [1]
  rhsContracting := [0]
  lhsNonContracting := [0]
  rhsNonContracting := [1]
  lhsBatch := []
  rhsBatch := []
  wf := dot_S2000000x8_S8x2_S2000000x2_1_0_0_1_n_n_wf

class Facts : Prop extends Facts₀ where

variable [Facts]
-- ==== Proof.Spec.lean ====
/-
  The mathematics both programs compute, over the extended reals.

  An edge-scoring network on a graph: node features `x : [100000, 16]`, edge features `e : [2000000, 19]`, and for every
  edge two node numbers. Both feature tables are normalised per column by their batch statistics (mean and biased
  variance over the rows, a stabiliser under the root, a per-column gain and offset); every edge's row is the join of its two
  end nodes' normalised features and its own normalised features (16 + 16 + 19 = 51 numbers); six affine layers follow,
  each but the last followed by a leaky rectifier.

  A column's normalisation can be written in two ways, and the two programs differ in exactly this:
    * centred:  (v - mean) * scale + offset,          with the variance the mean of the squared deviations;
    * affine:   v * scale + (offset - mean * scale),  with the variance (for the edge table) the mean of the squares less
      the squared mean, and a floor at zero under the root.
  On finite entries the two agree (Algebra).
-/
import Idealize.ShloMosaic.PureOps.Ideal
import Idealize.ShloMosaic.Lib.ValueIdx

noncomputable section

namespace Cert.Gnn

open Idealize.ShloMosaic Idealize.ShloMosaic.ValueIdx

/-! ## The literals both programs carry (the same words on both sides: never evaluated, except zero) -/

/-- `0.0`. -/
abbrev zeroF : EReal := Ideal.ofBits .f32 0x00000000#32
/-- The rectifier's slope on the negatives, the word of `0.1`. -/
abbrev leak : EReal := Ideal.ofBits .f32 0x3DCCCCCD#32
/-- The stabiliser under the root, the word of `1e-5`. -/
abbrev epsF : EReal := Ideal.ofBits .f32 0x3727C5AC#32
/-- The number of edges, `2000000.0`. -/
abbrev nEdges : EReal := Ideal.ofBits .f32 0x49F42400#32
/-- The number of nodes, `100000.0`. -/
abbrev nNodes : EReal := Ideal.ofBits .f32 0x47C35000#32
/-- The fill of an out-of-range lookup (a NaN word). -/
abbrev fillF : EReal := Ideal.ofBits .f32 0x7FC00000#32

/-! ## A table as rows and columns -/

/-- A rank-2 array's entry at row `r`, column `q`. -/
abbrev at2 {n c : ℕ} (a : (⟨2, ![n, c]⟩ : Shape).Idx → EReal) (r : Fin n) (q : Fin c) : EReal := a (ix2 r q)
/-- A rank-1 array's entry. -/
abbrev at1 {c : ℕ} (a : (⟨1, ![c]⟩ : Shape).Idx → EReal) (q : Fin c) : EReal := a (ix1 q)

/-! ## Column statistics -/

/-- The sum of column `q`. -/
def colSum {n c : ℕ} (a : (⟨2, ![n, c]⟩ : Shape).Idx → EReal) (q : Fin c) : EReal := ∑ r : Fin n, a (ix2 r q)
/-- The sum of the squares of column `q`. -/
def colSumSq {n c : ℕ} (a : (⟨2, ![n, c]⟩ : Shape).Idx → EReal) (q : Fin c) : EReal := ∑ r : Fin n, a (ix2 r q) * a (ix2 r q)
/-- The mean of column `q` (the count `N` as the program's literal). -/
def colMean {n c : ℕ} (N : EReal) (a : (⟨2, ![n, c]⟩ : Shape).Idx → EReal) (q : Fin c) : EReal := Ideal.div (colSum a q) N
/-- The biased variance of column `q` as the mean of the squared deviations. -/
def varDev {n c : ℕ} (N : EReal) (a : (⟨2, ![n, c]⟩ : Shape).Idx → EReal) (q : Fin c) : EReal :=
  Ideal.div (∑ r : Fin n, (a (ix2 r q) - colMean N a q) * (a (ix2 r q) - colMean N a q)) N
/-- The same variance as the mean of the squares less the squared mean. -/
def varMom {n c : ℕ} (N : EReal) (a : (⟨2, ![n, c]⟩ : Shape).Idx → EReal) (q : Fin c) : EReal :=
  Ideal.div (colSumSq a q) N - colMean N a q * colMean N a q
/-- The gain over the root of the stabilised variance. -/
def scaleOf (g var : EReal) : EReal := Ideal.div g (Ideal.sqrt (var + epsF))

/-- Normalisation, centred form. -/
def bnCentred (v mean scale offset : EReal) : EReal := (v - mean) * scale + offset
/-- Normalisation, affine form. -/
def bnAffine (v mean scale offset : EReal) : EReal := v * scale + (offset - mean * scale)

/-! ## The join of three rows -/

/-- 16 + 16 + 19 numbers as one row of 51. -/
def cat3 (a b : Fin 16 → EReal) (c : Fin 19 → EReal) (j : Fin 51) : EReal :=
  if h : j.val < 16 then a ⟨j.val, h⟩
  else if h2 : j.val < 32 then b ⟨j.val - 16, by omega⟩
  else c ⟨j.val - 32, by omega⟩

/-! ## The layers -/

/-- The leaky rectifier, as both programs spell it: a comparison with zero choosing between the value and its multiple. -/
def lrelu (v : EReal) : EReal := Scalar.select (Ideal.cmp .oge v zeroF) v (leak * v)

/-- An affine layer on a row. -/
def lin {n k : ℕ} (W : (⟨2, ![n, k]⟩ : Shape).Idx → EReal) (b : Fin k → EReal) (h : Fin n → EReal) (j : Fin k) : EReal :=
  (∑ i : Fin n, h i * W (ix2 i j)) + b j

/-- The network's weights; the offsets as functions of the column. -/
structure Params where
  W1 : (⟨2, ![51, 64]⟩ : Shape).Idx → EReal
  b1 : Fin 64 → EReal
  W2 : (⟨2, ![64, 64]⟩ : Shape).Idx → EReal
  b2 : Fin 64 → EReal
  W3 : (⟨2, ![64, 32]⟩ : Shape).Idx → EReal
  b3 : Fin 32 → EReal
  W4 : (⟨2, ![32, 16]⟩ : Shape).Idx → EReal
  b4 : Fin 16 → EReal
  W5 : (⟨2, ![16, 8]⟩ : Shape).Idx → EReal
  b5 : Fin 8 → EReal
  W6 : (⟨2, ![8, 2]⟩ : Shape).Idx → EReal
  b6 : Fin 2 → EReal

/-- The first layer's pre-activation … the sixth layer's output, each a function of the row before it. -/
def act1 (P : Params) (h : Fin 51 → EReal) (j : Fin 64) : EReal := lrelu (lin P.W1 P.b1 h j)
def act2 (P : Params) (h : Fin 51 → EReal) (j : Fin 64) : EReal := lrelu (lin P.W2 P.b2 (act1 P h) j)
def act3 (P : Params) (h : Fin 51 → EReal) (j : Fin 32) : EReal := lrelu (lin P.W3 P.b3 (act2 P h) j)
def act4 (P : Params) (h : Fin 51 → EReal) (j : Fin 16) : EReal := lrelu (lin P.W4 P.b4 (act3 P h) j)
def act5 (P : Params) (h : Fin 51 → EReal) (j : Fin 8) : EReal := lrelu (lin P.W5 P.b5 (act4 P h) j)
/-- The network on one row of 51 numbers: two scores. -/
def mlp (P : Params) (h : Fin 51 → EReal) (j : Fin 2) : EReal := lin P.W6 P.b6 (act5 P h) j

/-! ## Node lookup -/

/-- A node number as both programs read it: a negative one counts from the end. -/
def wrapIdx (i : BitVec 32) : BitVec 32 := Scalar.select (IntOp.cmpi .slt i 0#32) (IntOp.addi i 100000#32) i
/-- The row a lookup reads: the node number, signed, clamped into the table. -/
def rowOf (i : BitVec 32) : Fin 100000 := ⟨min (wrapIdx i).toInt.toNat 99999, by omega⟩
/-- A node number inside the table. Outside it the reference reads a clamped row and the kernel's program a fill: the two
    programs are compared on node numbers inside the table only. -/
def InTable (i : BitVec 32) : Prop := (0 : ℤ) ≤ i.toInt ∧ i.toInt < 100000

/-! ## The two programs' rows, and the weights as the arguments give them -/

/-- The weights and offsets from the argument arrays. -/
def paramsOf (W1 : (⟨2, ![51, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (W4 : (⟨2, ![32, 16]⟩ : Shape).Idx → EReal) (b4 : (⟨1, ![16]⟩ : Shape).Idx → EReal)
    (W5 : (⟨2, ![16, 8]⟩ : Shape).Idx → EReal) (b5 : (⟨1, ![8]⟩ : Shape).Idx → EReal)
    (W6 : (⟨2, ![8, 2]⟩ : Shape).Idx → EReal) (b6 : (⟨1, ![2]⟩ : Shape).Idx → EReal) : Params :=
  ⟨W1, fun j => b1 (ix1 j), W2, fun j => b2 (ix1 j), W3, fun j => b3 (ix1 j), W4, fun j => b4 (ix1 j),
   W5, fun j => b5 (ix1 j), W6, fun j => b6 (ix1 j)⟩

/-- A looked-up node row: the table's row at the (clamped) node number. The kernel's program reads the same row for a node
    number inside the table (and a fill outside it). -/
def lookupRef (x : (⟨2, ![100000, 16]⟩ : Shape).Idx → EReal) (i : BitVec 32) (q : Fin 16) : EReal := x (ix2 (rowOf i) q)

/-- Edge `r`'s row of 51 in the reference: centred normalisation of the node table BEFORE the lookup, and of the edge table. -/
def rowRef (x : (⟨2, ![100000, 16]⟩ : Shape).Idx → EReal) (e : (⟨2, ![2000000, 19]⟩ : Shape).Idx → EReal)
    (ei : (⟨2, ![2, 2000000]⟩ : Shape).Idx → BitVec 32)
    (gx bx : (⟨1, ![16]⟩ : Shape).Idx → EReal) (ge be : (⟨1, ![19]⟩ : Shape).Idx → EReal) (r : Fin 2000000) : Fin 51 → EReal :=
  cat3
    (fun q => bnCentred (lookupRef x (ei (ix2 0 r)) q) (colMean nNodes x q) (scaleOf (gx (ix1 q)) (varDev nNodes x q)) (bx (ix1 q)))
    (fun q => bnCentred (lookupRef x (ei (ix2 1 r)) q) (colMean nNodes x q) (scaleOf (gx (ix1 q)) (varDev nNodes x q)) (bx (ix1 q)))
    (fun q => bnCentred (e (ix2 r q)) (colMean nEdges e q) (scaleOf (ge (ix1 q)) (varDev nEdges e q)) (be (ix1 q)))

/-- Edge `r`'s row of 51 in the kernel's program: affine normalisation AFTER the lookup, the variance floored at zero, the
    edge table's variance from the two column sums. -/
def rowKer (x : (⟨2, ![100000, 16]⟩ : Shape).Idx → EReal) (e : (⟨2, ![2000000, 19]⟩ : Shape).Idx → EReal)
    (ei : (⟨2, ![2, 2000000]⟩ : Shape).Idx → BitVec 32)
    (gx bx : (⟨1, ![16]⟩ : Shape).Idx → EReal) (ge be : (⟨1, ![19]⟩ : Shape).Idx → EReal) (r : Fin 2000000) : Fin 51 → EReal :=
  cat3
    (fun q => bnAffine (lookupRef x (ei (ix2 0 r)) q) (colMean nNodes x q) (scaleOf (gx (ix1 q)) (max (varDev nNodes x q) zeroF)) (bx (ix1 q)))
    (fun q => bnAffine (lookupRef x (ei (ix2 1 r)) q) (colMean nNodes x q) (scaleOf (gx (ix1 q)) (max (varDev nNodes x q) zeroF)) (bx (ix1 q)))
    (fun q => bnAffine (e (ix2 r q)) (colMean nEdges e q) (scaleOf (ge (ix1 q)) (max (varMom nEdges e q) zeroF)) (be (ix1 q)))

/-! ## The row as the kernel's body sees it: arrays of rows, per-column multipliers and addends as one-row arrays -/

/-- Row `r` of the join of three tables, each column multiplied and shifted by a one-row array's entry. -/
def affRow {n : ℕ} (a0 a1 : (⟨2, ![n, 16]⟩ : Shape).Idx → EReal) (a2 : (⟨2, ![n, 19]⟩ : Shape).Idx → EReal)
    (sx tx : (⟨2, ![1, 16]⟩ : Shape).Idx → EReal) (se te : (⟨2, ![1, 19]⟩ : Shape).Idx → EReal) (r : Fin n) : Fin 51 → EReal :=
  cat3 (fun q => a0 (ix2 r q) * sx (ix2 0 q) + tx (ix2 0 q))
       (fun q => a1 (ix2 r q) * sx (ix2 0 q) + tx (ix2 0 q))
       (fun q => a2 (ix2 r q) * se (ix2 0 q) + te (ix2 0 q))

/-- The weights with the offsets given as one-row arrays. -/
def rowParams (W1 : (⟨2, ![51, 64]⟩ : Shape).Idx → EReal) (b1 : (⟨2, ![1, 64]⟩ : Shape).Idx → EReal)
    (W2 : (⟨2, ![64, 64]⟩ : Shape).Idx → EReal) (b2 : (⟨2, ![1, 64]⟩ : Shape).Idx → EReal)
    (W3 : (⟨2, ![64, 32]⟩ : Shape).Idx → EReal) (b3 : (⟨2, ![1, 32]⟩ : Shape).Idx → EReal)
    (W4 : (⟨2, ![32, 16]⟩ : Shape).Idx → EReal) (b4 : (⟨2, ![1, 16]⟩ : Shape).Idx → EReal)
    (W5 : (⟨2, ![16, 8]⟩ : Shape).Idx → EReal) (b5 : (⟨2, ![1, 8]⟩ : Shape).Idx → EReal)
    (W6 : (⟨2, ![8, 2]⟩ : Shape).Idx → EReal) (b6 : (⟨2, ![1, 2]⟩ : Shape).Idx → EReal) : Params :=
  ⟨W1, fun j => b1 (ix2 0 j), W2, fun j => b2 (ix2 0 j), W3, fun j => b3 (ix2 0 j), W4, fun j => b4 (ix2 0 j),
   W5, fun j => b5 (ix2 0 j), W6, fun j => b6 (ix2 0 j)⟩

end Cert.Gnn

end
-- ==== Proof.KBody.lean ====
/-
  The second call's body on one block of 5000 edges, read at an output index: the stored value at row `r`, column `k`
  is the network `Cert.Gnn.mlp` on row `r` of the join of the three blocks, each column multiplied and shifted.

  A layer is a product of the row before it with a weight table (a sum over the contracted axis), plus an offset row
  repeated down the rows; between layers a comparison with zero chooses between a value and its multiple.
-/
import proofs.«409262_j23338852286984_2_alg».proof.Proof.Gen.KernelIdeal.Frame
import proofs.«409262_j23338852286984_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Gnn.KBody

open Idealize.ShloMosaic Idealize.ShloMosaic.ValueIdx Idealize.SL.Sem Cert.KernelIdeal Cert.KernelIdeal.Gen

/-! ## A product's row: the sum over the contracted axis

  For a product of an `[m, n]` table with an `[n, k]` table contracting the first's axis 1 with the second's axis 0,
  the left operand's index at output `(r, j)` and contraction coordinate `t` is `(r, t)` and the right's is `(t, j)`. -/

/-- The product into a zero accumulator at `(r, j)`, from the four coordinate facts of its dimension record. -/
theorem matmul_row {m n k : ℕ} (D : DotDims (⟨2, ![m, n]⟩ : Shape) (⟨2, ![n, k]⟩ : Shape) (⟨2, ![m, k]⟩ : Shape))
    (hr : D.contr.rank = 1) (hs : D.contr.size ⟨0, by omega⟩ = n)
    (l0 : ∀ (i : (⟨2, ![m, k]⟩ : Shape).Idx) (q : D.contr.Idx), (D.lhsIdx i q 0).val = (i 0).val)
    (l1 : ∀ (i : (⟨2, ![m, k]⟩ : Shape).Idx) (q : D.contr.Idx), (D.lhsIdx i q 1).val = (q ⟨0, by omega⟩).val)
    (r0 : ∀ (i : (⟨2, ![m, k]⟩ : Shape).Idx) (q : D.contr.Idx), (D.rhsIdx i q 0).val = (q ⟨0, by omega⟩).val)
    (r1 : ∀ (i : (⟨2, ![m, k]⟩ : Shape).Idx) (q : D.contr.Idx), (D.rhsIdx i q 1).val = (i 1).val)
    (h : FVec Ideal (⟨2, ![m, n]⟩ : Shape) .f32) (W : FVec Ideal (⟨2, ![n, k]⟩ : Shape) .f32)
    (hlt : FTy.bits .bf16 < FTy.bits .f32) (r : Fin m) (j : Fin k) :
    matmul D none (truncf .bf16 h hlt) (truncf .bf16 W hlt) (constant (F := Ideal) (⟨2, ![m, k]⟩ : Shape) .f32 0x00000000#32) (ix2 r j)
      = ∑ t : Fin n, h (ix2 r t) * W (ix2 t j) := by
  simp only [matmul]
  rw [Ideal.matmul_constant_zero_apply, ← Equiv.sum_comp (contrEquiv1 D n hr hs).symm]
  refine Finset.sum_congr rfl fun t _ => ?_
  have hk := contrEquiv1_symm_val D n hr hs t
  have el : D.lhsIdx (ix2 r j) ((contrEquiv1 D n hr hs).symm t) = ix2 r t := funext fun a => Fin.ext (by
    match a with
    | ⟨0, _⟩ => exact l0 _ _
    | ⟨1, _⟩ => exact (l1 _ _).trans hk)
  have er : D.rhsIdx (ix2 r j) ((contrEquiv1 D n hr hs).symm t) = ix2 t j := funext fun a => Fin.ext (by
    match a with
    | ⟨0, _⟩ => exact (r0 _ _).trans hk
    | ⟨1, _⟩ => exact r1 _ _)
  rw [truncf_apply, truncf_apply, el, er]

/-! ## The first layer's record: 5000x51 by 51x64 -/

theorem lhs1_0 (i : S5000x64.Idx) (q : dot_S5000x51_S51x64_S5000x64_1_0_0_1_n_n.contr.Idx) :
    (dot_S5000x51_S51x64_S5000x64_1_0_0_1_n_n.lhsIdx i q 0).val = (i 0).val := by
  unfold DotDims.lhsIdx
  rw [dif_neg (show ¬(0 : Fin S5000x51.rank) ∈ dot_S5000x51_S51x64_S5000x64_1_0_0_1_n_n.lhsBatch by decide), dif_pos (show (0 : Fin S5000x51.rank) ∈ dot_S5000x51_S51x64_S5000x64_1_0_0_1_n_n.lhsNonContracting by decide)]
  rfl
theorem lhs1_1 (i : S5000x64.Idx) (q : dot_S5000x51_S51x64_S5000x64_1_0_0_1_n_n.contr.Idx) :
    (dot_S5000x51_S51x64_S5000x64_1_0_0_1_n_n.lhsIdx i q 1).val = (q ⟨0, by decide⟩).val :=
  dot_S5000x51_S51x64_S5000x64_1_0_0_1_n_n.lhsIdx_val_of_single rfl i q
theorem rhs1_0 (i : S5000x64.Idx) (q : dot_S5000x51_S51x64_S5000x64_1_0_0_1_n_n.contr.Idx) :
    (dot_S5000x51_S51x64_S5000x64_1_0_0_1_n_n.rhsIdx i q 0).val = (q ⟨0, by decide⟩).val :=
  dot_S5000x51_S51x64_S5000x64_1_0_0_1_n_n.rhsIdx_val_of_single rfl i q
theorem rhs1_1 (i : S5000x64.Idx) (q : dot_S5000x51_S51x64_S5000x64_1_0_0_1_n_n.contr.Idx) :
    (dot_S5000x51_S51x64_S5000x64_1_0_0_1_n_n.rhsIdx i q 1).val = (i 1).val := by
  unfold DotDims.rhsIdx
  rw [dif_neg (show ¬(1 : Fin S51x64.rank) ∈ dot_S5000x51_S51x64_S5000x64_1_0_0_1_n_n.rhsBatch by decide), dif_pos (show (1 : Fin S51x64.rank) ∈ dot_S5000x51_S51x64_S5000x64_1_0_0_1_n_n.rhsNonContracting by decide)]
  rfl

/-! ## The second layer's record: 5000x64 by 64x64 -/

theorem lhs2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The third layer's record: 5000x64 by 64x32 -/

theorem lhs3_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs3_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs3_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs3_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-! ## The fourth layer's record: 5000x32 by 32x16 -/

theorem lhs4_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs4_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem rhs4_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem rhs4_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-! ## The fifth layer's record: 5000x16 by 16x8 -/

theorem lhs5_0 (i : S5000x8.Idx) (q : dot_S5000x16_S16x8_S5000x8_1_0_0_1_n_n.contr.Idx) :
    (dot_S5000x16_S16x8_S5000x8_1_0_0_1_n_n.lhsIdx i q 0).val = (i 0).val := by
  unfold DotDims.lhsIdx
  rw [dif_neg (show ¬(0 : Fin S5000x16.rank) ∈ dot_S5000x16_S16x8_S5000x8_1_0_0_1_n_n.lhsBatch by decide), dif_pos (show (0 : Fin S5000x16.rank) ∈ dot_S5000x16_S16x8_S5000x8_1_0_0_1_n_n.lhsNonContracting by decide)]
  rfl
theorem lhs5_1 (i : S5000x8.Idx) (q : dot_S5000x16_S16x8_S5000x8_1_0_0_1_n_n.contr.Idx) :
    (dot_S5000x16_S16x8_S5000x8_1_0_0_1_n_n.lhsIdx i q 1).val = (q ⟨0, by decide⟩).val :=
  dot_S5000x16_S16x8_S5000x8_1_0_0_1_n_n.lhsIdx_val_of_single rfl i q
theorem rhs5_0 (i : S5000x8.Idx) (q : dot_S5000x16_S16x8_S5000x8_1_0_0_1_n_n.contr.Idx) :
    (dot_S5000x16_S16x8_S5000x8_1_0_0_1_n_n.rhsIdx i q 0).val = (q ⟨0, by decide⟩).val :=
  dot_S5000x16_S16x8_S5000x8_1_0_0_1_n_n.rhsIdx_val_of_single rfl i q
theorem rhs5_1 (i : S5000x8.Idx) (q : dot_S5000x16_S16x8_S5000x8_1_0_0_1_n_n.contr.Idx) :
    (dot_S5000x16_S16x8_S5000x8_1_0_0_1_n_n.rhsIdx i q 1).val = (i 1).val := by
  unfold DotDims.rhsIdx
  rw [dif_neg (show ¬(1 : Fin S16x8.rank) ∈ dot_S5000x16_S16x8_S5000x8_1_0_0_1_n_n.rhsBatch by decide), dif_pos (show (1 : Fin S16x8.rank) ∈ dot_S5000x16_S16x8_S5000x8_1_0_0_1_n_n.rhsNonContracting by decide)]
  rfl

/-! ## The sixth layer's record: 5000x8 by 8x2 -/

theorem lhs6_0 (i : S5000x2.Idx) (q : dot_S5000x8_S8x2_S5000x2_1_0_0_1_n_n.contr.Idx) :
    (dot_S5000x8_S8x2_S5000x2_1_0_0_1_n_n.lhsIdx i q 0).val = (i 0).val := by
  unfold DotDims.lhsIdx
  rw [dif_neg (show ¬(0 : Fin S5000x8.rank) ∈ dot_S5000x8_S8x2_S5000x2_1_0_0_1_n_n.lhsBatch by decide), dif_pos (show (0 : Fin S5000x8.rank) ∈ dot_S5000x8_S8x2_S5000x2_1_0_0_1_n_n.lhsNonContracting by decide)]
  rfl
theorem lhs6_1 (i : S5000x2.Idx) (q : dot_S5000x8_S8x2_S5000x2_1_0_0_1_n_n.contr.Idx) :
    (dot_S5000x8_S8x2_S5000x2_1_0_0_1_n_n.lhsIdx i q 1).val = (q ⟨0, by decide⟩).val :=
  dot_S5000x8_S8x2_S5000x2_1_0_0_1_n_n.lhsIdx_val_of_single rfl i q
theorem rhs6_0 (i : S5000x2.Idx) (q : dot_S5000x8_S8x2_S5000x2_1_0_0_1_n_n.contr.Idx) :
    (dot_S5000x8_S8x2_S5000x2_1_0_0_1_n_n.rhsIdx i q 0).val = (q ⟨0, by decide⟩).val :=
  dot_S5000x8_S8x2_S5000x2_1_0_0_1_n_n.rhsIdx_val_of_single rfl i q
theorem rhs6_1 (i : S5000x2.Idx) (q : dot_S5000x8_S8x2_S5000x2_1_0_0_1_n_n.contr.Idx) :
    (dot_S5000x8_S8x2_S5000x2_1_0_0_1_n_n.rhsIdx i q 1).val = (i 1).val := by
  unfold DotDims.rhsIdx
  rw [dif_neg (show ¬(1 : Fin S8x2.rank) ∈ dot_S5000x8_S8x2_S5000x2_1_0_0_1_n_n.rhsBatch by decide), dif_pos (show (1 : Fin S8x2.rank) ∈ dot_S5000x8_S8x2_S5000x2_1_0_0_1_n_n.rhsNonContracting by decide)]
  rfl

/-! ## An offset row repeated down the rows; a layer; the rectifier -/

/-- A one-row table repeated down `m` rows, at `(r, j)`: the row's entry at column `j`. -/
theorem bcast_row {m k : ℕ} (b : (⟨2, ![1, k]⟩ : Shape).Idx → EReal) (hb : (⟨2, ![1, k]⟩ : Shape).Broadcasts ⟨2, ![m, k]⟩)
    (r : Fin m) (j : Fin k) :
    broadcastTo (⟨2, ![m, k]⟩ : Shape) b hb (ix2 r j) = b (ix2 0 j) := by
  refine broadcastTo_apply b hb (ix2 r j) (ix2 0 j) (fun a => ?_)
  match a with
  | ⟨0, _⟩ => exact (if_pos rfl).symm
  | ⟨1, _⟩ =>
    show j.val = if k = 1 then 0 else j.val
    by_cases hk1 : k = 1
    · rw [if_pos hk1]; have := j.isLt; omega
    · rw [if_neg hk1]

/-- A layer before its rectifier at `(r, j)`, its input rows known as a function `g` of the row number: the affine layer
    on `g r`. -/
theorem stage {m n k : ℕ} (D : DotDims (⟨2, ![m, n]⟩ : Shape) (⟨2, ![n, k]⟩ : Shape) (⟨2, ![m, k]⟩ : Shape))
    (hr : D.contr.rank = 1) (hs : D.contr.size ⟨0, by omega⟩ = n)
    (l0 : ∀ (i : (⟨2, ![m, k]⟩ : Shape).Idx) (q : D.contr.Idx), (D.lhsIdx i q 0).val = (i 0).val)
    (l1 : ∀ (i : (⟨2, ![m, k]⟩ : Shape).Idx) (q : D.contr.Idx), (D.lhsIdx i q 1).val = (q ⟨0, by omega⟩).val)
    (r0 : ∀ (i : (⟨2, ![m, k]⟩ : Shape).Idx) (q : D.contr.Idx), (D.rhsIdx i q 0).val = (q ⟨0, by omega⟩).val)
    (r1 : ∀ (i : (⟨2, ![m, k]⟩ : Shape).Idx) (q : D.contr.Idx), (D.rhsIdx i q 1).val = (i 1).val)
    (h : FVec Ideal (⟨2, ![m, n]⟩ : Shape) .f32) (W : FVec Ideal (⟨2, ![n, k]⟩ : Shape) .f32)
    (b : FVec Ideal (⟨2, ![1, k]⟩ : Shape) .f32)
    (hlt : FTy.bits .bf16 < FTy.bits .f32) (hc : (⟨2, ![1, k]⟩ : Shape).ShapeCasts ⟨2, ![1, k]⟩)
    (hb : (⟨2, ![1, k]⟩ : Shape).Broadcasts ⟨2, ![m, k]⟩)
    (g : Fin m → Fin n → EReal) (hg : ∀ r i, h (ix2 r i) = g r i) (r : Fin m) (j : Fin k) :
    addf (matmul D none (truncf .bf16 h hlt) (truncf .bf16 W hlt) (constant (F := Ideal) (⟨2, ![m, k]⟩ : Shape) .f32 0x00000000#32))
      (broadcastTo (⟨2, ![m, k]⟩ : Shape) (shapeCast (⟨2, ![1, k]⟩ : Shape) b hc) hb) (ix2 r j)
      = Cert.Gnn.lin W (fun j => b (ix2 0 j)) (g r) j := by
  rw [addf_apply, matmul_row D hr hs l0 l1 r0 r1, shapeCast_self, bcast_row]
  show (∑ t : Fin n, h (ix2 r t) * W (ix2 t j)) + b (ix2 0 j) = (∑ i : Fin n, g r i * W (ix2 i j)) + b (ix2 0 j)
  refine congrArg (· + b (ix2 0 j)) (Finset.sum_congr rfl fun i _ => ?_)
  rw [hg r i]

/-- The rectifier as the body spells it, at `(r, j)`. -/
theorem lrelu_at {m c : ℕ} (v : FVec Ideal (⟨2, ![m, c]⟩ : Shape) .f32) (r : Fin m) (j : Fin c) :
    select (cmpf .oge v (broadcast (⟨2, ![m, c]⟩ : Shape) (Scalar.ofBits .f32 0x00000000#32 : Ideal .f32))) v
      (mulf (broadcast (⟨2, ![m, c]⟩ : Shape) (Scalar.ofBits .f32 0x3DCCCCCD#32 : Ideal .f32)) v) (ix2 r j)
      = Cert.Gnn.lrelu (v (ix2 r j)) := rfl

/-- The comparison with zero as the body spells it, at `(r, j)`. -/
theorem cmp_at {m c : ℕ} (v : FVec Ideal (⟨2, ![m, c]⟩ : Shape) .f32) (r : Fin m) (j : Fin c) :
    cmpf .oge v (broadcast (⟨2, ![m, c]⟩ : Shape) (Scalar.ofBits .f32 0x00000000#32 : Ideal .f32)) (ix2 r j)
      = Ideal.cmp .oge (v (ix2 r j)) Cert.Gnn.zeroF := rfl

/-- The multiple as the body spells it, at `(r, j)`. -/
theorem leak_at {m c : ℕ} (v : FVec Ideal (⟨2, ![m, c]⟩ : Shape) .f32) (r : Fin m) (j : Fin c) :
    mulf (broadcast (⟨2, ![m, c]⟩ : Shape) (Scalar.ofBits .f32 0x3DCCCCCD#32 : Ideal .f32)) v (ix2 r j)
      = Cert.Gnn.leak * v (ix2 r j) := rfl

/-- A layer with its rectifier at `(r, j)`. -/
theorem act_stage {m n k : ℕ} (D : DotDims (⟨2, ![m, n]⟩ : Shape) (⟨2, ![n, k]⟩ : Shape) (⟨2, ![m, k]⟩ : Shape))
    (hr : D.contr.rank = 1) (hs : D.contr.size ⟨0, by omega⟩ = n)
    (l0 : ∀ (i : (⟨2, ![m, k]⟩ : Shape).Idx) (q : D.contr.Idx), (D.lhsIdx i q 0).val = (i 0).val)
    (l1 : ∀ (i : (⟨2, ![m, k]⟩ : Shape).Idx) (q : D.contr.Idx), (D.lhsIdx i q 1).val = (q ⟨0, by omega⟩).val)
    (r0 : ∀ (i : (⟨2, ![m, k]⟩ : Shape).Idx) (q : D.contr.Idx), (D.rhsIdx i q 0).val = (q ⟨0, by omega⟩).val)
    (r1 : ∀ (i : (⟨2, ![m, k]⟩ : Shape).Idx) (q : D.contr.Idx), (D.rhsIdx i q 1).val = (i 1).val)
    (h : FVec Ideal (⟨2, ![m, n]⟩ : Shape) .f32) (W : FVec Ideal (⟨2, ![n, k]⟩ : Shape) .f32)
    (b : FVec Ideal (⟨2, ![1, k]⟩ : Shape) .f32)
    (hlt : FTy.bits .bf16 < FTy.bits .f32) (hc : (⟨2, ![1, k]⟩ : Shape).ShapeCasts ⟨2, ![1, k]⟩)
    (hb : (⟨2, ![1, k]⟩ : Shape).Broadcasts ⟨2, ![m, k]⟩)
    (g : Fin m → Fin n → EReal) (hg : ∀ r i, h (ix2 r i) = g r i) (r : Fin m) (j : Fin k) :
    select
        (cmpf .oge
          (addf (matmul D none (truncf .bf16 h hlt) (truncf .bf16 W hlt) (constant (F := Ideal) (⟨2, ![m, k]⟩ : Shape) .f32 0x00000000#32))
            (broadcastTo (⟨2, ![m, k]⟩ : Shape) (shapeCast (⟨2, ![1, k]⟩ : Shape) b hc) hb))
          (broadcast (⟨2, ![m, k]⟩ : Shape) (Scalar.ofBits .f32 0x00000000#32 : Ideal .f32)))
        (addf (matmul D none (truncf .bf16 h hlt) (truncf .bf16 W hlt) (constant (F := Ideal) (⟨2, ![m, k]⟩ : Shape) .f32 0x00000000#32))
          (broadcastTo (⟨2, ![m, k]⟩ : Shape) (shapeCast (⟨2, ![1, k]⟩ : Shape) b hc) hb))
        (mulf (broadcast (⟨2, ![m, k]⟩ : Shape) (Scalar.ofBits .f32 0x3DCCCCCD#32 : Ideal .f32))
          (addf (matmul D none (truncf .bf16 h hlt) (truncf .bf16 W hlt) (constant (F := Ideal) (⟨2, ![m, k]⟩ : Shape) .f32 0x00000000#32))
            (broadcastTo (⟨2, ![m, k]⟩ : Shape) (shapeCast (⟨2, ![1, k]⟩ : Shape) b hc) hb))) (ix2 r j)
      = Cert.Gnn.lrelu (Cert.Gnn.lin W (fun j => b (ix2 0 j)) (g r) j) := by
  rw [lrelu_at, stage D hr hs l0 l1 r0 r1 h W b hlt hc hb g hg]

/-! ## The join of the three column groups -/

/-- The join along the columns at `(r, j)`: the first table for `j < 16`, the second for `16 ≤ j < 32`, the third after. -/
theorem cat_at (A0 A1 : FVec Ideal S5000x16 .f32) (A2 : FVec Ideal S5000x19 .f32) (r : Fin 5000) (j : Fin 51) :
    concatenate S5000x51 1 [⟨S5000x16, A0⟩, ⟨S5000x16, A1⟩, ⟨S5000x19, A2⟩] concatenates_S5000x16_S5000x16_S5000x19_S5000x51_d1 (ix2 r j)
      = Cert.Gnn.cat3 (fun q => A0 (ix2 r q)) (fun q => A1 (ix2 r q)) (fun q => A2 (ix2 r q)) j := by
  unfold Cert.Gnn.cat3
  by_cases h1 : j.val < 16
  · rw [dif_pos h1]
    exact concatenate_apply_piece (1 : Fin S5000x51.rank) _ _ (ix2 r j) 0 (by show (0 : ℕ) < 3; omega) S5000x16 A0 rfl rfl 0 rfl
      (ix2 r ⟨j.val, h1⟩)
      (fun b hb => by
        match b with
        | ⟨0, _⟩ => rfl
        | ⟨1, _⟩ => exact absurd rfl hb)
      (Nat.zero_add _)
  · rw [dif_neg h1]
    by_cases h2 : j.val < 32
    · rw [dif_pos h2]
      exact concatenate_apply_piece (1 : Fin S5000x51.rank) _ _ (ix2 r j) 1 (by show (1 : ℕ) < 3; omega) S5000x16 A1 rfl rfl 16 rfl
        (ix2 r ⟨j.val - 16, by omega⟩)
        (fun b hb => by
          match b with
          | ⟨0, _⟩ => rfl
          | ⟨1, _⟩ => exact absurd rfl hb)
        (by show 16 + (j.val - 16) = j.val; omega)
    · rw [dif_neg h2]
      exact concatenate_apply_piece (1 : Fin S5000x51.rank) _ _ (ix2 r j) 2 (by show (2 : ℕ) < 3; omega) S5000x19 A2 rfl rfl 32 rfl
        (ix2 r ⟨j.val - 32, by have := j.isLt; omega⟩)
        (fun b hb => by
          match b with
          | ⟨0, _⟩ => rfl
          | ⟨1, _⟩ => exact absurd rfl hb)
        (by show 32 + (j.val - 32) = j.val; omega)

/-- The joined row as the body forms it — each block times its multiplier row plus its addend row — is `affRow`. -/
theorem join_row (sx tx : Vec Ideal S1x16 .f32) (se te : Vec Ideal S1x19 .f32) (a0 a1 : Vec Ideal S5000x16 .f32)
    (a2 : Vec Ideal S5000x19 .f32) (r : Fin 5000) (i : Fin 51) :
    concatenate (α := Ideal .f32) S5000x51 1
        [⟨S5000x16, addf (mulf (shapeCast S5000x16 a0 shapeCasts_S5000x16_S5000x16)
            (broadcastTo S5000x16 (shapeCast S1x16 sx shapeCasts_S1x16_S1x16) broadcasts_S1x16_S5000x16))
            (broadcastTo S5000x16 (shapeCast S1x16 tx shapeCasts_S1x16_S1x16) broadcasts_S1x16_S5000x16)⟩,
         ⟨S5000x16, addf (mulf (shapeCast S5000x16 a1 shapeCasts_S5000x16_S5000x16)
            (broadcastTo S5000x16 (shapeCast S1x16 sx shapeCasts_S1x16_S1x16) broadcasts_S1x16_S5000x16))
            (broadcastTo S5000x16 (shapeCast S1x16 tx shapeCasts_S1x16_S1x16) broadcasts_S1x16_S5000x16)⟩,
         ⟨S5000x19, addf (mulf a2
            (broadcastTo S5000x19 (shapeCast S1x19 se shapeCasts_S1x19_S1x19) broadcasts_S1x19_S5000x19))
            (broadcastTo S5000x19 (shapeCast S1x19 te shapeCasts_S1x19_S1x19) broadcasts_S1x19_S5000x19)⟩]
        concatenates_S5000x16_S5000x16_S5000x19_S5000x51_d1 (ix2 r i)
      = Cert.Gnn.affRow a0 a1 a2 sx tx se te r i := by
  rw [cat_at]
  unfold Cert.Gnn.affRow
  simp only [addf_apply, mulf_apply, shapeCast_self, bcast_row]

/-! ## The body's named values at an index -/

/-- Layer 1 before its rectifier. -/
theorem pay2_apply (sx tx : Vec Ideal S1x16 .f32) (se te : Vec Ideal S1x19 .f32) (a0 a1 : Vec Ideal S5000x16 .f32)
    (a2 : Vec Ideal S5000x19 .f32) (W1 : Vec Ideal S51x64 .f32) (b1 : Vec Ideal S1x64 .f32) (r : Fin 5000) (j : Fin 64) :
    k1_pay2 (F := Ideal) sx tx se te a0 a1 a2 W1 b1 (ix2 r j)
      = Cert.Gnn.lin W1 (fun j => b1 (ix2 0 j)) (Cert.Gnn.affRow a0 a1 a2 sx tx se te r) j := by
  unfold k1_pay2
  exact stage dot_S5000x51_S51x64_S5000x64_1_0_0_1_n_n rfl rfl lhs1_0 lhs1_1 rhs1_0 rhs1_1 _ W1 b1 _ _ _
    (fun r => Cert.Gnn.affRow a0 a1 a2 sx tx se te r) (fun r i => join_row sx tx se te a0 a1 a2 r i) r j

/-- Its comparison with zero. -/
theorem pay3_apply (sx tx : Vec Ideal S1x16 .f32) (se te : Vec Ideal S1x19 .f32) (a0 a1 : Vec Ideal S5000x16 .f32)
    (a2 : Vec Ideal S5000x19 .f32) (W1 : Vec Ideal S51x64 .f32) (b1 : Vec Ideal S1x64 .f32) (r : Fin 5000) (j : Fin 64) :
    k1_pay3 (F := Ideal) sx tx se te a0 a1 a2 W1 b1 (ix2 r j)
      = Ideal.cmp .oge (k1_pay2 (F := Ideal) sx tx se te a0 a1 a2 W1 b1 (ix2 r j)) Cert.Gnn.zeroF := by
  unfold k1_pay3
  exact cmp_at (k1_pay2 (F := Ideal) sx tx se te a0 a1 a2 W1 b1) r j

/-- Its multiple. -/
theorem pay4_apply (sx tx : Vec Ideal S1x16 .f32) (se te : Vec Ideal S1x19 .f32) (a0 a1 : Vec Ideal S5000x16 .f32)
    (a2 : Vec Ideal S5000x19 .f32) (W1 : Vec Ideal S51x64 .f32) (b1 : Vec Ideal S1x64 .f32) (r : Fin 5000) (j : Fin 64) :
    k1_pay4 (F := Ideal) sx tx se te a0 a1 a2 W1 b1 (ix2 r j)
      = Cert.Gnn.leak * k1_pay2 (F := Ideal) sx tx se te a0 a1 a2 W1 b1 (ix2 r j) := by
  unfold k1_pay4
  exact leak_at (k1_pay2 (F := Ideal) sx tx se te a0 a1 a2 W1 b1) r j

/-- Layer 4 before its rectifier, from layer 1's value `g`, its comparison and its multiple. -/
theorem pay5_apply (v33 : FVec Ideal S5000x64 .f32) (v35 : IVec S5000x64 1) (v37 : FVec Ideal S5000x64 .f32)
    (W2 : Vec Ideal S64x64 .f32) (b2 : Vec Ideal S1x64 .f32) (W3 : Vec Ideal S64x32 .f32) (b3 : Vec Ideal S1x32 .f32)
    (W4 : Vec Ideal S32x16 .f32) (b4 : Vec Ideal S1x16 .f32) (g : Fin 5000 → Fin 64 → EReal)
    (h33 : ∀ r j, v33 (ix2 r j) = g r j) (h35 : ∀ r j, v35 (ix2 r j) = Ideal.cmp .oge (g r j) Cert.Gnn.zeroF)
    (h37 : ∀ r j, v37 (ix2 r j) = Cert.Gnn.leak * g r j) (r : Fin 5000) (j : Fin 16) :
    k1_pay5 (F := Ideal) v33 v35 v37 W2 b2 W3 b3 W4 b4 (ix2 r j)
      = Cert.Gnn.lin W4 (fun j => b4 (ix2 0 j))
          (fun i => Cert.Gnn.lrelu (Cert.Gnn.lin W3 (fun j => b3 (ix2 0 j))
            (fun i => Cert.Gnn.lrelu (Cert.Gnn.lin W2 (fun j => b2 (ix2 0 j)) (fun i => Cert.Gnn.lrelu (g r i)) i)) i)) j := by
  have e38 : ∀ (r : Fin 5000) (i : Fin 64), select v35 v33 v37 (ix2 r i) = Cert.Gnn.lrelu (g r i) := fun r i => by
    rw [select_apply, h35, h37, h33]; rfl
  unfold k1_pay5
  exact stage dot_S5000x32_S32x16_S5000x16_1_0_0_1_n_n rfl rfl lhs4_0 lhs4_1 rhs4_0 rhs4_1 _ W4 b4 _ _ _
    (fun r i => Cert.Gnn.lrelu (Cert.Gnn.lin W3 (fun j => b3 (ix2 0 j))
      (fun i => Cert.Gnn.lrelu (Cert.Gnn.lin W2 (fun j => b2 (ix2 0 j)) (fun i => Cert.Gnn.lrelu (g r i)) i)) i))
    (fun r i => act_stage dot_S5000x64_S64x32_S5000x32_1_0_0_1_n_n rfl rfl lhs3_0 lhs3_1 rhs3_0 rhs3_1 _ W3 b3 _ _ _
      (fun r i => Cert.Gnn.lrelu (Cert.Gnn.lin W2 (fun j => b2 (ix2 0 j)) (fun i => Cert.Gnn.lrelu (g r i)) i))
      (fun r i => act_stage dot_S5000x64_S64x64_S5000x64_1_0_0_1_n_n rfl rfl lhs2_0 lhs2_1 rhs2_0 rhs2_1 _ W2 b2 _ _ _
        (fun r i => Cert.Gnn.lrelu (g r i)) e38 r i) r i) r j

/-- Its comparison with zero. -/
theorem pay6_apply (v33 : FVec Ideal S5000x64 .f32) (v35 : IVec S5000x64 1) (v37 : FVec Ideal S5000x64 .f32)
    (W2 : Vec Ideal S64x64 .f32) (b2 : Vec Ideal S1x64 .f32) (W3 : Vec Ideal S64x32 .f32) (b3 : Vec Ideal S1x32 .f32)
    (W4 : Vec Ideal S32x16 .f32) (b4 : Vec Ideal S1x16 .f32) (r : Fin 5000) (j : Fin 16) :
    k1_pay6 (F := Ideal) v33 v35 v37 W2 b2 W3 b3 W4 b4 (ix2 r j)
      = Ideal.cmp .oge (k1_pay5 (F := Ideal) v33 v35 v37 W2 b2 W3 b3 W4 b4 (ix2 r j)) Cert.Gnn.zeroF := by
  unfold k1_pay6
  exact cmp_at (k1_pay5 (F := Ideal) v33 v35 v37 W2 b2 W3 b3 W4 b4) r j

/-- Its multiple. -/
theorem pay7_apply (v33 : FVec Ideal S5000x64 .f32) (v35 : IVec S5000x64 1) (v37 : FVec Ideal S5000x64 .f32)
    (W2 : Vec Ideal S64x64 .f32) (b2 : Vec Ideal S1x64 .f32) (W3 : Vec Ideal S64x32 .f32) (b3 : Vec Ideal S1x32 .f32)
    (W4 : Vec Ideal S32x16 .f32) (b4 : Vec Ideal S1x16 .f32) (r : Fin 5000) (j : Fin 16) :
    k1_pay7 (F := Ideal) v33 v35 v37 W2 b2 W3 b3 W4 b4 (ix2 r j)
      = Cert.Gnn.leak * k1_pay5 (F := Ideal) v33 v35 v37 W2 b2 W3 b3 W4 b4 (ix2 r j) := by
  unfold k1_pay7
  exact leak_at (k1_pay5 (F := Ideal) v33 v35 v37 W2 b2 W3 b3 W4 b4) r j

/-- The stored value, from layer 4's value `g`, its comparison and its multiple. -/
theorem pay1_apply (v72 : FVec Ideal S5000x16 .f32) (v74 : IVec S5000x16 1) (v76 : FVec Ideal S5000x16 .f32)
    (W5 : Vec Ideal S16x8 .f32) (b5 : Vec Ideal S1x8 .f32) (W6 : Vec Ideal S8x2 .f32) (b6 : Vec Ideal S1x2 .f32)
    (g : Fin 5000 → Fin 16 → EReal)
    (h72 : ∀ r j, v72 (ix2 r j) = g r j) (h74 : ∀ r j, v74 (ix2 r j) = Ideal.cmp .oge (g r j) Cert.Gnn.zeroF)
    (h76 : ∀ r j, v76 (ix2 r j) = Cert.Gnn.leak * g r j) (r : Fin 5000) (j : Fin 2) :
    k1_pay1 (F := Ideal) v72 v74 v76 W5 b5 W6 b6 (ix2 r j)
      = Cert.Gnn.lin W6 (fun j => b6 (ix2 0 j))
          (fun i => Cert.Gnn.lrelu (Cert.Gnn.lin W5 (fun j => b5 (ix2 0 j)) (fun i => Cert.Gnn.lrelu (g r i)) i)) j := by
  have e77 : ∀ (r : Fin 5000) (i : Fin 16), select v74 v72 v76 (ix2 r i) = Cert.Gnn.lrelu (g r i) := fun r i => by
    rw [select_apply, h74, h76, h72]; rfl
  unfold k1_pay1
  exact stage dot_S5000x8_S8x2_S5000x2_1_0_0_1_n_n rfl rfl lhs6_0 lhs6_1 rhs6_0 rhs6_1 _ W6 b6 _ _ _
    (fun r i => Cert.Gnn.lrelu (Cert.Gnn.lin W5 (fun j => b5 (ix2 0 j)) (fun i => Cert.Gnn.lrelu (g r i)) i))
    (fun r i => act_stage dot_S5000x16_S16x8_S5000x8_1_0_0_1_n_n rfl rfl lhs5_0 lhs5_1 rhs5_0 rhs5_1 _ W5 b5 _ _ _
      (fun r i => Cert.Gnn.lrelu (g r i)) e77 r i) r j

/-! ## The output block -/

/-- Both offsets of a whole-block access are zero. -/
theorem offs_zero : (![0, 0] : Fin 2 → Nat) = fun _ => 0 := funext fun a => by
  match a with
  | ⟨0, _⟩ => rfl
  | ⟨1, _⟩ => rfl

/-- What the body leaves in the output block at row `r`, column `k`: the network on row `r` of the joined blocks. -/
theorem out_apply (x0 x1 : Vec Ideal S5000x16 .f32) (x2 : Vec Ideal S5000x19 .f32) (x3 x4 : Vec Ideal S1x16 .f32)
    (x5 x6 : Vec Ideal S1x19 .f32) (x7 : Vec Ideal S51x64 .f32) (x8 : Vec Ideal S1x64 .f32) (x9 : Vec Ideal S64x64 .f32)
    (x10 : Vec Ideal S1x64 .f32) (x11 : Vec Ideal S64x32 .f32) (x12 : Vec Ideal S1x32 .f32) (x13 : Vec Ideal S32x16 .f32)
    (x14 : Vec Ideal S1x16 .f32) (x15 : Vec Ideal S16x8 .f32) (x16 : Vec Ideal S1x8 .f32) (x17 : Vec Ideal S8x2 .f32)
    (x18 : Vec Ideal S1x2 .f32) (r : Fin 5000) (k : Fin 2) :
    Cert.KernelIdeal.Gen.out1_19 (F := Ideal) x0 x1 x2 x3 x4 x5 x6 x7 x8 x9 x10 x11 x12 x13 x14 x15 x16 x17 x18 (ix2 r k)
      = Cert.Gnn.mlp (Cert.Gnn.rowParams x7 x8 x9 x10 x11 x12 x13 x14 x15 x16 x17 x18) (Cert.Gnn.affRow x0 x1 x2 x3 x4 x5 x6 r) k := by
  unfold out1_19
  rw [View.canon_unit_zero offs_zero]
  simp only [View.ld_unit_zero (S := S1x16) offs_zero, View.ld_unit_zero (S := S1x19) offs_zero,
    View.ld_unit_zero (S := S5000x16) offs_zero, View.ld_unit_zero (S := S5000x19) offs_zero,
    View.ld_unit_zero (S := S51x64) offs_zero, View.ld_unit_zero (S := S1x64) offs_zero,
    View.ld_unit_zero (S := S64x64) offs_zero, View.ld_unit_zero (S := S64x32) offs_zero,
    View.ld_unit_zero (S := S1x32) offs_zero, View.ld_unit_zero (S := S32x16) offs_zero,
    View.ld_unit_zero (S := S16x8) offs_zero, View.ld_unit_zero (S := S1x8) offs_zero,
    View.ld_unit_zero (S := S8x2) offs_zero, View.ld_unit_zero (S := S1x2) offs_zero]
  -- layer 1 before its rectifier, and layer 4 before its rectifier, as functions of the row number
  have h33 : ∀ (r : Fin 5000) (j : Fin 64), k1_pay2 (F := Ideal) x3 x4 x5 x6 x0 x1 x2 x7 x8 (ix2 r j)
      = Cert.Gnn.lin x7 (fun j => x8 (ix2 0 j)) (Cert.Gnn.affRow x0 x1 x2 x3 x4 x5 x6 r) j :=
    fun r j => pay2_apply x3 x4 x5 x6 x0 x1 x2 x7 x8 r j
  have h72 := fun (r : Fin 5000) (j : Fin 16) =>
    pay5_apply (k1_pay2 (F := Ideal) x3 x4 x5 x6 x0 x1 x2 x7 x8) (k1_pay3 (F := Ideal) x3 x4 x5 x6 x0 x1 x2 x7 x8)
      (k1_pay4 (F := Ideal) x3 x4 x5 x6 x0 x1 x2 x7 x8) x9 x10 x11 x12 x13 x14
      (fun r j => Cert.Gnn.lin x7 (fun j => x8 (ix2 0 j)) (Cert.Gnn.affRow x0 x1 x2 x3 x4 x5 x6 r) j) h33
      (fun r j => (pay3_apply x3 x4 x5 x6 x0 x1 x2 x7 x8 r j).trans (by rw [h33 r j]))
      (fun r j => (pay4_apply x3 x4 x5 x6 x0 x1 x2 x7 x8 r j).trans (by rw [h33 r j])) r j
  refine (pay1_apply _ _ _ x15 x16 x17 x18 _ h72
    (fun r j => (pay6_apply _ _ _ x9 x10 x11 x12 x13 x14 r j).trans (by rw [h72 r j]))
    (fun r j => (pay7_apply _ _ _ x9 x10 x11 x12 x13 x14 r j).trans (by rw [h72 r j])) r k).trans ?_
  rfl

end Cert.Gnn.KBody

end
-- ==== Proof.KRegion1.lean ====
/-
  The second region of the kernel's program scores the edges block by block: the 2,000,000 edges are cut in 400 blocks of
  5,000 rows, and grid point `t` reads rows `5000 t … 5000 t + 4999` of the two looked-up node tables and of the edge table,
  the per-column multipliers and addends and the six layers' weights whole, and writes rows `5000 t … 5000 t + 4999` of the
  scores. Given that one block's scores are the network on each of its rows (`BlockScores`), the array the region leaves
  is the network on every edge's row: entry `(r, k)` is score `k` of edge `r`.

  The argument: each window's block index at a point; a block read at an index is the
  array read at row `5000 t + r'` (the cut windows) or at the same index (the whole windows); so what point `t` writes
  back is block `t` of ONE whole-array function `edgeScores`; every row `r` lies in the block of point `r / 5000`; hence the
  array after the last point is `edgeScores`.
-/
import proofs.«409262_j23338852286984_2_alg».proof.Proof.Gen.KernelIdeal.Frame
import proofs.«409262_j23338852286984_2_alg».proof.Proof.Spec
import Idealize.ShloMosaic.Lib.Pipeline.Value
import Idealize.ShloMosaic.Lib.ValueIdx

noncomputable section

namespace Cert.Gnn.KRegion1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the region is entered
variable (V : (c : Dev nD) → (b : Ref sig .tc) → Buf (Elt Ideal) ((c : Thread nD τ).loc b))

/-! ## The arrays the region reads, and each window's block at a point, at their literal shapes -/

/-- Window 0's array. -/
abbrev arr0 (c : Dev nD) : Vec Ideal S2000000x16 .f32 := V c main_v39
/-- Window 0's block at point `t`. -/
abbrev blk0 (c : Dev nD) (t : Fin cfg1.N) : Vec Ideal S5000x16 .f32 := iblk1 V c 0 t
/-- Window 1's array. -/
abbrev arr1 (c : Dev nD) : Vec Ideal S2000000x16 .f32 := V c main_v40
/-- Window 1's block at point `t`. -/
abbrev blk1 (c : Dev nD) (t : Fin cfg1.N) : Vec Ideal S5000x16 .f32 := iblk1 V c 1 t
/-- Window 2's array. -/
abbrev arr2 (c : Dev nD) : Vec Ideal S2000000x19 .f32 := V c main_arg1
/-- Window 2's block at point `t`. -/
abbrev blk2 (c : Dev nD) (t : Fin cfg1.N) : Vec Ideal S5000x19 .f32 := iblk1 V c 2 t
/-- Window 3's array. -/
abbrev arr3 (c : Dev nD) : Vec Ideal S1x16 .f32 := V c main_v41
/-- Window 3's block at point `t`. -/
abbrev blk3 (c : Dev nD) (t : Fin cfg1.N) : Vec Ideal S1x16 .f32 := iblk1 V c 3 t
/-- Window 4's array. -/
abbrev arr4 (c : Dev nD) : Vec Ideal S1x16 .f32 := V c main_v42
/-- Window 4's block at point `t`. -/
abbrev blk4 (c : Dev nD) (t : Fin cfg1.N) : Vec Ideal S1x16 .f32 := iblk1 V c 4 t
/-- Window 5's array. -/
abbrev arr5 (c : Dev nD) : Vec Ideal S1x19 .f32 := V c main_v43
/-- Window 5's block at point `t`. -/
abbrev blk5 (c : Dev nD) (t : Fin cfg1.N) : Vec Ideal S1x19 .f32 := iblk1 V c 5 t
/-- Window 6's array. -/
abbrev arr6 (c : Dev nD) : Vec Ideal S1x19 .f32 := V c main_v44
/-- Window 6's block at point `t`. -/
abbrev blk6 (c : Dev nD) (t : Fin cfg1.N) : Vec Ideal S1x19 .f32 := iblk1 V c 6 t
/-- Window 7's array. -/
abbrev arr7 (c : Dev nD) : Vec Ideal S51x64 .f32 := V c main_arg8
/-- Window 7's block at point `t`. -/
abbrev blk7 (c : Dev nD) (t : Fin cfg1.N) : Vec Ideal S51x64 .f32 := iblk1 V c 7 t
/-- Window 8's array. -/
abbrev arr8 (c : Dev nD) : Vec Ideal S1x64 .f32 := V c main_v45
/-- Window 8's block at point `t`. -/
abbrev blk8 (c : Dev nD) (t : Fin cfg1.N) : Vec Ideal S1x64 .f32 := iblk1 V c 8 t
/-- Window 9's array. -/
abbrev arr9 (c : Dev nD) : Vec Ideal S64x64 .f32 := V c main_arg10
/-- Window 9's block at point `t`. -/
abbrev blk9 (c : Dev nD) (t : Fin cfg1.N) : Vec Ideal S64x64 .f32 := iblk1 V c 9 t
/-- Window 10's array. -/
abbrev arr10 (c : Dev nD) : Vec Ideal S1x64 .f32 := V c main_v46
/-- Window 10's block at point `t`. -/
abbrev blk10 (c : Dev nD) (t : Fin cfg1.N) : Vec Ideal S1x64 .f32 := iblk1 V c 10 t
/-- Window 11's array. -/
abbrev arr11 (c : Dev nD) : Vec Ideal S64x32 .f32 := V c main_arg12
/-- Window 11's block at point `t`. -/
abbrev blk11 (c : Dev nD) (t : Fin cfg1.N) : Vec Ideal S64x32 .f32 := iblk1 V c 11 t
/-- Window 12's array. -/
abbrev arr12 (c : Dev nD) : Vec Ideal S1x32 .f32 := V c main_v47
/-- Window 12's block at point `t`. -/
abbrev blk12 (c : Dev nD) (t : Fin cfg1.N) : Vec Ideal S1x32 .f32 := iblk1 V c 12 t
/-- Window 13's array. -/
abbrev arr13 (c : Dev nD) : Vec Ideal S32x16 .f32 := V c main_arg14
/-- Window 13's block at point `t`. -/
abbrev blk13 (c : Dev nD) (t : Fin cfg1.N) : Vec Ideal S32x16 .f32 := iblk1 V c 13 t
/-- Window 14's array. -/
abbrev arr14 (c : Dev nD) : Vec Ideal S1x16 .f32 := V c main_v48
/-- Window 14's block at point `t`. -/
abbrev blk14 (c : Dev nD) (t : Fin cfg1.N) : Vec Ideal S1x16 .f32 := iblk1 V c 14 t
/-- Window 15's array. -/
abbrev arr15 (c : Dev nD) : Vec Ideal S16x8 .f32 := V c main_arg16
/-- Window 15's block at point `t`. -/
abbrev blk15 (c : Dev nD) (t : Fin cfg1.N) : Vec Ideal S16x8 .f32 := iblk1 V c 15 t
/-- Window 16's array. -/
abbrev arr16 (c : Dev nD) : Vec Ideal S1x8 .f32 := V c main_v49
/-- Window 16's block at point `t`. -/
abbrev blk16 (c : Dev nD) (t : Fin cfg1.N) : Vec Ideal S1x8 .f32 := iblk1 V c 16 t
/-- Window 17's array. -/
abbrev arr17 (c : Dev nD) : Vec Ideal S8x2 .f32 := V c main_arg18
/-- Window 17's block at point `t`. -/
abbrev blk17 (c : Dev nD) (t : Fin cfg1.N) : Vec Ideal S8x2 .f32 := iblk1 V c 17 t
/-- Window 18's array. -/
abbrev arr18 (c : Dev nD) : Vec Ideal S1x2 .f32 := V c main_v50
/-- Window 18's block at point `t`. -/
abbrev blk18 (c : Dev nD) (t : Fin cfg1.N) : Vec Ideal S1x2 .f32 := iblk1 V c 18 t

/-! ## One block's scores, as a hypothesis -/

/-- A block's stored scores are the network on each of its 5,000 rows: row `r` of the three row blocks, each column
    multiplied and shifted, through the six layers. -/
abbrev BlockScores : Prop :=
  ∀ (x0 x1 : Vec Ideal S5000x16 .f32) (x2 : Vec Ideal S5000x19 .f32) (x3 x4 : Vec Ideal S1x16 .f32) (x5 x6 : Vec Ideal S1x19 .f32) (x7 : Vec Ideal S51x64 .f32) (x8 : Vec Ideal S1x64 .f32) (x9 : Vec Ideal S64x64 .f32) (x10 : Vec Ideal S1x64 .f32) (x11 : Vec Ideal S64x32 .f32) (x12 : Vec Ideal S1x32 .f32) (x13 : Vec Ideal S32x16 .f32) (x14 : Vec Ideal S1x16 .f32) (x15 : Vec Ideal S16x8 .f32) (x16 : Vec Ideal S1x8 .f32) (x17 : Vec Ideal S8x2 .f32) (x18 : Vec Ideal S1x2 .f32) (r : Fin 5000) (k : Fin 2),
    Cert.KernelIdeal.Gen.out1_19 (F := Ideal) x0 x1 x2 x3 x4 x5 x6 x7 x8 x9 x10 x11 x12 x13 x14 x15 x16 x17 x18 (ix2 r k)
      = Cert.Gnn.mlp (Cert.Gnn.rowParams x7 x8 x9 x10 x11 x12 x13 x14 x15 x16 x17 x18) (Cert.Gnn.affRow x0 x1 x2 x3 x4 x5 x6 r) k

/-! ## The whole array of scores -/

/-- Entry `(r, k)` is score `k` of the network on edge `r`'s row, the weights and the per-column multipliers and addends as the
    region finds them. -/
def edgeScores (c : Dev nD) : S2000000x2.Idx → EReal := fun i =>
  Cert.Gnn.mlp (Cert.Gnn.rowParams (arr7 V c) (arr8 V c) (arr9 V c) (arr10 V c) (arr11 V c) (arr12 V c) (arr13 V c) (arr14 V c) (arr15 V c) (arr16 V c) (arr17 V c) (arr18 V c))
    (Cert.Gnn.affRow (arr0 V c) (arr1 V c) (arr2 V c) (arr3 V c) (arr4 V c) (arr5 V c) (arr6 V c) (i 0)) (i 1)

/-- A row of the join depends on the three tables through that row only. -/
theorem affRow_congr {n n' : ℕ} (a0 a1 : (⟨2, ![n, 16]⟩ : Shape).Idx → EReal) (a2 : (⟨2, ![n, 19]⟩ : Shape).Idx → EReal)
    (a0' a1' : (⟨2, ![n', 16]⟩ : Shape).Idx → EReal) (a2' : (⟨2, ![n', 19]⟩ : Shape).Idx → EReal)
    (sx tx : (⟨2, ![1, 16]⟩ : Shape).Idx → EReal) (se te : (⟨2, ![1, 19]⟩ : Shape).Idx → EReal) (r : Fin n) (r' : Fin n')
    (h0 : ∀ q, a0 (ix2 r q) = a0' (ix2 r' q)) (h1 : ∀ q, a1 (ix2 r q) = a1' (ix2 r' q)) (h2 : ∀ q, a2 (ix2 r q) = a2' (ix2 r' q)) :
    Cert.Gnn.affRow a0 a1 a2 sx tx se te r = Cert.Gnn.affRow a0' a1' a2' sx tx se te r' := by
  funext j
  unfold Cert.Gnn.affRow
  simp only [h0, h1, h2]

/-! ## Where each window's block sits at each of the 400 points -/

theorem hz : (![0, 0] : Fin 2 → Nat) = fun _ => 0 := funext fun a => by fin_cases a <;> rfl

/-- Window 0 moves down the rows with the point and stays at column block 0. -/
theorem index0 : ∀ t : Fin cfg1.N, win1_0.index t (0 : Fin 2) = t.val ∧ win1_0.index t (1 : Fin 2) = 0 :=
  (by decide +kernel : ∀ t : Fin grid1.N, _)
/-- Window 1 moves down the rows with the point and stays at column block 0. -/
theorem index1 : ∀ t : Fin cfg1.N, win1_1.index t (0 : Fin 2) = t.val ∧ win1_1.index t (1 : Fin 2) = 0 :=
  (by decide +kernel : ∀ t : Fin grid1.N, _)
/-- Window 2 moves down the rows with the point and stays at column block 0. -/
theorem index2 : ∀ t : Fin cfg1.N, win1_2.index t (0 : Fin 2) = t.val ∧ win1_2.index t (1 : Fin 2) = 0 :=
  (by decide +kernel : ∀ t : Fin grid1.N, _)
/-- Window 19 moves down the rows with the point and stays at column block 0. -/
theorem index19 : ∀ t : Fin cfg1.N, win1_19.index t (0 : Fin 2) = t.val ∧ win1_19.index t (1 : Fin 2) = 0 :=
  (by decide +kernel : ∀ t : Fin grid1.N, _)
/-- Window 3 is its whole array at every point. -/
theorem index3 : ∀ t : Fin cfg1.N, win1_3.index t (0 : Fin 2) = 0 ∧ win1_3.index t (1 : Fin 2) = 0 :=
  (by decide +kernel : ∀ t : Fin grid1.N, _)
/-- Window 4 is its whole array at every point. -/
theorem index4 : ∀ t : Fin cfg1.N, win1_4.index t (0 : Fin 2) = 0 ∧ win1_4.index t (1 : Fin 2) = 0 :=
  (by decide +kernel : ∀ t : Fin grid1.N, _)
/-- Window 5 is its whole array at every point. -/
theorem index5 : ∀ t : Fin cfg1.N, win1_5.index t (0 : Fin 2) = 0 ∧ win1_5.index t (1 : Fin 2) = 0 :=
  (by decide +kernel : ∀ t : Fin grid1.N, _)
/-- Window 6 is its whole array at every point. -/
theorem index6 : ∀ t : Fin cfg1.N, win1_6.index t (0 : Fin 2) = 0 ∧ win1_6.index t (1 : Fin 2) = 0 :=
  (by decide +kernel : ∀ t : Fin grid1.N, _)
/-- Window 7 is its whole array at every point. -/
theorem index7 : ∀ t : Fin cfg1.N, win1_7.index t (0 : Fin 2) = 0 ∧ win1_7.index t (1 : Fin 2) = 0 :=
  (by decide +kernel : ∀ t : Fin grid1.N, _)
/-- Window 8 is its whole array at every point. -/
theorem index8 : ∀ t : Fin cfg1.N, win1_8.index t (0 : Fin 2) = 0 ∧ win1_8.index t (1 : Fin 2) = 0 :=
  (by decide +kernel : ∀ t : Fin grid1.N, _)
/-- Window 9 is its whole array at every point. -/
theorem index9 : ∀ t : Fin cfg1.N, win1_9.index t (0 : Fin 2) = 0 ∧ win1_9.index t (1 : Fin 2) = 0 :=
  (by decide +kernel : ∀ t : Fin grid1.N, _)
/-- Window 10 is its whole array at every point. -/
theorem index10 : ∀ t : Fin cfg1.N, win1_10.index t (0 : Fin 2) = 0 ∧ win1_10.index t (1 : Fin 2) = 0 :=
  (by decide +kernel : ∀ t : Fin grid1.N, _)
/-- Window 11 is its whole array at every point. -/
theorem index11 : ∀ t : Fin cfg1.N, win1_11.index t (0 : Fin 2) = 0 ∧ win1_11.index t (1 : Fin 2) = 0 :=
  (by decide +kernel : ∀ t : Fin grid1.N, _)
/-- Window 12 is its whole array at every point. -/
theorem index12 : ∀ t : Fin cfg1.N, win1_12.index t (0 : Fin 2) = 0 ∧ win1_12.index t (1 : Fin 2) = 0 :=
  (by decide +kernel : ∀ t : Fin grid1.N, _)
/-- Window 13 is its whole array at every point. -/
theorem index13 : ∀ t : Fin cfg1.N, win1_13.index t (0 : Fin 2) = 0 ∧ win1_13.index t (1 : Fin 2) = 0 :=
  (by decide +kernel : ∀ t : Fin grid1.N, _)
/-- Window 14 is its whole array at every point. -/
theorem index14 : ∀ t : Fin cfg1.N, win1_14.index t (0 : Fin 2) = 0 ∧ win1_14.index t (1 : Fin 2) = 0 :=
  (by decide +kernel : ∀ t : Fin grid1.N, _)
/-- Window 15 is its whole array at every point. -/
theorem index15 : ∀ t : Fin cfg1.N, win1_15.index t (0 : Fin 2) = 0 ∧ win1_15.index t (1 : Fin 2) = 0 :=
  (by decide +kernel : ∀ t : Fin grid1.N, _)
/-- Window 16 is its whole array at every point. -/
theorem index16 : ∀ t : Fin cfg1.N, win1_16.index t (0 : Fin 2) = 0 ∧ win1_16.index t (1 : Fin 2) = 0 :=
  (by decide +kernel : ∀ t : Fin grid1.N, _)
/-- Window 17 is its whole array at every point. -/
theorem index17 : ∀ t : Fin cfg1.N, win1_17.index t (0 : Fin 2) = 0 ∧ win1_17.index t (1 : Fin 2) = 0 :=
  (by decide +kernel : ∀ t : Fin grid1.N, _)
/-- Window 18 is its whole array at every point. -/
theorem index18 : ∀ t : Fin cfg1.N, win1_18.index t (0 : Fin 2) = 0 ∧ win1_18.index t (1 : Fin 2) = 0 :=
  (by decide +kernel : ∀ t : Fin grid1.N, _)

/-! ## A block read at an index is the array read there -/

/-- Row `r'` of window 0's block at point `t` is row `5000 t + r'` of its array. -/
theorem blk0_apply (c : Dev nD) (t : Fin cfg1.N) (r' : Fin 5000) (q : Fin 16) (R : Fin 2000000) (hR : R.val = 5000 * t.val + r'.val) :
    blk0 V c t (ix2 r' q) = arr0 V c (ix2 R q) := by
  obtain ⟨e0, e1⟩ := index0 t
  show V c main_v39 (((cfg1.win 0).blk t).view.emb (ix2 r' q)) = V c main_v39 (ix2 R q)
  refine congrArg _ ?_
  funext a; apply Fin.ext
  match a with
  | ⟨0, _⟩ => show win1_0.index t (0 : Fin 2) * 5000 + 1 * r'.val = R.val; omega
  | ⟨1, _⟩ => show win1_0.index t (1 : Fin 2) * 16 + 1 * q.val = q.val; omega
/-- Row `r'` of window 1's block at point `t` is row `5000 t + r'` of its array. -/
theorem blk1_apply (c : Dev nD) (t : Fin cfg1.N) (r' : Fin 5000) (q : Fin 16) (R : Fin 2000000) (hR : R.val = 5000 * t.val + r'.val) :
    blk1 V c t (ix2 r' q) = arr1 V c (ix2 R q) := by
  obtain ⟨e0, e1⟩ := index1 t
  show V c main_v40 (((cfg1.win 1).blk t).view.emb (ix2 r' q)) = V c main_v40 (ix2 R q)
  refine congrArg _ ?_
  funext a; apply Fin.ext
  match a with
  | ⟨0, _⟩ => show win1_1.index t (0 : Fin 2) * 5000 + 1 * r'.val = R.val; omega
  | ⟨1, _⟩ => show win1_1.index t (1 : Fin 2) * 16 + 1 * q.val = q.val; omega
/-- Row `r'` of window 2's block at point `t` is row `5000 t + r'` of its array. -/
theorem blk2_apply (c : Dev nD) (t : Fin cfg1.N) (r' : Fin 5000) (q : Fin 19) (R : Fin 2000000) (hR : R.val = 5000 * t.val + r'.val) :
    blk2 V c t (ix2 r' q) = arr2 V c (ix2 R q) := by
  obtain ⟨e0, e1⟩ := index2 t
  show V c main_arg1 (((cfg1.win 2).blk t).view.emb (ix2 r' q)) = V c main_arg1 (ix2 R q)
  refine congrArg _ ?_
  funext a; apply Fin.ext
  match a with
  | ⟨0, _⟩ => show win1_2.index t (0 : Fin 2) * 5000 + 1 * r'.val = R.val; omega
  | ⟨1, _⟩ => show win1_2.index t (1 : Fin 2) * 19 + 1 * q.val = q.val; omega
/-- Window 3's block at every point is its whole array. -/
theorem blk3_eq (c : Dev nD) (t : Fin cfg1.N) : blk3 V c t = arr3 V c := by
  obtain ⟨e0, e1⟩ := index3 t
  funext y
  show V c main_v41 (((cfg1.win 3).blk t).view.emb y) = V c main_v41 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 16 + 1 * (y 1).val = (y 1).val; omega
/-- Window 4's block at every point is its whole array. -/
theorem blk4_eq (c : Dev nD) (t : Fin cfg1.N) : blk4 V c t = arr4 V c := by
  obtain ⟨e0, e1⟩ := index4 t
  funext y
  show V c main_v42 (((cfg1.win 4).blk t).view.emb y) = V c main_v42 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 16 + 1 * (y 1).val = (y 1).val; omega
/-- Window 5's block at every point is its whole array. -/
theorem blk5_eq (c : Dev nD) (t : Fin cfg1.N) : blk5 V c t = arr5 V c := by
  obtain ⟨e0, e1⟩ := index5 t
  funext y
  show V c main_v43 (((cfg1.win 5).blk t).view.emb y) = V c main_v43 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 19 + 1 * (y 1).val = (y 1).val; omega
/-- Window 6's block at every point is its whole array. -/
theorem blk6_eq (c : Dev nD) (t : Fin cfg1.N) : blk6 V c t = arr6 V c := by
  obtain ⟨e0, e1⟩ := index6 t
  funext y
  show V c main_v44 (((cfg1.win 6).blk t).view.emb y) = V c main_v44 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 19 + 1 * (y 1).val = (y 1).val; omega
/-- Window 7's block at every point is its whole array. -/
theorem blk7_eq (c : Dev nD) (t : Fin cfg1.N) : blk7 V c t = arr7 V c := by
  obtain ⟨e0, e1⟩ := index7 t
  funext y
  show V c main_arg8 (((cfg1.win 7).blk t).view.emb y) = V c main_arg8 y
  refine congrArg _ ?_
  funext a; apply Fin.ext
  match a with
  | ⟨0, _⟩ => show win1_7.index t (0 : Fin 2) * 51 + 1 * (y 0).val = (y 0).val; omega
  | ⟨1, _⟩ => show win1_7.index t (1 : Fin 2) * 64 + 1 * (y 1).val = (y 1).val; omega
/-- Window 8's block at every point is its whole array. -/
theorem blk8_eq (c : Dev nD) (t : Fin cfg1.N) : blk8 V c t = arr8 V c := by
  obtain ⟨e0, e1⟩ := index8 t
  funext y
  show V c main_v45 (((cfg1.win 8).blk t).view.emb y) = V c main_v45 y
  refine congrArg _ ?_
  funext a; apply Fin.ext
  match a with
  | ⟨0, _⟩ => show win1_8.index t (0 : Fin 2) * 1 + 1 * (y 0).val = (y 0).val; omega
  | ⟨1, _⟩ => show win1_8.index t (1 : Fin 2) * 64 + 1 * (y 1).val = (y 1).val; omega
/-- Window 9's block at every point is its whole array. -/
theorem blk9_eq (c : Dev nD) (t : Fin cfg1.N) : blk9 V c t = arr9 V c := by
  obtain ⟨e0, e1⟩ := index9 t
  funext y
  show V c main_arg10 (((cfg1.win 9).blk t).view.emb y) = V c main_arg10 y
  refine congrArg _ ?_
  funext a; apply Fin.ext
  match a with
  | ⟨0, _⟩ => show win1_9.index t (0 : Fin 2) * 64 + 1 * (y 0).val = (y 0).val; omega
  | ⟨1, _⟩ => show win1_9.index t (1 : Fin 2) * 64 + 1 * (y 1).val = (y 1).val; omega
/-- Window 10's block at every point is its whole array. -/
theorem blk10_eq (c : Dev nD) (t : Fin cfg1.N) : blk10 V c t = arr10 V c := by
  obtain ⟨e0, e1⟩ := index10 t
  funext y
  show V c main_v46 (((cfg1.win 10).blk t).view.emb y) = V c main_v46 y
  refine congrArg _ ?_
  funext a; apply Fin.ext
  match a with
  | ⟨0, _⟩ => show win1_10.index t (0 : Fin 2) * 1 + 1 * (y 0).val = (y 0).val; omega
  | ⟨1, _⟩ => show win1_10.index t (1 : Fin 2) * 64 + 1 * (y 1).val = (y 1).val; omega
/-- Window 11's block at every point is its whole array. -/
theorem blk11_eq (c : Dev nD) (t : Fin cfg1.N) : blk11 V c t = arr11 V c := by
  obtain ⟨e0, e1⟩ := index11 t
  funext y
  show V c main_arg12 (((cfg1.win 11).blk t).view.emb y) = V c main_arg12 y
  refine congrArg _ ?_
  funext a; apply Fin.ext
  match a with
  | ⟨0, _⟩ => show win1_11.index t (0 : Fin 2) * 64 + 1 * (y 0).val = (y 0).val; omega
  | ⟨1, _⟩ => show win1_11.index t (1 : Fin 2) * 32 + 1 * (y 1).val = (y 1).val; omega
/-- Window 12's block at every point is its whole array. -/
theorem blk12_eq (c : Dev nD) (t : Fin cfg1.N) : blk12 V c t = arr12 V c := by
  obtain ⟨e0, e1⟩ := index12 t
  funext y
  show V c main_v47 (((cfg1.win 12).blk t).view.emb y) = V c main_v47 y
  refine congrArg _ ?_
  funext a; apply Fin.ext
  match a with
  | ⟨0, _⟩ => show win1_12.index t (0 : Fin 2) * 1 + 1 * (y 0).val = (y 0).val; omega
  | ⟨1, _⟩ => show win1_12.index t (1 : Fin 2) * 32 + 1 * (y 1).val = (y 1).val; omega
/-- Window 13's block at every point is its whole array. -/
theorem blk13_eq (c : Dev nD) (t : Fin cfg1.N) : blk13 V c t = arr13 V c := by
  obtain ⟨e0, e1⟩ := index13 t
  funext y
  show V c main_arg14 (((cfg1.win 13).blk t).view.emb y) = V c main_arg14 y
  refine congrArg _ ?_
  funext a; apply Fin.ext
  match a with
  | ⟨0, _⟩ => show win1_13.index t (0 : Fin 2) * 32 + 1 * (y 0).val = (y 0).val; omega
  | ⟨1, _⟩ => show win1_13.index t (1 : Fin 2) * 16 + 1 * (y 1).val = (y 1).val; omega
/-- Window 14's block at every point is its whole array. -/
theorem blk14_eq (c : Dev nD) (t : Fin cfg1.N) : blk14 V c t = arr14 V c := by
  obtain ⟨e0, e1⟩ := index14 t
  funext y
  show V c main_v48 (((cfg1.win 14).blk t).view.emb y) = V c main_v48 y
  refine congrArg _ ?_
  funext a; apply Fin.ext
  match a with
  | ⟨0, _⟩ => show win1_14.index t (0 : Fin 2) * 1 + 1 * (y 0).val = (y 0).val; omega
  | ⟨1, _⟩ => show win1_14.index t (1 : Fin 2) * 16 + 1 * (y 1).val = (y 1).val; omega
/-- Window 15's block at every point is its whole array. -/
theorem blk15_eq (c : Dev nD) (t : Fin cfg1.N) : blk15 V c t = arr15 V c := by
  obtain ⟨e0, e1⟩ := index15 t
  funext y
  show V c main_arg16 (((cfg1.win 15).blk t).view.emb y) = V c main_arg16 y
  refine congrArg _ ?_
  funext a; apply Fin.ext
  match a with
  | ⟨0, _⟩ => show win1_15.index t (0 : Fin 2) * 16 + 1 * (y 0).val = (y 0).val; omega
  | ⟨1, _⟩ => show win1_15.index t (1 : Fin 2) * 8 + 1 * (y 1).val = (y 1).val; omega
/-- Window 16's block at every point is its whole array. -/
theorem blk16_eq (c : Dev nD) (t : Fin cfg1.N) : blk16 V c t = arr16 V c := by
  obtain ⟨e0, e1⟩ := index16 t
  funext y
  show V c main_v49 (((cfg1.win 16).blk t).view.emb y) = V c main_v49 y
  refine congrArg _ ?_
  funext a; apply Fin.ext
  match a with
  | ⟨0, _⟩ => show win1_16.index t (0 : Fin 2) * 1 + 1 * (y 0).val = (y 0).val; omega
  | ⟨1, _⟩ => show win1_16.index t (1 : Fin 2) * 8 + 1 * (y 1).val = (y 1).val; omega
/-- Window 17's block at every point is its whole array. -/
theorem blk17_eq (c : Dev nD) (t : Fin cfg1.N) : blk17 V c t = arr17 V c := by
  obtain ⟨e0, e1⟩ := index17 t
  funext y
  show V c main_arg18 (((cfg1.win 17).blk t).view.emb y) = V c main_arg18 y
  refine congrArg _ ?_
  funext a; apply Fin.ext
  match a with
  | ⟨0, _⟩ => show win1_17.index t (0 : Fin 2) * 8 + 1 * (y 0).val = (y 0).val; omega
  | ⟨1, _⟩ => show win1_17.index t (1 : Fin 2) * 2 + 1 * (y 1).val = (y 1).val; omega
/-- Window 18's block at every point is its whole array. -/
theorem blk18_eq (c : Dev nD) (t : Fin cfg1.N) : blk18 V c t = arr18 V c := by
  obtain ⟨e0, e1⟩ := index18 t
  funext y
  show V c main_v50 (((cfg1.win 18).blk t).view.emb y) = V c main_v50 y
  refine congrArg _ ?_
  funext a; apply Fin.ext
  match a with
  | ⟨0, _⟩ => show win1_18.index t (0 : Fin 2) * 1 + 1 * (y 0).val = (y 0).val; omega
  | ⟨1, _⟩ => show win1_18.index t (1 : Fin 2) * 2 + 1 * (y 1).val = (y 1).val; omega

/-! ## What a point writes back is its block of the whole array of scores -/

/-- An entry of the scores' block at point `t` sits in the array at row `5000 t + r'`, same column. -/
theorem scores_emb (t : Fin cfg1.N) (r' : Fin 5000) (k : Fin 2) (R : Fin 2000000) (hR : R.val = 5000 * t.val + r'.val) :
    ((cfg1.win 19).blk t).view.emb (ix2 r' k) = (ix2 R k : S2000000x2.Idx) := by
  obtain ⟨e0, e1⟩ := index19 t
  funext a; apply Fin.ext
  match a with
  | ⟨0, _⟩ => show win1_19.index t (0 : Fin 2) * 5000 + 1 * r'.val = R.val; omega
  | ⟨1, _⟩ => show win1_19.index t (1 : Fin 2) * 2 + 1 * k.val = k.val; omega

/-- WHAT POINT `t` WRITES BACK is block `t` of `edgeScores`. -/
theorem flushed_eq (hblk : BlockScores) (c : Dev nD) (t : Fin cfg1.N) :
    (dat1 V c).flushed 19 t = ((cfg1.win 19).blk t).view.read (Elt Ideal) (edgeScores V c) := by
  show (cfg1.win 19).cut (grid1.coords t) ((dat1 V c).after 19 t) = _
  rw [after1_19]
  funext j
  obtain ⟨r', k, rfl⟩ : ∃ (r' : Fin 5000) (k : Fin 2), j = ix2 r' k := ⟨j 0, j 1, eq_ix2 j⟩
  have ht : t.val < 400 := t.isLt
  have hr : r'.val < 5000 := r'.isLt
  show out1_19 (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (ix2 r' k) = edgeScores V c (((cfg1.win 19).blk t).view.emb (ix2 r' k))
  rw [scores_emb t r' k ⟨5000 * t.val + r'.val, by omega⟩ rfl]
  refine (hblk (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) r' k).trans ?_
  rw [blk3_eq V c t, blk4_eq V c t, blk5_eq V c t, blk6_eq V c t, blk7_eq V c t, blk8_eq V c t, blk9_eq V c t, blk10_eq V c t, blk11_eq V c t, blk12_eq V c t, blk13_eq V c t, blk14_eq V c t, blk15_eq V c t, blk16_eq V c t, blk17_eq V c t, blk18_eq V c t]
  unfold edgeScores
  refine congrArg (fun h => Cert.Gnn.mlp _ h k) ?_
  exact affRow_congr _ _ _ _ _ _ _ _ _ _ r' ⟨5000 * t.val + r'.val, by omega⟩
    (fun q => blk0_apply V c t r' q _ rfl) (fun q => blk1_apply V c t r' q _ rfl) (fun q => blk2_apply V c t r' q _ rfl)

/-! ## Every row is in some point's block -/

/-- An index of the scores is in point `t`'s block iff each coordinate is in the block's range on its axis. -/
theorem mem_blk (t : Fin cfg1.N) (i : S2000000x2.Idx) :
    i ∈ ((cfg1.win 19).blk t).view.set ↔ ∀ a : Fin 2, win1_19.index t a * S5000x2.size a ≤ (i a).val ∧ (i a).val < win1_19.index t a * S5000x2.size a + S5000x2.size a := by
  show i ∈ ((View.whole main_v51).slice (win1_19.rect t)).set ↔ _
  rw [View.set_slice_whole, Rect.mem_set_unit]
  exact Iff.rfl

/-- Row `r` lies in the block of point `r / 5000`. -/
theorem covered (i : S2000000x2.Idx) :
    ∃ t : Fin cfg1.N, (cfg1.win 19).flush t = true ∧ i ∈ ((cfg1.win 19).blk t).view.set := by
  have hi0 : (i 0).val < 2000000 := (i 0).isLt
  have hi1 : (i 1).val < 2 := (i 1).isLt
  refine ⟨⟨(i 0).val / 5000, by show (i 0).val / 5000 < 400; omega⟩, flush1_19 _, ?_⟩
  rw [mem_blk]
  obtain ⟨e0, e1⟩ := index19 ⟨(i 0).val / 5000, by show (i 0).val / 5000 < 400; omega⟩
  have e0' : win1_19.index ⟨(i 0).val / 5000, by show (i 0).val / 5000 < 400; omega⟩ (0 : Fin 2) = (i 0).val / 5000 := e0
  intro a
  match a with
  | ⟨0, _⟩ => show win1_19.index _ (0 : Fin 2) * 5000 ≤ (i 0).val ∧ (i 0).val < win1_19.index _ (0 : Fin 2) * 5000 + 5000; omega
  | ⟨1, _⟩ => show win1_19.index _ (1 : Fin 2) * 2 ≤ (i 1).val ∧ (i 1).val < win1_19.index _ (1 : Fin 2) * 2 + 2; omega

/-! ## The array the region leaves -/

/-- After the last point the scores' array is `edgeScores`. -/
theorem region1_array (hblk : BlockScores) (c : Dev nD) : (dat1 V c).arrAt 19 cfg1.N = edgeScores V c :=
  (dat1 V c).arrAt_eq_of_cover 19 (edgeScores V c) (fun t _ => flushed_eq V hblk c t) covered

/-- Entry `(r, k)` of the array the region leaves is score `k` of the network on edge `r`'s row. -/
theorem region1_value (hblk : BlockScores) (c : Dev nD) (r : Fin 2000000) (k : Fin 2) :
    ((dat1 V c).arrAt 19 cfg1.N : S2000000x2.Idx → EReal) (ix2 r k)
      = Cert.Gnn.mlp (Cert.Gnn.rowParams (arr7 V c) (arr8 V c) (arr9 V c) (arr10 V c) (arr11 V c) (arr12 V c) (arr13 V c) (arr14 V c) (arr15 V c) (arr16 V c) (arr17 V c) (arr18 V c))
          (Cert.Gnn.affRow (arr0 V c) (arr1 V c) (arr2 V c) (arr3 V c) (arr4 V c) (arr5 V c) (arr6 V c) r) k := by
  rw [region1_array V hblk c]
  rfl

end Cert.Gnn.KRegion1

end
-- ==== Proof.KRegion0.lean ====
/-
  The first region of the kernel's program: the column sums and the column sums of squares of the edge table.

  The region walks the table's 400 blocks of 5000 rows. Two one-row accumulators are carried from block to block: at the
  first block both are set to zero, and at every block the first takes the block's column sums and the second the column
  sums of the block's squares. After the last block the first holds, in column q, the sum of the whole column q, and the
  second the sum of its squares.
-/
import proofs.«409262_j23338852286984_2_alg».proof.Proof.Gen.KernelIdeal.Frame
import proofs.«409262_j23338852286984_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.Gnn.KRegion0

open Cert.KernelIdeal Cert.KernelIdeal.Gen

section Pieces

variable {F : FTy → Type} [FloatOps F]

/-- The zero offsets of a whole-block access, however they are spelt. -/
theorem hz : (![0, 0] : Fin 2 → Nat) = fun _ => 0 := funext fun a => by fin_cases a <;> rfl

/-- At a block other than the first, the first accumulator is left at its running contents plus the block's column sums. -/
theorem out_B_1 (c : Dev nD) (i : grid0.Coords) (a1 : Memref sig .tc .vmem S5000x19 .f32) (h1 : a1.IsWhole)
    (a2 : Memref sig .tc .vmem S1x19 .f32) (h2 : a2.IsWhole) (a3 : Memref sig .tc .vmem S1x19 .f32) (h3 : a3.IsWhole)
    (hc : ¬cond0_0 i) (x : Vec F S5000x19 .f32) (xo1 xo2 : Vec F S1x19 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S5000x19) hz,
    View.ld_unit_zero (S := S1x19) hz]

/-- At a block other than the first, the second accumulator is left at its running contents plus the column sums of the
    block's squares. -/
theorem out_B_2 (c : Dev nD) (i : grid0.Coords) (a1 : Memref sig .tc .vmem S5000x19 .f32) (h1 : a1.IsWhole)
    (a2 : Memref sig .tc .vmem S1x19 .f32) (h2 : a2.IsWhole) (a3 : Memref sig .tc .vmem S1x19 .f32) (h3 : a3.IsWhole)
    (hc : ¬cond0_0 i) (x : Vec F S5000x19 .f32) (xo1 xo2 : Vec F S1x19 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S5000x19) hz,
    View.ld_unit_zero (S := S1x19) hz]

/-- At the first block the first accumulator is set to zero and then takes the block's column sums. -/
theorem out_A_1 (c : Dev nD) (i : grid0.Coords) (a1 : Memref sig .tc .vmem S5000x19 .f32) (h1 : a1.IsWhole)
    (a2 : Memref sig .tc .vmem S1x19 .f32) (h2 : a2.IsWhole) (a3 : Memref sig .tc .vmem S1x19 .f32) (h3 : a3.IsWhole)
    (hc : cond0_0 i) (x : Vec F S5000x19 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x19) hz, View.readCov_unit_zero (S := S1x19) _ hz]
  simp only [View.readAt_eq_ld, h1.read_unread, View.ld_unit_zero (S := S5000x19) hz,
    View.ld_unit_zero (S := S1x19) hz]

/-- At the first block the second accumulator is set to zero and then takes the column sums of the block's squares. -/
theorem out_A_2 (c : Dev nD) (i : grid0.Coords) (a1 : Memref sig .tc .vmem S5000x19 .f32) (h1 : a1.IsWhole)
    (a2 : Memref sig .tc .vmem S1x19 .f32) (h2 : a2.IsWhole) (a3 : Memref sig .tc .vmem S1x19 .f32) (h3 : a3.IsWhole)
    (hc : cond0_0 i) (x : Vec F S5000x19 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x19) hz, View.readCov_unit_zero (S := S1x19) _ hz]
  simp only [View.readAt_eq_ld, h1.read_unread, View.ld_unit_zero (S := S5000x19) hz,
    View.ld_unit_zero (S := S1x19) hz]

end Pieces

/-! ## The arithmetic of one block, over the extended reals -/

section AtIdeal

/-- The sum over a block's rows, read at column `q`: the sum of the block's 5000 entries in that column. -/
theorem rowsum_apply (x : FVec Ideal S5000x19 .f32) (hφ : FKind.Formats FTy.f32)
    (hacc : (0x00000000#32 : BitVec FTy.f32.bits) = FKind.add.neutral .f32 hφ) (q : Fin 19) :
    multiReduction (F := Ideal) .add [0] S19 x 0x00000000#32 reduces_S5000x19_S19 hφ hacc (ix1 q)
      = ∑ r : Fin 5000, x (ix2 r q) := by
  refine (Ideal.multiReduction_add_single x 0x00000000#32 reduces_S5000x19_S19 hφ hacc (ix1 q)).trans ?_
  refine Finset.sum_congr rfl fun r _ => congrArg x ?_
  funext a
  apply Fin.ext
  match a with
  | ⟨0, _⟩ => rfl
  | ⟨1, _⟩ => rfl

/-- The first accumulator's update at column `q`: what it held plus the block's column sum. -/
theorem pay3_apply (x : Vec Ideal S5000x19 .f32) (acc : Vec Ideal S1x19 .f32) (q : Fin 19) :
    (k0_pay3 (F := Ideal) x acc) (ix2 0 q) = acc (ix2 0 q) + ∑ r : Fin 5000, x (ix2 r q) := by
  unfold k0_pay3
  dsimp only
  refine (addf_apply _ _ (ix2 0 q)).trans ?_
  refine congrArg₂ (· + ·) ?_ ?_
  · exact congrFun (shapeCast_self acc _) (ix2 0 q)
  · refine (shapeCast_a_1a_apply _ _ 0 q).trans ?_
    exact rowsum_apply x _ _ q

/-- The second accumulator's update at column `q`: what it held plus the sum of the squares of the block's column. -/
theorem pay4_apply (x : Vec Ideal S5000x19 .f32) (acc : Vec Ideal S1x19 .f32) (q : Fin 19) :
    (k0_pay4 (F := Ideal) x acc) (ix2 0 q) = acc (ix2 0 q) + ∑ r : Fin 5000, x (ix2 r q) * x (ix2 r q) := by
  unfold k0_pay4
  dsimp only
  refine (addf_apply _ _ (ix2 0 q)).trans ?_
  refine congrArg₂ (· + ·) ?_ ?_
  · exact congrFun (shapeCast_self acc _) (ix2 0 q)
  · refine (shapeCast_a_1a_apply _ _ 0 q).trans ?_
    refine (rowsum_apply (mulf x x) _ _ q).trans ?_
    rfl

/-- The reset rows are zero. -/
theorem pay1_apply (q : Fin 19) : (k0_pay1 (F := Ideal)) (ix2 0 q) = 0 := by
  unfold k0_pay1
  exact Ideal.ofBits_zero_f32

theorem pay2_apply (q : Fin 19) : (k0_pay2 (F := Ideal)) (ix2 0 q) = 0 := by
  unfold k0_pay2
  exact Ideal.ofBits_zero_f32

end AtIdeal

/-! ## The blocks of the table -/

section Region

variable (V : (c : Dev nD) → (b : Ref sig .tc) → Buf (Elt Ideal) ((c : Thread nD τ).loc b))

/-- Column `q` of the edge table as a function of the row number (zero past the table's last row). -/
def colAt (c : Dev nD) (q : Fin 19) (k : ℕ) : EReal :=
  if h : k < 2000000 then (V c main_arg1 : S2000000x19.Idx → EReal) (ix2 ⟨k, h⟩ q) else 0

/-- Block `t` of the edge table, as a 5000-by-19 array of extended reals. -/
abbrev xblk (c : Dev nD) (t : Fin cfg0.N) : S5000x19.Idx → EReal := iblk0 V c 0 t

/-- Block `t` of the edge table starts at block-row `t` and column 0. -/
theorem idx_facts : ∀ t : Fin cfg0.N, win0_0.index t (0 : Fin 2) = t.val ∧ win0_0.index t (1 : Fin 2) = 0 :=
  (by decide +kernel : ∀ t : Fin grid0.N, _)

/-- Entry `(r, q)` of block `t` is the table's entry at row `5000 t + r`. -/
theorem blk_apply (c : Dev nD) (t : Fin cfg0.N) (r : Fin 5000) (q : Fin 19) :
    xblk V c t (ix2 r q) = colAt V c q (5000 * t.val + r.val) := by
  have hN : t.val < 400 := lt_of_lt_of_eq t.isLt (show cfg0.N = 400 from N_0)
  have hr := r.isLt
  unfold colAt
  rw [dif_pos (by omega)]
  unfold xblk iblk0
  rw [View.read_apply]
  show V c main_arg1 _ = V c main_arg1 _
  congr 1
  funext a
  apply Fin.ext
  match a with
  | ⟨0, _⟩ => show win0_0.index t 0 * 5000 + 1 * r.val = 5000 * t.val + r.val; rw [(idx_facts t).1]; omega
  | ⟨1, _⟩ => show win0_0.index t 1 * 19 + 1 * q.val = q.val; rw [(idx_facts t).2]; omega

/-- The column sum of block `t`, as a sum over its 5000 row numbers. -/
theorem blksum (c : Dev nD) (t : Fin cfg0.N) (q : Fin 19) :
    ∑ r : Fin 5000, xblk V c t (ix2 r q)
      = ∑ k ∈ Finset.range 5000, colAt V c q (5000 * t.val + k) :=
  (Finset.sum_congr rfl fun r _ => blk_apply V c t r q).trans
    (Finset.sum_range (fun k => colAt V c q (5000 * t.val + k))).symm

/-- The column sum of block `t`'s squares, as a sum over its 5000 row numbers. -/
theorem blksumsq (c : Dev nD) (t : Fin cfg0.N) (q : Fin 19) :
    ∑ r : Fin 5000, xblk V c t (ix2 r q) * xblk V c t (ix2 r q)
      = ∑ k ∈ Finset.range 5000, colAt V c q (5000 * t.val + k) * colAt V c q (5000 * t.val + k) :=
  (Finset.sum_congr rfl fun r _ => by rw [blk_apply V c t r q]).trans
    (Finset.sum_range (fun k => colAt V c q (5000 * t.val + k) * colAt V c q (5000 * t.val + k))).symm

/-! ## The running sums -/

/-- After block `n` the first accumulator holds, in column `q`, the sum of the column's first `5000 (n + 1)` entries,
    and the second the sum of their squares: the first block starts both from zero, every later block adds its own
    share to what the block before left. -/
theorem outs_eq (c : Dev nD) (q : Fin 19) : ∀ (n : ℕ) (hn : n < cfg0.N),
    (outsAt0 V c n hn).1 (ix2 0 q) = ∑ k ∈ Finset.range (5000 * (n + 1)), colAt V c q k
    ∧ (outsAt0 V c n hn).2 (ix2 0 q) = ∑ k ∈ Finset.range (5000 * (n + 1)), colAt V c q k * colAt V c q k
  | 0, hn => by
    rw [outsAt0_A V c ⟨0, hn⟩ rfl]
    dsimp only
    rw [out_A_1, out_A_2]
    refine ⟨(pay3_apply _ _ q).trans ?_, (pay4_apply _ _ q).trans ?_⟩
    · rw [pay1_apply, zero_add, blksum]
      simp only [Nat.mul_zero, Nat.zero_add, Nat.mul_one]
    · rw [pay2_apply, zero_add, blksumsq]
      simp only [Nat.mul_zero, Nat.zero_add, Nat.mul_one]
  | n + 1, hn => by
    have hN : cfg0.N = 400 := N_0
    have hB : ¬(⟨n + 1, hn⟩ : Fin cfg0.N).val % 400 = 0 := by dsimp only; omega
    obtain ⟨ih1, ih2⟩ := outs_eq c q n (Nat.lt_of_succ_lt hn)
    rw [outsAt0_B V c ⟨n + 1, hn⟩ hB]
    dsimp only
    rw [out_B_1, out_B_2]
    refine ⟨(pay3_apply _ _ q).trans ?_, (pay4_apply _ _ q).trans ?_⟩
    · refine (congrArg₂ (· + ·) ih1 (blksum V c ⟨n + 1, hn⟩ q)).trans ?_
      rw [show 5000 * (n + 1 + 1) = 5000 * (n + 1) + 5000 from by omega, Finset.sum_range_add]
    · refine (congrArg₂ (· + ·) ih2 (blksumsq V c ⟨n + 1, hn⟩ q)).trans ?_
      rw [show 5000 * (n + 1 + 1) = 5000 * (n + 1) + 5000 from by omega, Finset.sum_range_add]

/-! ## From the last block to the arrays -/

/-- The last block's number is a block number. -/
theorem h399 : 399 < cfg0.N := by rw [show cfg0.N = 400 from N_0]; decide

/-- The last block's number. -/
abbrev tlast : Fin cfg0.N := ⟨399, h399⟩

/-- What the first accumulator holds after the last block, as contents of its array. -/
abbrev res1 (c : Dev nD) : Buf (Elt Ideal) ((c : Thread nD τ).loc main_v0_0) := (outsAt0 V c 399 h399).1
/-- What the second accumulator holds after the last block, as contents of its array. -/
abbrev res2 (c : Dev nD) : Buf (Elt Ideal) ((c : Thread nD τ).loc main_v0_1) := (outsAt0 V c 399 h399).2

/-- The accumulators after a block depend on the block's number only, not on the proof that bounds it. -/
theorem outs_congr (c : Dev nD) (n n' : ℕ) (hn : n < cfg0.N) (hn' : n' < cfg0.N) (e : n = n') :
    outsAt0 V c n hn = outsAt0 V c n' hn' := by
  subst e
  rfl

/-- Each accumulator's block is always the one block of its array: block-row 0, column 0, one row of 19. -/
theorem idx1_facts : ∀ t : Fin cfg0.N, (win0_1.index t (0 : Fin 2) = 0 ∧ win0_1.index t (1 : Fin 2) = 0)
    ∧ (win0_1.xsize (grid0.coords t) (0 : Fin 2) = 1 ∧ win0_1.xsize (grid0.coords t) (1 : Fin 2) = 19) :=
  (by decide +kernel : ∀ t : Fin grid0.N, _)
theorem idx2_facts : ∀ t : Fin cfg0.N, (win0_2.index t (0 : Fin 2) = 0 ∧ win0_2.index t (1 : Fin 2) = 0)
    ∧ (win0_2.xsize (grid0.coords t) (0 : Fin 2) = 1 ∧ win0_2.xsize (grid0.coords t) (1 : Fin 2) = 19) :=
  (by decide +kernel : ∀ t : Fin grid0.N, _)

/-- The first accumulator is written back once, after the last block; its one block is its whole array. -/
theorem flushed_eq_1 (c : Dev nD) (t : Fin cfg0.N) (hf : (cfg0.win 1).flush t = true) :
    (dat0 V c).flushed 1 t = ((cfg0.win 1).blk t).view.read (Elt Ideal) (res1 V c) := by
  have hN : cfg0.N = 400 := N_0
  have h3 : t.val = 399 := by have := (flush0_1 t).mp hf; have := t.isLt; omega
  show (cfg0.win 1).cut (grid0.coords t) ((dat0 V c).after 1 t) = _
  rw [after0_1, outs_congr V c t.val 399 t.isLt h399 h3]
  obtain ⟨⟨e0, e1⟩, -⟩ := idx1_facts t
  funext j
  show res1 V c ((cfg0.win 1).xinj (grid0.coords t) j) = res1 V c (((cfg0.win 1).blk t).view.emb j)
  congr 1
  funext a
  apply Fin.ext
  match a with
  | ⟨0, _⟩ => show (j 0).val = win0_1.index t (0 : Fin 2) * 1 + 1 * (j 0).val; omega
  | ⟨1, _⟩ => show (j 1).val = win0_1.index t (1 : Fin 2) * 19 + 1 * (j 1).val; omega

/-- The second accumulator likewise. -/
theorem flushed_eq_2 (c : Dev nD) (t : Fin cfg0.N) (hf : (cfg0.win 2).flush t = true) :
    (dat0 V c).flushed 2 t = ((cfg0.win 2).blk t).view.read (Elt Ideal) (res2 V c) := by
  have hN : cfg0.N = 400 := N_0
  have h3 : t.val = 399 := by have := (flush0_2 t).mp hf; have := t.isLt; omega
  show (cfg0.win 2).cut (grid0.coords t) ((dat0 V c).after 2 t) = _
  rw [after0_2, outs_congr V c t.val 399 t.isLt h399 h3]
  obtain ⟨⟨e0, e1⟩, -⟩ := idx2_facts t
  funext j
  show res2 V c ((cfg0.win 2).xinj (grid0.coords t) j) = res2 V c (((cfg0.win 2).blk t).view.emb j)
  congr 1
  funext a
  apply Fin.ext
  match a with
  | ⟨0, _⟩ => show (j 0).val = win0_2.index t (0 : Fin 2) * 1 + 1 * (j 0).val; omega
  | ⟨1, _⟩ => show (j 1).val = win0_2.index t (1 : Fin 2) * 19 + 1 * (j 1).val; omega

/-- An entry of the first array is in block `t` when each coordinate is in the block's range on its axis. -/
theorem mem_blk_1 (t : Fin cfg0.N) (i : S1x19.Idx) :
    i ∈ ((cfg0.win 1).blk t).view.set ↔ ∀ a : Fin 2, win0_1.index t a * S1x19.size a ≤ (i a).val
      ∧ (i a).val < win0_1.index t a * S1x19.size a + win0_1.xsize (grid0.coords t) a := by
  show i ∈ ((View.whole main_v0_0).slice (win0_1.rect t)).set ↔ _
  rw [View.set_slice_whole, Rect.mem_set_unit]
  exact Iff.rfl

/-- An entry of the second array likewise. -/
theorem mem_blk_2 (t : Fin cfg0.N) (i : S1x19.Idx) :
    i ∈ ((cfg0.win 2).blk t).view.set ↔ ∀ a : Fin 2, win0_2.index t a * S1x19.size a ≤ (i a).val
      ∧ (i a).val < win0_2.index t a * S1x19.size a + win0_2.xsize (grid0.coords t) a := by
  show i ∈ ((View.whole main_v0_1).slice (win0_2.rect t)).set ↔ _
  rw [View.set_slice_whole, Rect.mem_set_unit]
  exact Iff.rfl

/-- So the first array ends holding what the first accumulator holds after the last block. -/
theorem final_1 (c : Dev nD) : (dat0 V c).arrAt 1 cfg0.N = res1 V c :=
  (dat0 V c).arrAt_eq_of_cover 1 (res1 V c) (flushed_eq_1 V c) fun i => by
    refine ⟨tlast, (flush0_1 tlast).mpr rfl, ?_⟩
    rw [mem_blk_1]
    obtain ⟨⟨e0, e1⟩, x0, x1⟩ := idx1_facts tlast
    have h0 : (i 0 : Nat) < 1 := (i 0).isLt
    have h1 : (i 1 : Nat) < 19 := (i 1).isLt
    intro a
    match a with
    | ⟨0, _⟩ =>
      show win0_1.index tlast (0 : Fin 2) * 1 ≤ (i 0).val
        ∧ (i 0).val < win0_1.index tlast (0 : Fin 2) * 1 + win0_1.xsize (grid0.coords tlast) (0 : Fin 2)
      omega
    | ⟨1, _⟩ =>
      show win0_1.index tlast (1 : Fin 2) * 19 ≤ (i 1).val
        ∧ (i 1).val < win0_1.index tlast (1 : Fin 2) * 19 + win0_1.xsize (grid0.coords tlast) (1 : Fin 2)
      omega

/-- And the second array what the second accumulator holds. -/
theorem final_2 (c : Dev nD) : (dat0 V c).arrAt 2 cfg0.N = res2 V c :=
  (dat0 V c).arrAt_eq_of_cover 2 (res2 V c) (flushed_eq_2 V c) fun i => by
    refine ⟨tlast, (flush0_2 tlast).mpr rfl, ?_⟩
    rw [mem_blk_2]
    obtain ⟨⟨e0, e1⟩, x0, x1⟩ := idx2_facts tlast
    have h0 : (i 0 : Nat) < 1 := (i 0).isLt
    have h1 : (i 1 : Nat) < 19 := (i 1).isLt
    intro a
    match a with
    | ⟨0, _⟩ =>
      show win0_2.index tlast (0 : Fin 2) * 1 ≤ (i 0).val
        ∧ (i 0).val < win0_2.index tlast (0 : Fin 2) * 1 + win0_2.xsize (grid0.coords tlast) (0 : Fin 2)
      omega
    | ⟨1, _⟩ =>
      show win0_2.index tlast (1 : Fin 2) * 19 ≤ (i 1).val
        ∧ (i 1).val < win0_2.index tlast (1 : Fin 2) * 19 + win0_2.xsize (grid0.coords tlast) (1 : Fin 2)
      omega

/-! ## The region's two results -/

/-- The first 2000000 row numbers are the table's rows. -/
theorem range_eq_rows (c : Dev nD) (q : Fin 19) (f : EReal → EReal) :
    ∑ k ∈ Finset.range 2000000, f (colAt V c q k)
      = ∑ r : Fin 2000000, f ((V c main_arg1 : S2000000x19.Idx → EReal) (ix2 r q)) := by
  rw [Finset.sum_range]
  refine Finset.sum_congr rfl fun r _ => ?_
  unfold colAt
  rw [dif_pos r.isLt]

/-- All 400 blocks together are the table's 2000000 rows. -/
theorem rows_all : 5000 * (399 + 1) = 2000000 := by norm_num

/-- The region leaves, in column `q` of its first result, the sum of column `q` of the edge table. -/
theorem region0_sum (c : Dev nD) (q : Fin 19) :
    ((dat0 V c).arrAt 1 cfg0.N : S1x19.Idx → EReal) (ix2 0 q)
      = Cert.Gnn.colSum (V c main_arg1 : S2000000x19.Idx → EReal) q := by
  rw [final_1]
  refine ((outs_eq V c q 399 h399).1).trans ?_
  rw [rows_all]
  exact range_eq_rows V c q (fun v => v)

/-- The region leaves, in column `q` of its second result, the sum of the squares of column `q` of the edge table. -/
theorem region0_sumsq (c : Dev nD) (q : Fin 19) :
    ((dat0 V c).arrAt 2 cfg0.N : S1x19.Idx → EReal) (ix2 0 q)
      = Cert.Gnn.colSumSq (V c main_arg1 : S2000000x19.Idx → EReal) q := by
  rw [final_2]
  refine ((outs_eq V c q 399 h399).2).trans ?_
  rw [rows_all]
  exact range_eq_rows V c q (fun v => v * v)

end Region

end Cert.Gnn.KRegion0

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.KHost.lean ====
/-
  The host operations between the two regions, read at an index.

  From the edge table's column sums and sums of squares (the first region's two one-row arrays) and the arguments, these
  operations compute the second region's operands: the node table's rows looked up at each edge's two node numbers (a
  negative number counts from the end; outside the table a fill), the per-column multiplier and addend of the node columns
  (from the node table's own column means and mean squared deviations, the variance floored at zero) and of the edge columns
  (the variance as the mean of the squares less the squared mean, floored at zero), and the six offset vectors as one-row
  arrays. Each is read here at an index, in the vocabulary of the specification; the arguments themselves pass through
  unchanged.
-/
import proofs.«409262_j23338852286984_2_alg».proof.Proof.Gen.KernelIdeal.Frame
import proofs.«409262_j23338852286984_2_alg».proof.Proof.Spec
import proofs.«409262_j23338852286984_2_alg».proof.Proof.LibRowGather
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.ReduceAll
import Idealize.ShloMosaic.PureOps.Ideal.Laws

noncomputable section

namespace Cert.Gnn.KHost

open Cert.KernelIdeal Cert.KernelIdeal.Gen Idealize.ShloMosaic Idealize.ShloMosaic.TcCoe Idealize.SL.Sem
open Idealize.ShloMosaic.StableHlo Idealize.ShloMosaic.ValueIdx

/-- The buffers' contents after the four stretches of host operations between the two regions. -/
def after4 (U : Valuation τ sig (Elt Ideal)) : Valuation τ sig (Elt Ideal) :=
  StableHlo.after hostOps1_3 (StableHlo.after hostOps1_2 (StableHlo.after hostOps1_1 (StableHlo.after hostOps1 U)))

/-! ## Layout operations read at an index -/

section Layout
variable {α : Type}

/-- A scalar laid over any shape reads the scalar everywhere. -/
theorem bcast0_apply {t : Shape} (h : (⟨0, ![]⟩ : Shape).BroadcastsInDim t ![]) (v : (⟨0, ![]⟩ : Shape).Idx → α) (i : t.Idx) :
    broadcastInDim t ![] h v i = v ix0 :=
  broadcastInDim_apply _ h v i ix0 (fun a => a.elim0)

/-- A vector as a one-row array reads, at `(u, q)`, the vector at `q`. -/
theorem bcast_n_1n_apply {n : ℕ} (h : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h v (ix2 u q) = v (ix1 q) :=
  broadcastInDim_apply _ h v _ (ix1 q) (fun a => match a with
    | ⟨0, _⟩ => by
      show q.val = if n = 1 then 0 else q.val
      have := q.isLt
      split <;> omega)

/-- A one-row array laid down the rows reads, at `(r, q)`, the row at `(0, q)`. -/
theorem bcast_1n_mn_apply {m n : ℕ} (h : (⟨2, ![1, n]⟩ : Shape).BroadcastsInDim ⟨2, ![m, n]⟩ ![0, 1])
    (v : (⟨2, ![1, n]⟩ : Shape).Idx → α) (r : Fin m) (q : Fin n) :
    broadcastInDim ⟨2, ![m, n]⟩ ![0, 1] h v (ix2 r q) = v (ix2 0 q) :=
  broadcastInDim_apply _ h v _ (ix2 0 q) (fun a => match a with
    | ⟨0, _⟩ => by
      show (0 : ℕ) = if (1 : ℕ) = 1 then 0 else r.val
      rw [if_pos rfl]
    | ⟨1, _⟩ => by
      show q.val = if n = 1 then 0 else q.val
      have := q.isLt
      split <;> omega)

end Layout

/-! ## The node table's column statistics as the program computes them -/

section NodeStats

variable (x : (⟨2, ![100000, 16]⟩ : Shape).Idx → EReal) (gx bx : (⟨1, ![16]⟩ : Shape).Idx → EReal)

/-- The program's column sums of a node-shaped table: the initial zero plus the sum down the rows. -/
theorem nodeSum_apply (q : Fin 16) :
    Host.reduceAdd (F := Ideal) (φ := .f32) x (constant S_ .f32 0x00000000#32) reducesTo_S100000x16_S16_d0 h_S_ (ix1 q) = colSum x q := by
  simp only [Host.reduceAdd, Ideal.hostReduceAdd_def]
  rw [Ideal.hostReduceAdd_single reducesTo_S100000x16_S16_d0 (by decide)]
  show Ideal.ofBits .f32 0x00000000#32 + _ = _
  rw [Ideal.ofBits_zero_f32, zero_add]
  unfold colSum
  refine Finset.sum_congr rfl fun k _ => ?_
  exact congrArg x (funext fun a => Fin.ext (by match a with | ⟨0, _⟩ => rfl | ⟨1, _⟩ => rfl))

/-- The program's vector of column means. -/
def nodeMeanV : (⟨1, ![16]⟩ : Shape).Idx → EReal :=
  Host.divf (F := Ideal) (φ := .f32) (Host.reduceAdd x (constant S_ .f32 0x00000000#32) reducesTo_S100000x16_S16_d0 h_S_)
    (broadcastInDim S16 ![] bcast_S_S16 (constant S_ .f32 0x47C35000#32))

theorem nodeMeanV_apply (q : Fin 16) : nodeMeanV x (ix1 q) = colMean nNodes x q := by
  unfold nodeMeanV
  show Ideal.div (_ : EReal) (_ : EReal) = _
  rw [nodeSum_apply, bcast0_apply]
  rfl

/-- The table less its column means, the means laid down the rows. -/
def nodeDevV : (⟨2, ![100000, 16]⟩ : Shape).Idx → EReal :=
  subf (F := Ideal) (φ := .f32) x (broadcastInDim S100000x16 ![0, 1] bcast_S1x16_S100000x16_0_1
    (broadcastInDim S1x16 ![1] bcast_S16_S1x16_1 (nodeMeanV x)))

theorem nodeDevV_apply (r : Fin 100000) (q : Fin 16) : nodeDevV x (ix2 r q) = x (ix2 r q) - colMean nNodes x q := by
  unfold nodeDevV
  show x (ix2 r q) - (_ : EReal) = _
  rw [bcast_1n_mn_apply, bcast_n_1n_apply, nodeMeanV_apply]

/-- The program's vector of column variances: the mean of the squared deviations. -/
def nodeVarV : (⟨1, ![16]⟩ : Shape).Idx → EReal :=
  Host.divf (F := Ideal) (φ := .f32)
    (Host.reduceAdd (mulf (F := Ideal) (φ := .f32) (nodeDevV x) (nodeDevV x)) (constant S_ .f32 0x00000000#32) reducesTo_S100000x16_S16_d0 h_S_)
    (broadcastInDim S16 ![] bcast_S_S16 (constant S_ .f32 0x47C35000#32))

theorem nodeVarV_apply (q : Fin 16) : nodeVarV x (ix1 q) = varDev nNodes x q := by
  unfold nodeVarV
  show Ideal.div (_ : EReal) (_ : EReal) = _
  rw [nodeSum_apply, bcast0_apply]
  have h : ∀ r : Fin 100000, mulf (F := Ideal) (φ := .f32) (nodeDevV x) (nodeDevV x) (ix2 r q)
      = (x (ix2 r q) - colMean nNodes x q) * (x (ix2 r q) - colMean nNodes x q) := fun r => by
    show nodeDevV x (ix2 r q) * nodeDevV x (ix2 r q) = _
    rw [nodeDevV_apply]
  unfold varDev colSum
  simp only [h]
  rfl

/-- The program's vector of column multipliers: the gain over the root of the floored, stabilised variance. -/
def nodeScaleV : (⟨1, ![16]⟩ : Shape).Idx → EReal :=
  Host.divf (F := Ideal) (φ := .f32) gx
    (Host.sqrt (addf (maximumf (nodeVarV x) (broadcastInDim S16 ![] bcast_S_S16 (constant S_ .f32 0x00000000#32)))
      (broadcastInDim S16 ![] bcast_S_S16 (constant S_ .f32 0x3727C5AC#32))))

theorem nodeScaleV_apply (q : Fin 16) :
    nodeScaleV x gx (ix1 q) = scaleOf (gx (ix1 q)) (max (varDev nNodes x q) zeroF) := by
  unfold nodeScaleV scaleOf
  show Ideal.div (gx (ix1 q)) (Ideal.sqrt (max (nodeVarV x (ix1 q)) (_ : EReal) + (_ : EReal))) = _
  rw [nodeVarV_apply, bcast0_apply, bcast0_apply]
  rfl

/-- The program's vector of column addends: the offset less the mean times the multiplier. -/
def nodeShiftV : (⟨1, ![16]⟩ : Shape).Idx → EReal :=
  subf (F := Ideal) (φ := .f32) bx (mulf (nodeMeanV x) (nodeScaleV x gx))

theorem nodeShiftV_apply (q : Fin 16) :
    nodeShiftV x gx bx (ix1 q)
      = bx (ix1 q) - colMean nNodes x q * scaleOf (gx (ix1 q)) (max (varDev nNodes x q) zeroF) := by
  unfold nodeShiftV
  show bx (ix1 q) - nodeMeanV x (ix1 q) * nodeScaleV x gx (ix1 q) = _
  rw [nodeMeanV_apply, nodeScaleV_apply]

end NodeStats

/-! ## The edge table's column statistics from its two column sums, as the program computes them -/

section EdgeStats

variable (S1 S2 : (⟨2, ![1, 19]⟩ : Shape).Idx → EReal) (ge be : (⟨1, ![19]⟩ : Shape).Idx → EReal)

/-- A one-row array of sums as a vector, over the count: the column means (of the entries, or of their squares). -/
def edgeMeanV : (⟨1, ![19]⟩ : Shape).Idx → EReal :=
  Host.divf (F := Ideal) (φ := .f32) (shapeCast S19 S1 shapeCasts_S1x19_S19)
    (broadcastInDim S19 ![] bcast_S_S19 (constant S_ .f32 0x49F42400#32))

theorem edgeMeanV_apply (q : Fin 19) : edgeMeanV S1 (ix1 q) = Ideal.div (S1 (ix2 0 q)) nEdges := by
  unfold edgeMeanV
  show Ideal.div (_ : EReal) (_ : EReal) = _
  rw [shapeCast_1a_a_apply, bcast0_apply]
  rfl

/-- The program's vector of column multipliers: the gain over the root of the floored, stabilised variance, the variance
    the mean of the squares less the squared mean. -/
def edgeScaleV : (⟨1, ![19]⟩ : Shape).Idx → EReal :=
  Host.divf (F := Ideal) (φ := .f32) ge
    (Host.sqrt (addf (maximumf (subf (edgeMeanV S2) (mulf (edgeMeanV S1) (edgeMeanV S1)))
        (broadcastInDim S19 ![] bcast_S_S19 (constant S_ .f32 0x00000000#32)))
      (broadcastInDim S19 ![] bcast_S_S19 (constant S_ .f32 0x3727C5AC#32))))

theorem edgeScaleV_apply (q : Fin 19) :
    edgeScaleV S1 S2 ge (ix1 q)
      = scaleOf (ge (ix1 q)) (max (Ideal.div (S2 (ix2 0 q)) nEdges - Ideal.div (S1 (ix2 0 q)) nEdges * Ideal.div (S1 (ix2 0 q)) nEdges) zeroF) := by
  unfold edgeScaleV scaleOf
  show Ideal.div (ge (ix1 q)) (Ideal.sqrt (max (edgeMeanV S2 (ix1 q) - edgeMeanV S1 (ix1 q) * edgeMeanV S1 (ix1 q)) (_ : EReal) + (_ : EReal))) = _
  rw [edgeMeanV_apply, edgeMeanV_apply, bcast0_apply, bcast0_apply]
  rfl

/-- The program's vector of column addends: the offset less the mean times the multiplier. -/
def edgeShiftV : (⟨1, ![19]⟩ : Shape).Idx → EReal :=
  subf (F := Ideal) (φ := .f32) be (mulf (edgeMeanV S1) (edgeScaleV S1 S2 ge))

theorem edgeShiftV_apply (q : Fin 19) :
    edgeShiftV S1 S2 ge be (ix1 q)
      = be (ix1 q) - Ideal.div (S1 (ix2 0 q)) nEdges
          * scaleOf (ge (ix1 q)) (max (Ideal.div (S2 (ix2 0 q)) nEdges - Ideal.div (S1 (ix2 0 q)) nEdges * Ideal.div (S1 (ix2 0 q)) nEdges) zeroF) := by
  unfold edgeShiftV
  show be (ix1 q) - edgeMeanV S1 (ix1 q) * edgeScaleV S1 S2 ge (ix1 q) = _
  rw [edgeMeanV_apply, edgeScaleV_apply]

end EdgeStats

/-! ## A row lookup with wrap-around and a fill outside the table, as the program computes it -/

section Take

variable {α : Type}

/-- A vector laid along the rows reads, at `(r, q)`, the vector at `r`. -/
theorem bcast_n_nm_apply {n m : ℕ} (h : (⟨1, ![n]⟩ : Shape).BroadcastsInDim ⟨2, ![n, m]⟩ ![0])
    (v : (⟨1, ![n]⟩ : Shape).Idx → α) (r : Fin n) (q : Fin m) :
    broadcastInDim ⟨2, ![n, m]⟩ ![0] h v (ix2 r q) = v (ix1 r) :=
  broadcastInDim_apply _ h v _ (ix1 r) (fun a => match a with
    | ⟨0, _⟩ => by
      show r.val = if n = 1 then 0 else r.val
      have := r.isLt
      split <;> omega)

/-- A conjunction folded from true over bits that are all true is true. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) 1#1 = 1#1 := by decide
    rw [List.foldl_cons, h a List.mem_cons_self, e]
    exact foldl_andi_one f l fun n hn => h n (List.mem_cons_of_mem _ hn)

/-- The conjunction along the unit axis of a one-column array of bits, at a row whose bit is true. -/
theorem rowAll_one (m : (⟨2, ![2000000, 1]⟩ : Shape).Idx → BitVec 1) (r : Fin 2000000) (hm : m (ix2 r 0) = 1#1) :
    Host.reduce IntOp.andi m (constantI S_ 1 1#1) reducesTo_S2000000x1_S2000000_d1 h_S_ (ix1 r) = 1#1 := by
  rw [Host.reduce_eq_foldl]
  refine foldl_andi_one m _ fun i hi => ?_
  have hd : reducesTo_S2000000x1_S2000000_d1.drop i = ix1 r := of_decide_eq_true (List.mem_filter.mp hi).2
  have h0 : i 0 = r := Fin.ext (congrArg (fun j : S2000000.Idx => (j 0).val) hd)
  have h1 : @Eq (Fin 1) (i 1) (0 : Fin 1) := Subsingleton.elim (α := Fin 1) _ _
  rw [eq_ix2 i, h0, h1]
  exact hm

/-- A node number inside the table is not wrapped. -/
theorem wrapIdx_of_inTable {i : BitVec 32} (hi : InTable i) : wrapIdx i = i := by
  unfold wrapIdx
  have hn : ¬ IntOp.cmpi .slt i 0#32 = 1#1 := fun h => by
    have h' := IntOp.cmpi_slt.mp h
    have z : (0#32 : BitVec 32).toInt = 0 := by decide
    rw [z] at h'
    exact absurd hi.1 (not_le.mpr h')
  rw [eq_zero_of_ne_one hn, select_zero]

variable (x : (⟨2, ![100000, 16]⟩ : Shape).Idx → EReal) (v : (⟨1, ![2000000]⟩ : Shape).Idx → BitVec 32)

/-- The wrapped node numbers, as a one-column array. -/
def takeIdxV : (⟨2, ![2000000, 1]⟩ : Shape).Idx → BitVec 32 :=
  broadcastInDim S2000000x1 ![0] bcast_S2000000_S2000000x1_0
    (select (cmpi .slt v (broadcastInDim S2000000 ![] bcast_S_S2000000 (constantI S_ 32 0#32)))
      (addi v (broadcastInDim S2000000 ![] bcast_S_S2000000 (constantI S_ 32 100000#32))) v)

theorem takeIdxV_apply (r : Fin 2000000) : takeIdxV v (ix2 r 0) = wrapIdx (v (ix1 r)) := by
  unfold takeIdxV
  rw [bcast_n_nm_apply]
  show Scalar.select (IntOp.cmpi .slt (v (ix1 r)) (_ : BitVec 32)) (IntOp.addi (v (ix1 r)) (_ : BitVec 32)) (v (ix1 r)) = _
  rw [bcast0_apply, bcast0_apply]
  rfl

/-- Per row: is the wrapped node number inside the table? -/
def takeMaskV : (⟨1, ![2000000]⟩ : Shape).Idx → BitVec 1 :=
  Host.reduce IntOp.andi
    (andi (cmpi .sge (takeIdxV v) (broadcastInDim S2000000x1 ![] bcast_S_S2000000x1 (constantI S_ 32 0#32)))
      (cmpi .sle (takeIdxV v) (broadcastInDim S2000000x1 ![0, 1] bcast_S1x1_S2000000x1_0_1
        (broadcastInDim S1x1 ![1] bcast_S1_S1x1_1 (constantI S1 32 99999#32)))))
    (constantI S_ 1 1#1) reducesTo_S2000000x1_S2000000_d1 h_S_

theorem takeMaskV_apply (r : Fin 2000000) (hi : InTable (v (ix1 r))) : takeMaskV v (ix1 r) = 1#1 := by
  unfold takeMaskV
  refine rowAll_one _ r ?_
  show IntOp.andi (IntOp.cmpi .sge (takeIdxV v (ix2 r 0)) (_ : BitVec 32)) (IntOp.cmpi .sle (takeIdxV v (ix2 r 0)) (_ : BitVec 32)) = 1#1
  rw [bcast0_apply, bcast_1n_mn_apply, bcast_n_1n_apply, takeIdxV_apply, wrapIdx_of_inTable hi]
  refine IntOp.andi_eq_one.mpr ⟨IntOp.cmpi_sge.mpr ?_, IntOp.cmpi_sle.mpr ?_⟩
  · show (0#32 : BitVec 32).toInt ≤ _
    have z : (0#32 : BitVec 32).toInt = 0 := by decide
    rw [z]
    exact hi.1
  · show _ ≤ (99999#32 : BitVec 32).toInt
    have z : (99999#32 : BitVec 32).toInt = 99999 := by decide
    rw [z]
    have := hi.2
    omega

/-- The lookup: the gathered rows where the wrapped node number is inside the table, a fill elsewhere. -/
def takeV : (⟨2, ![2000000, 16]⟩ : Shape).Idx → EReal :=
  select (broadcastInDim S2000000x16 ![0] bcast_S2000000_S2000000x16_0 (takeMaskV v))
    (Host.gather gather_S100000x16_S2000000x1_S2000000x16_1_0_n_n_0_1_116 x (takeIdxV v))
    (broadcastInDim S2000000x16 ![] bcast_S_S2000000x16 (constant (F := Ideal) S_ .f32 0x7FC00000#32))

theorem takeV_apply (r : Fin 2000000) (q : Fin 16) (hi : InTable (v (ix1 r))) :
    takeV x v (ix2 r q) = lookupRef x (v (ix1 r)) q := by
  unfold takeV
  show Scalar.select (_ : BitVec 1) (_ : EReal) (_ : EReal) = _
  rw [bcast_n_nm_apply, takeMaskV_apply v r hi, select_one]
  refine (RowGather.gather_rows_apply (N := 100000) (C := 16) (n := 2000000) (by decide)
    gather_S100000x16_S2000000x1_S2000000x16_1_0_n_n_0_1_116_wf x (takeIdxV v) r q).trans ?_
  unfold lookupRef rowOf
  refine congrArg (fun k => x (ix2 k q)) (Fin.ext ?_)
  show min (takeIdxV v (ix2 r 0)).toInt.toNat (100000 - 1) = min (wrapIdx (v (ix1 r))).toInt.toNat 99999
  rw [takeIdxV_apply]

/-- Row `k` of the two rows of node numbers, as a vector. -/
def rowV0 (ei : (⟨2, ![2, 2000000]⟩ : Shape).Idx → BitVec 32) : (⟨1, ![2000000]⟩ : Shape).Idx → BitVec 32 :=
  shapeCast S2000000 (extractStridedSlice S1x2000000 ![0, 0] ei slices_S2x2000000_S1x2000000_0_0) shapeCasts_S1x2000000_S2000000
def rowV1 (ei : (⟨2, ![2, 2000000]⟩ : Shape).Idx → BitVec 32) : (⟨1, ![2000000]⟩ : Shape).Idx → BitVec 32 :=
  shapeCast S2000000 (extractStridedSlice S1x2000000 ![1, 0] ei slices_S2x2000000_S1x2000000_1_0) shapeCasts_S1x2000000_S2000000

theorem rowV0_apply (ei : (⟨2, ![2, 2000000]⟩ : Shape).Idx → BitVec 32) (r : Fin 2000000) : rowV0 ei (ix1 r) = ei (ix2 0 r) := by
  unfold rowV0
  rw [shapeCast_1a_a_apply]
  exact slice2_axis0_apply 0 ei _ 0 r 0 rfl
theorem rowV1_apply (ei : (⟨2, ![2, 2000000]⟩ : Shape).Idx → BitVec 32) (r : Fin 2000000) : rowV1 ei (ix1 r) = ei (ix2 1 r) := by
  unfold rowV1
  rw [shapeCast_1a_a_apply]
  exact slice2_axis0_apply 1 ei _ 0 r 1 rfl

end Take

/-! ## The operands of the second region, read off the host operations -/

section Readings

variable (U : Valuation τ sig (Elt Ideal))

/-- The node table, the node numbers, the gains and offsets, and the first region's two one-row arrays of sums, as the
    valuation holds them. -/
abbrev xOf : (⟨2, ![100000, 16]⟩ : Shape).Idx → EReal := U (Proc.devRef .tc main_arg0)
abbrev eiOf : (⟨2, ![2, 2000000]⟩ : Shape).Idx → BitVec 32 := U (Proc.devRef .tc main_arg2)
abbrev gxOf : (⟨1, ![16]⟩ : Shape).Idx → EReal := U (Proc.devRef .tc main_arg4)
abbrev bxOf : (⟨1, ![16]⟩ : Shape).Idx → EReal := U (Proc.devRef .tc main_arg5)
abbrev geOf : (⟨1, ![19]⟩ : Shape).Idx → EReal := U (Proc.devRef .tc main_arg6)
abbrev beOf : (⟨1, ![19]⟩ : Shape).Idx → EReal := U (Proc.devRef .tc main_arg7)
abbrev s1Of : (⟨2, ![1, 19]⟩ : Shape).Idx → EReal := U (Proc.devRef .tc main_v0_0)
abbrev s2Of : (⟨2, ![1, 19]⟩ : Shape).Idx → EReal := U (Proc.devRef .tc main_v0_1)

/-- The node columns' multipliers, as a one-row array. -/
theorem v41_apply (q : Fin 16) :
    (after4 U (Proc.devRef .tc main_v41) : (⟨2, ![1, 16]⟩ : Shape).Idx → EReal) (ix2 0 q)
      = scaleOf (gxOf U (ix1 q)) (max (varDev nNodes (xOf U) q) zeroF) := by
  have e : (after4 U (Proc.devRef .tc main_v41) : (⟨2, ![1, 16]⟩ : Shape).Idx → EReal)
      = shapeCast (⟨2, ![1, 16]⟩ : Shape) (nodeScaleV (xOf U) (gxOf U)) shapeCasts_S16_S1x16 := by
    unfold after4; after_results_simp; rfl
  rw [e]
  exact (shapeCast_a_1a_apply _ _ 0 q).trans (nodeScaleV_apply _ _ q)

/-- The node columns' addends, as a one-row array. -/
theorem v42_apply (q : Fin 16) :
    (after4 U (Proc.devRef .tc main_v42) : (⟨2, ![1, 16]⟩ : Shape).Idx → EReal) (ix2 0 q)
      = bxOf U (ix1 q) - colMean nNodes (xOf U) q * scaleOf (gxOf U (ix1 q)) (max (varDev nNodes (xOf U) q) zeroF) := by
  have e : (after4 U (Proc.devRef .tc main_v42) : (⟨2, ![1, 16]⟩ : Shape).Idx → EReal)
      = shapeCast (⟨2, ![1, 16]⟩ : Shape) (nodeShiftV (xOf U) (gxOf U) (bxOf U)) shapeCasts_S16_S1x16 := by
    unfold after4; after_results_simp; rfl
  rw [e]
  exact (shapeCast_a_1a_apply _ _ 0 q).trans (nodeShiftV_apply _ _ _ q)

/-- The edge columns' multipliers, as a one-row array. -/
theorem v43_apply (q : Fin 19) :
    (after4 U (Proc.devRef .tc main_v43) : (⟨2, ![1, 19]⟩ : Shape).Idx → EReal) (ix2 0 q)
      = scaleOf (geOf U (ix1 q)) (max (Ideal.div (s2Of U (ix2 0 q)) nEdges
          - Ideal.div (s1Of U (ix2 0 q)) nEdges * Ideal.div (s1Of U (ix2 0 q)) nEdges) zeroF) := by
  have e : (after4 U (Proc.devRef .tc main_v43) : (⟨2, ![1, 19]⟩ : Shape).Idx → EReal)
      = shapeCast (⟨2, ![1, 19]⟩ : Shape) (edgeScaleV (s1Of U) (s2Of U) (geOf U)) shapeCasts_S19_S1x19 := by
    unfold after4; after_results_simp; rfl
  rw [e]
  exact (shapeCast_a_1a_apply _ _ 0 q).trans (edgeScaleV_apply _ _ _ q)

/-- The edge columns' addends, as a one-row array. -/
theorem v44_apply (q : Fin 19) :
    (after4 U (Proc.devRef .tc main_v44) : (⟨2, ![1, 19]⟩ : Shape).Idx → EReal) (ix2 0 q)
      = beOf U (ix1 q) - Ideal.div (s1Of U (ix2 0 q)) nEdges
          * scaleOf (geOf U (ix1 q)) (max (Ideal.div (s2Of U (ix2 0 q)) nEdges
              - Ideal.div (s1Of U (ix2 0 q)) nEdges * Ideal.div (s1Of U (ix2 0 q)) nEdges) zeroF) := by
  have e : (after4 U (Proc.devRef .tc main_v44) : (⟨2, ![1, 19]⟩ : Shape).Idx → EReal)
      = shapeCast (⟨2, ![1, 19]⟩ : Shape) (edgeShiftV (s1Of U) (s2Of U) (geOf U) (beOf U)) shapeCasts_S19_S1x19 := by
    unfold after4; after_results_simp; rfl
  rw [e]
  exact (shapeCast_a_1a_apply _ _ 0 q).trans (edgeShiftV_apply _ _ _ _ q)

end Readings

/-! ## The two looked-up node tables, the offsets as one-row arrays, and the arguments no host operation writes -/

section Readings2

variable (U : Valuation τ sig (Elt Ideal))

/-- The rows of the node table at the first node number of every edge. -/
theorem v39_apply (r : Fin 2000000) (q : Fin 16) (hi : InTable (eiOf U (ix2 0 r))) :
    (after4 U (Proc.devRef .tc main_v39) : (⟨2, ![2000000, 16]⟩ : Shape).Idx → EReal) (ix2 r q)
      = lookupRef (xOf U) (eiOf U (ix2 0 r)) q := by
  have e : (after4 U (Proc.devRef .tc main_v39) : (⟨2, ![2000000, 16]⟩ : Shape).Idx → EReal)
      = takeV (xOf U) (rowV0 (eiOf U)) := by
    unfold after4; after_results_simp
    have hv : shapeCast main_v36.ty.shape (extractStridedSlice S1x2000000 ![0, 0] (U (Proc.devRef .tc main_arg2))
        slices_S2x2000000_S1x2000000_0_0) shapeCasts_S1x2000000_S2000000 = rowV0 (eiOf U) := rfl
    simp only [StableHlo.TRef.ofBuf, StableHlo.TRef.toBuf, cast_eq, hv]
    unfold takeV takeMaskV takeIdxV
    rfl
  rw [e, takeV_apply _ _ r q (by rw [rowV0_apply]; exact hi), rowV0_apply]

/-- The rows of the node table at the second node number of every edge. -/
theorem v40_apply (r : Fin 2000000) (q : Fin 16) (hi : InTable (eiOf U (ix2 1 r))) :
    (after4 U (Proc.devRef .tc main_v40) : (⟨2, ![2000000, 16]⟩ : Shape).Idx → EReal) (ix2 r q)
      = lookupRef (xOf U) (eiOf U (ix2 1 r)) q := by
  have e : (after4 U (Proc.devRef .tc main_v40) : (⟨2, ![2000000, 16]⟩ : Shape).Idx → EReal)
      = takeV (xOf U) (rowV1 (eiOf U)) := by
    unfold after4; after_results_simp
    have hv : shapeCast main_v38.ty.shape (extractStridedSlice S1x2000000 ![1, 0] (U (Proc.devRef .tc main_arg2))
        slices_S2x2000000_S1x2000000_1_0) shapeCasts_S1x2000000_S2000000 = rowV1 (eiOf U) := rfl
    simp only [StableHlo.TRef.ofBuf, StableHlo.TRef.toBuf, cast_eq, hv]
    unfold takeV takeMaskV takeIdxV
    rfl
  rw [e, takeV_apply _ _ r q (by rw [rowV1_apply]; exact hi), rowV1_apply]

/-- The six offset vectors as one-row arrays. -/
theorem v45_apply (j : Fin 64) :
    (after4 U (Proc.devRef .tc main_v45) : (⟨2, ![1, 64]⟩ : Shape).Idx → EReal) (ix2 0 j)
      = (U (Proc.devRef .tc main_arg9) : (⟨1, ![64]⟩ : Shape).Idx → EReal) (ix1 j) := by
  unfold after4; after_results_simp
  exact shapeCast_a_1a_apply _ _ 0 j
theorem v46_apply (j : Fin 64) :
    (after4 U (Proc.devRef .tc main_v46) : (⟨2, ![1, 64]⟩ : Shape).Idx → EReal) (ix2 0 j)
      = (U (Proc.devRef .tc main_arg11) : (⟨1, ![64]⟩ : Shape).Idx → EReal) (ix1 j) := by
  unfold after4; after_results_simp
  exact shapeCast_a_1a_apply _ _ 0 j
theorem v47_apply (j : Fin 32) :
    (after4 U (Proc.devRef .tc main_v47) : (⟨2, ![1, 32]⟩ : Shape).Idx → EReal) (ix2 0 j)
      = (U (Proc.devRef .tc main_arg13) : (⟨1, ![32]⟩ : Shape).Idx → EReal) (ix1 j) := by
  unfold after4; after_results_simp
  exact shapeCast_a_1a_apply _ _ 0 j
theorem v48_apply (j : Fin 16) :
    (after4 U (Proc.devRef .tc main_v48) : (⟨2, ![1, 16]⟩ : Shape).Idx → EReal) (ix2 0 j)
      = (U (Proc.devRef .tc main_arg15) : (⟨1, ![16]⟩ : Shape).Idx → EReal) (ix1 j) := by
  unfold after4; after_results_simp
  exact shapeCast_a_1a_apply _ _ 0 j
theorem v49_apply (j : Fin 8) :
    (after4 U (Proc.devRef .tc main_v49) : (⟨2, ![1, 8]⟩ : Shape).Idx → EReal) (ix2 0 j)
      = (U (Proc.devRef .tc main_arg17) : (⟨1, ![8]⟩ : Shape).Idx → EReal) (ix1 j) := by
  unfold after4; after_results_simp
  exact shapeCast_a_1a_apply _ _ 0 j
theorem v50_apply (j : Fin 2) :
    (after4 U (Proc.devRef .tc main_v50) : (⟨2, ![1, 2]⟩ : Shape).Idx → EReal) (ix2 0 j)
      = (U (Proc.devRef .tc main_arg19) : (⟨1, ![2]⟩ : Shape).Idx → EReal) (ix1 j) := by
  unfold after4; after_results_simp
  exact shapeCast_a_1a_apply _ _ 0 j

/-- No host operation writes an argument: the edge table and the six weight matrices are as the valuation holds them. -/
theorem arg1_eq : after4 U (Proc.devRef .tc main_arg1) = U (Proc.devRef .tc main_arg1) := by
  unfold after4; after_results_simp
theorem arg8_eq : after4 U (Proc.devRef .tc main_arg8) = U (Proc.devRef .tc main_arg8) := by
  unfold after4; after_results_simp
theorem arg10_eq : after4 U (Proc.devRef .tc main_arg10) = U (Proc.devRef .tc main_arg10) := by
  unfold after4; after_results_simp
theorem arg12_eq : after4 U (Proc.devRef .tc main_arg12) = U (Proc.devRef .tc main_arg12) := by
  unfold after4; after_results_simp
theorem arg14_eq : after4 U (Proc.devRef .tc main_arg14) = U (Proc.devRef .tc main_arg14) := by
  unfold after4; after_results_simp
theorem arg16_eq : after4 U (Proc.devRef .tc main_arg16) = U (Proc.devRef .tc main_arg16) := by
  unfold after4; after_results_simp
theorem arg18_eq : after4 U (Proc.devRef .tc main_arg18) = U (Proc.devRef .tc main_arg18) := by
  unfold after4; after_results_simp

end Readings2

/-! ## The contents at the second region's entry -/

/-- The contents the second region is entered at are these, taken from the contents the first region leaves. -/
theorem after4_W1 (m : (ℓ : Loc nD τ sig) → Buf (Elt Ideal) ℓ) (ρ : Dev nD → PrngReg) (c : Dev nD) :
    after4 (W1 m ρ c) = W5 m ρ c := rfl

end Cert.Gnn.KHost

end
-- ==== Proof.KValue.lean ====
/-
  The kernel's program's result array, read at an edge and a score.

  After the run the result array is what the second region's write-backs leave: block by block the network on rows formed
  from the region's operand arrays (KRegion1, KBody). Those operands are what the host operations between the two regions make of
  the arguments and of the first region's two outputs (KHost): the looked-up node rows, the per-column multipliers and
  addends of the affine normal form, the weights, the offset vectors as one-row arrays. The first region's outputs are the edge
  table's column sums and sums of squares (KRegion0). Put together: at edge `r`, score `k`, the result is the network on the
  row `rowKer` of the arguments, for node numbers inside the table.
-/
import proofs.«409262_j23338852286984_2_alg».proof.Proof.Gen.KernelIdeal.Frame
import proofs.«409262_j23338852286984_2_alg».proof.Proof.Spec
import proofs.«409262_j23338852286984_2_alg».proof.Proof.KBody
import proofs.«409262_j23338852286984_2_alg».proof.Proof.KRegion1
import proofs.«409262_j23338852286984_2_alg».proof.Proof.KRegion0
import proofs.«409262_j23338852286984_2_alg».proof.Proof.KHost
import Idealize.ShloMosaic.Lib.Pipeline.Value
import Idealize.ShloMosaic.Lib.ValueIdx

noncomputable section

namespace Cert.Gnn.KValue
open Cert.KernelIdeal Cert.KernelIdeal.Gen Cert.Gnn Cert.Gnn.KHost Cert.Gnn.KRegion1
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The contents when the first region has ended -/

/-- An argument no region and no host operation writes is as launched. -/
theorem U_arg0 : W1 m ρ c (Proc.devRef .tc main_arg0) = m ((c : Thread nD τ).loc main_arg0) := (W1_of_ne m ρ c main_arg0 (by decide)).trans rfl
theorem U_arg2 : W1 m ρ c (Proc.devRef .tc main_arg2) = m ((c : Thread nD τ).loc main_arg2) := (W1_of_ne m ρ c main_arg2 (by decide)).trans rfl
theorem U_arg4 : W1 m ρ c (Proc.devRef .tc main_arg4) = m ((c : Thread nD τ).loc main_arg4) := (W1_of_ne m ρ c main_arg4 (by decide)).trans rfl
theorem U_arg5 : W1 m ρ c (Proc.devRef .tc main_arg5) = m ((c : Thread nD τ).loc main_arg5) := (W1_of_ne m ρ c main_arg5 (by decide)).trans rfl
theorem U_arg6 : W1 m ρ c (Proc.devRef .tc main_arg6) = m ((c : Thread nD τ).loc main_arg6) := (W1_of_ne m ρ c main_arg6 (by decide)).trans rfl
theorem U_arg7 : W1 m ρ c (Proc.devRef .tc main_arg7) = m ((c : Thread nD τ).loc main_arg7) := (W1_of_ne m ρ c main_arg7 (by decide)).trans rfl
theorem U_arg8 : W1 m ρ c (Proc.devRef .tc main_arg8) = m ((c : Thread nD τ).loc main_arg8) := (W1_of_ne m ρ c main_arg8 (by decide)).trans rfl
theorem U_arg9 : W1 m ρ c (Proc.devRef .tc main_arg9) = m ((c : Thread nD τ).loc main_arg9) := (W1_of_ne m ρ c main_arg9 (by decide)).trans rfl
theorem U_arg10 : W1 m ρ c (Proc.devRef .tc main_arg10) = m ((c : Thread nD τ).loc main_arg10) := (W1_of_ne m ρ c main_arg10 (by decide)).trans rfl
theorem U_arg11 : W1 m ρ c (Proc.devRef .tc main_arg11) = m ((c : Thread nD τ).loc main_arg11) := (W1_of_ne m ρ c main_arg11 (by decide)).trans rfl
theorem U_arg12 : W1 m ρ c (Proc.devRef .tc main_arg12) = m ((c : Thread nD τ).loc main_arg12) := (W1_of_ne m ρ c main_arg12 (by decide)).trans rfl
theorem U_arg13 : W1 m ρ c (Proc.devRef .tc main_arg13) = m ((c : Thread nD τ).loc main_arg13) := (W1_of_ne m ρ c main_arg13 (by decide)).trans rfl
theorem U_arg14 : W1 m ρ c (Proc.devRef .tc main_arg14) = m ((c : Thread nD τ).loc main_arg14) := (W1_of_ne m ρ c main_arg14 (by decide)).trans rfl
theorem U_arg15 : W1 m ρ c (Proc.devRef .tc main_arg15) = m ((c : Thread nD τ).loc main_arg15) := (W1_of_ne m ρ c main_arg15 (by decide)).trans rfl
theorem U_arg16 : W1 m ρ c (Proc.devRef .tc main_arg16) = m ((c : Thread nD τ).loc main_arg16) := (W1_of_ne m ρ c main_arg16 (by decide)).trans rfl
theorem U_arg17 : W1 m ρ c (Proc.devRef .tc main_arg17) = m ((c : Thread nD τ).loc main_arg17) := (W1_of_ne m ρ c main_arg17 (by decide)).trans rfl
theorem U_arg18 : W1 m ρ c (Proc.devRef .tc main_arg18) = m ((c : Thread nD τ).loc main_arg18) := (W1_of_ne m ρ c main_arg18 (by decide)).trans rfl
theorem U_arg19 : W1 m ρ c (Proc.devRef .tc main_arg19) = m ((c : Thread nD τ).loc main_arg19) := (W1_of_ne m ρ c main_arg19 (by decide)).trans rfl
/-- The edge table is the first region's input array: it ends as it was entered. -/
theorem U_arg1 : W1 m ρ c (Proc.devRef .tc main_arg1) = m ((c : Thread nD τ).loc main_arg1) :=
  (W1_arr m ρ c 0).trans (((dat0 (V0 m ρ) c).arrAt_in 0 rfl _).trans (A_eq0 (V0 m ρ) c 0))
/-- The first region's two outputs: the edge table's column sums and column sums of squares. -/
theorem U_s1 (q : Fin 19) : (W1 m ρ c (Proc.devRef .tc main_v0_0) : S1x19.Idx → EReal) (ix2 0 q) = colSum (m ((c : Thread nD τ).loc main_arg1) : S2000000x19.Idx → EReal) q :=
  (congrFun (W1_arr m ρ c 1) (ix2 0 q)).trans (Cert.Gnn.KRegion0.region0_sum (V0 m ρ) c q)
theorem U_s2 (q : Fin 19) : (W1 m ρ c (Proc.devRef .tc main_v0_1) : S1x19.Idx → EReal) (ix2 0 q) = colSumSq (m ((c : Thread nD τ).loc main_arg1) : S2000000x19.Idx → EReal) q :=
  (congrFun (W1_arr m ρ c 2) (ix2 0 q)).trans (Cert.Gnn.KRegion0.region0_sumsq (V0 m ρ) c q)

/-! ## The second region's operands -/

/-- The weights the second region is handed are the arguments', the offset vectors as one-row arrays. -/
theorem params_eq :
    rowParams (arr7 (V5 m ρ) c) (arr8 (V5 m ρ) c) (arr9 (V5 m ρ) c) (arr10 (V5 m ρ) c) (arr11 (V5 m ρ) c) (arr12 (V5 m ρ) c) (arr13 (V5 m ρ) c) (arr14 (V5 m ρ) c) (arr15 (V5 m ρ) c) (arr16 (V5 m ρ) c) (arr17 (V5 m ρ) c) (arr18 (V5 m ρ) c)
      = paramsOf (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  unfold rowParams paramsOf
  have e8 : arr7 (V5 m ρ) c = m ((c : Thread nD τ).loc main_arg8) := (arg8_eq (W1 m ρ c)).trans (U_arg8 m ρ c)
  have e10 : arr9 (V5 m ρ) c = m ((c : Thread nD τ).loc main_arg10) := (arg10_eq (W1 m ρ c)).trans (U_arg10 m ρ c)
  have e12 : arr11 (V5 m ρ) c = m ((c : Thread nD τ).loc main_arg12) := (arg12_eq (W1 m ρ c)).trans (U_arg12 m ρ c)
  have e14 : arr13 (V5 m ρ) c = m ((c : Thread nD τ).loc main_arg14) := (arg14_eq (W1 m ρ c)).trans (U_arg14 m ρ c)
  have e16 : arr15 (V5 m ρ) c = m ((c : Thread nD τ).loc main_arg16) := (arg16_eq (W1 m ρ c)).trans (U_arg16 m ρ c)
  have e18 : arr17 (V5 m ρ) c = m ((c : Thread nD τ).loc main_arg18) := (arg18_eq (W1 m ρ c)).trans (U_arg18 m ρ c)
  have e9 : (fun j : Fin 64 => arr8 (V5 m ρ) c (ix2 0 j)) = fun j => (m ((c : Thread nD τ).loc main_arg9) : S64.Idx → EReal) (ix1 j) :=
    funext fun j => (v45_apply (W1 m ρ c) j).trans (congrFun (U_arg9 m ρ c) (ix1 j))
  have e11 : (fun j : Fin 64 => arr10 (V5 m ρ) c (ix2 0 j)) = fun j => (m ((c : Thread nD τ).loc main_arg11) : S64.Idx → EReal) (ix1 j) :=
    funext fun j => (v46_apply (W1 m ρ c) j).trans (congrFun (U_arg11 m ρ c) (ix1 j))
  have e13 : (fun j : Fin 32 => arr12 (V5 m ρ) c (ix2 0 j)) = fun j => (m ((c : Thread nD τ).loc main_arg13) : S32.Idx → EReal) (ix1 j) :=
    funext fun j => (v47_apply (W1 m ρ c) j).trans (congrFun (U_arg13 m ρ c) (ix1 j))
  have e15 : (fun j : Fin 16 => arr14 (V5 m ρ) c (ix2 0 j)) = fun j => (m ((c : Thread nD τ).loc main_arg15) : S16.Idx → EReal) (ix1 j) :=
    funext fun j => (v48_apply (W1 m ρ c) j).trans (congrFun (U_arg15 m ρ c) (ix1 j))
  have e17 : (fun j : Fin 8 => arr16 (V5 m ρ) c (ix2 0 j)) = fun j => (m ((c : Thread nD τ).loc main_arg17) : S8.Idx → EReal) (ix1 j) :=
    funext fun j => (v49_apply (W1 m ρ c) j).trans (congrFun (U_arg17 m ρ c) (ix1 j))
  have e19 : (fun j : Fin 2 => arr18 (V5 m ρ) c (ix2 0 j)) = fun j => (m ((c : Thread nD τ).loc main_arg19) : S2.Idx → EReal) (ix1 j) :=
    funext fun j => (v50_apply (W1 m ρ c) j).trans (congrFun (U_arg19 m ρ c) (ix1 j))
  rw [e8, e10, e12, e14, e16, e18, e9, e11, e13, e15, e17, e19]

/-- The join of three rows depends on the three rows only. -/
theorem cat3_congr {a a' b b' : Fin 16 → EReal} {d d' : Fin 19 → EReal} (h1 : a = a') (h2 : b = b') (h3 : d = d') :
    cat3 a b d = cat3 a' b' d' := by rw [h1, h2, h3]

/-- Edge `r`'s row as the second region forms it — looked-up raw node rows and the raw edge row, each column multiplied and
    shifted — is the specification's affine-form row, for node numbers inside the table: the multiplier is the gain over the
    root of the floored, stabilised variance, the addend the offset less the mean times the multiplier; the edge table's
    mean and variance come from the first region's column sums. -/
theorem row_eq (hin : ∀ (a : Fin 2) (r : Fin 2000000), InTable ((m ((c : Thread nD τ).loc main_arg2) : S2x2000000.Idx → BitVec 32) (ix2 a r))) (r : Fin 2000000) :
    affRow (arr0 (V5 m ρ) c) (arr1 (V5 m ρ) c) (arr2 (V5 m ρ) c) (arr3 (V5 m ρ) c) (arr4 (V5 m ρ) c) (arr5 (V5 m ρ) c) (arr6 (V5 m ρ) c) r
      = rowKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) r := by
  unfold affRow rowKer
  have hi0 : InTable (eiOf (W1 m ρ c) (ix2 0 r)) := by
    show InTable ((W1 m ρ c (Proc.devRef .tc main_arg2) : S2x2000000.Idx → BitVec 32) (ix2 0 r)); rw [U_arg2]; exact hin 0 r
  have hi1 : InTable (eiOf (W1 m ρ c) (ix2 1 r)) := by
    show InTable ((W1 m ρ c (Proc.devRef .tc main_arg2) : S2x2000000.Idx → BitVec 32) (ix2 1 r)); rw [U_arg2]; exact hin 1 r
  refine cat3_congr (funext fun q => ?_) (funext fun q => ?_) (funext fun q => ?_)
  · have h39 : arr0 (V5 m ρ) c (ix2 r q) = lookupRef (xOf (W1 m ρ c)) (eiOf (W1 m ρ c) (ix2 0 r)) q := v39_apply (W1 m ρ c) r q hi0
    have h41 : arr3 (V5 m ρ) c (ix2 0 q) = _ := v41_apply (W1 m ρ c) q
    have h42 : arr4 (V5 m ρ) c (ix2 0 q) = _ := v42_apply (W1 m ρ c) q
    rw [h39, h41, h42]
    unfold bnAffine xOf eiOf gxOf bxOf
    rw [U_arg0, U_arg2, U_arg4, U_arg5]
  · have h40 : arr1 (V5 m ρ) c (ix2 r q) = lookupRef (xOf (W1 m ρ c)) (eiOf (W1 m ρ c) (ix2 1 r)) q := v40_apply (W1 m ρ c) r q hi1
    have h41 : arr3 (V5 m ρ) c (ix2 0 q) = _ := v41_apply (W1 m ρ c) q
    have h42 : arr4 (V5 m ρ) c (ix2 0 q) = _ := v42_apply (W1 m ρ c) q
    rw [h40, h41, h42]
    unfold bnAffine xOf eiOf gxOf bxOf
    rw [U_arg0, U_arg2, U_arg4, U_arg5]
  · have h1 : arr2 (V5 m ρ) c = m ((c : Thread nD τ).loc main_arg1) := (arg1_eq (W1 m ρ c)).trans (U_arg1 m ρ c)
    have h43 : arr5 (V5 m ρ) c (ix2 0 q) = _ := v43_apply (W1 m ρ c) q
    have h44 : arr6 (V5 m ρ) c (ix2 0 q) = _ := v44_apply (W1 m ρ c) q
    rw [h1, h43, h44]
    unfold bnAffine geOf beOf s1Of s2Of
    rw [U_s1, U_s2, U_arg6, U_arg7]
    rfl

/-! ## The result -/

/-- At the last boundary the result array holds, at edge `r` and score `k`, the network on the specification's affine-form
    row of the arguments, for node numbers inside the table. -/
theorem result_value (hin : ∀ (a : Fin 2) (r : Fin 2000000), InTable ((m ((c : Thread nD τ).loc main_arg2) : S2x2000000.Idx → BitVec 32) (ix2 a r)))
    (r : Fin 2000000) (k : Fin 2) :
    (W6 m ρ c (Proc.devRef .tc main_v51) : S2000000x2.Idx → EReal) (ix2 r k)
      = mlp (paramsOf (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))
          (rowKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) r) k := by
  have h1 : (W6 m ρ c (Proc.devRef .tc main_v51) : S2000000x2.Idx → EReal) = (dat1 (V5 m ρ) c).arrAt 19 cfg1.N := W6_arr m ρ c 19
  rw [h1, region1_value (V5 m ρ) Cert.Gnn.KBody.out_apply c r k, params_eq m ρ c, row_eq m ρ c hin r]

end Cert.Gnn.KValue

end
-- ==== Proof.RefRun.lean ====
/-
  The reference's run, read stage by stage.

  The reference is a straight line of 138 host operations. Its final buffer is the last stage of a chain of named
  stages of the arguments; the line is cut where few buffers are live (after each normalised table, after each lookup,
  at the join, after each layer), each piece is shown to take the stages it reads to the stage it writes and to leave
  alone what later pieces read, and the pieces are joined.
-/
import proofs.«409262_j23338852286984_2_alg».proof.Proof.RunP
import proofs.«409262_j23338852286984_2_alg».proof.Proof.ReadP
import Idealize.ShloMosaic.Lib.StableHlo.Run

noncomputable section

namespace Cert.Gnn.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The pieces of the line -/

/-- The edge table's normalisation: the operations that end in `main_v22`. -/
def A1 : List (HloOp τ sig (Elt F)) :=
  [ nullary main_cst (constant S_ .f32 0x00000000#32),
    binary main_arg1 main_cst main_v0 ((fun x v => Host.reduceAdd x v reducesTo_S2000000x19_S19_d0 h_S_) : (⟨S2000000x19, .f32⟩ : BufTy).Contents (Elt F) → (⟨S_, .f32⟩ : BufTy).Contents (Elt F) → (⟨S19, .f32⟩ : BufTy).Contents (Elt F)),
    nullary main_cst_0 (constant S_ .f32 0x49F42400#32),
    unary main_cst_0 main_v1 (broadcastInDim S19 ![] bcast_S_S19 : (⟨S_, .f32⟩ : BufTy).Contents (Elt F) → (⟨S19, .f32⟩ : BufTy).Contents (Elt F)),
    binary main_v0 main_v1 main_v2 (Host.divf : (⟨S19, .f32⟩ : BufTy).Contents (Elt F) → (⟨S19, .f32⟩ : BufTy).Contents (Elt F) → (⟨S19, .f32⟩ : BufTy).Contents (Elt F)),
    unary main_v2 main_v3 (broadcastInDim S1x19 ![1] bcast_S19_S1x19_1 : (⟨S19, .f32⟩ : BufTy).Contents (Elt F) → (⟨S1x19, .f32⟩ : BufTy).Contents (Elt F)),
    unary main_v3 main_v4 (broadcastInDim S2000000x19 ![0, 1] bcast_S1x19_S2000000x19_0_1 : (⟨S1x19, .f32⟩ : BufTy).Contents (Elt F) → (⟨S2000000x19, .f32⟩ : BufTy).Contents (Elt F)),
    binary main_arg1 main_v4 main_v5 (subf : (⟨S2000000x19, .f32⟩ : BufTy).Contents (Elt F) → (⟨S2000000x19, .f32⟩ : BufTy).Contents (Elt F) → (⟨S2000000x19, .f32⟩ : BufTy).Contents (Elt F)),
    binary main_v5 main_v5 main_v6 (mulf : (⟨S2000000x19, .f32⟩ : BufTy).Contents (Elt F) → (⟨S2000000x19, .f32⟩ : BufTy).Contents (Elt F) → (⟨S2000000x19, .f32⟩ : BufTy).Contents (Elt F)),
    nullary main_cst_1 (constant S_ .f32 0x00000000#32),
    binary main_v6 main_cst_1 main_v7 ((fun x v => Host.reduceAdd x v reducesTo_S2000000x19_S19_d0 h_S_) : (⟨S2000000x19, .f32⟩ : BufTy).Contents (Elt F) → (⟨S_, .f32⟩ : BufTy).Contents (Elt F) → (⟨S19, .f32⟩ : BufTy).Contents (Elt F)),
    nullary main_cst_2 (constant S_ .f32 0x49F42400#32),
    unary main_cst_2 main_v8 (broadcastInDim S19 ![] bcast_S_S19 : (⟨S_, .f32⟩ : BufTy).Contents (Elt F) → (⟨S19, .f32⟩ : BufTy).Contents (Elt F)),
    binary main_v7 main_v8 main_v9 (Host.divf : (⟨S19, .f32⟩ : BufTy).Contents (Elt F) → (⟨S19, .f32⟩ : BufTy).Contents (Elt F) → (⟨S19, .f32⟩ : BufTy).Contents (Elt F)),
    unary main_v2 main_v10 (broadcastInDim S1x19 ![1] bcast_S19_S1x19_1 : (⟨S19, .f32⟩ : BufTy).Contents (Elt F) → (⟨S1x19, .f32⟩ : BufTy).Contents (Elt F)),
    unary main_v10 main_v11 (broadcastInDim S2000000x19 ![0, 1] bcast_S1x19_S2000000x19_0_1 : (⟨S1x19, .f32⟩ : BufTy).Contents (Elt F) → (⟨S2000000x19, .f32⟩ : BufTy).Contents (Elt F)),
    binary main_arg1 main_v11 main_v12 (subf : (⟨S2000000x19, .f32⟩ : BufTy).Contents (Elt F) → (⟨S2000000x19, .f32⟩ : BufTy).Contents (Elt F) → (⟨S2000000x19, .f32⟩ : BufTy).Contents (Elt F)),
    nullary main_cst_3 (constant S_ .f32 0x3727C5AC#32),
    unary main_cst_3 main_v13 (broadcastInDim S19 ![] bcast_S_S19 : (⟨S_, .f32⟩ : BufTy).Contents (Elt F) → (⟨S19, .f32⟩ : BufTy).Contents (Elt F)),
    binary main_v9 main_v13 main_v14 (addf : (⟨S19, .f32⟩ : BufTy).Contents (Elt F) → (⟨S19, .f32⟩ : BufTy).Contents (Elt F) → (⟨S19, .f32⟩ : BufTy).Contents (Elt F)),
    unary main_v14 main_v15 (Host.sqrt : (⟨S19, .f32⟩ : BufTy).Contents (Elt F) → (⟨S19, .f32⟩ : BufTy).Contents (Elt F)),
    binary main_arg6 main_v15 main_v16 (Host.divf : (⟨S19, .f32⟩ : BufTy).Contents (Elt F) → (⟨S19, .f32⟩ : BufTy).Contents (Elt F) → (⟨S19, .f32⟩ : BufTy).Contents (Elt F)),
    unary main_v16 main_v17 (broadcastInDim S1x19 ![1] bcast_S19_S1x19_1 : (⟨S19, .f32⟩ : BufTy).Contents (Elt F) → (⟨S1x19, .f32⟩ : BufTy).Contents (Elt F)),
    unary main_v17 main_v18 (broadcastInDim S2000000x19 ![0, 1] bcast_S1x19_S2000000x19_0_1 : (⟨S1x19, .f32⟩ : BufTy).Contents (Elt F) → (⟨S2000000x19, .f32⟩ : BufTy).Contents (Elt F)),
    binary main_v12 main_v18 main_v19 (mulf : (⟨S2000000x19, .f32⟩ : BufTy).Contents (Elt F) → (⟨S2000000x19, .f32⟩ : BufTy).Contents (Elt F) → (⟨S2000000x19, .f32⟩ : BufTy).Contents (Elt F)),
    unary main_arg7 main_v20 (broadcastInDim S1x19 ![1] bcast_S19_S1x19_1 : (⟨S19, .f32⟩ : BufTy).Contents (Elt F) → (⟨S1x19, .f32⟩ : BufTy).Contents (Elt F)),
    unary main_v20 main_v21 (broadcastInDim S2000000x19 ![0, 1] bcast_S1x19_S2000000x19_0_1 : (⟨S1x19, .f32⟩ : BufTy).Contents (Elt F) → (⟨S2000000x19, .f32⟩ : BufTy).Contents (Elt F)),
    binary main_v19 main_v21 main_v22 (addf : (⟨S2000000x19, .f32⟩ : BufTy).Contents (Elt F) → (⟨S2000000x19, .f32⟩ : BufTy).Contents (Elt F) → (⟨S2000000x19, .f32⟩ : BufTy).Contents (Elt F)) ]

/-- From the edge table, its gain and its offset to the normalised edge table's stage. -/
theorem A1_v22 (V : Valuation τ sig (Elt F)) {x1 : (⟨S2000000x19, .f32⟩ : BufTy).Contents (Elt F)} {x6 : (⟨S19, .f32⟩ : BufTy).Contents (Elt F)} {x7 : (⟨S19, .f32⟩ : BufTy).Contents (Elt F)}
    (h1 : V (Proc.devRef .tc main_arg1) = x1) (h6 : V (Proc.devRef .tc main_arg6) = x6) (h7 : V (Proc.devRef .tc main_arg7) = x7) :
    after A1 V (Proc.devRef .tc main_v22) = val_main_v22 (F := F) x1 x6 x7 := by
  subst h1 h6 h7
  unfold A1
  after_results_simp
  rfl

set_option maxHeartbeats 4000000 in
/-- This piece writes no argument and none of the stages a later piece reads. -/
theorem A1_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after A1 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold A1; after_results_simp)

/-- The node table's normalisation: the operations that end in `main_v45`. -/
def A2 : List (HloOp τ sig (Elt F)) :=
  [ nullary main_cst_4 (constant S_ .f32 0x00000000#32),
    binary main_arg0 main_cst_4 main_v23 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    nullary main_cst_5 (constant S_ .f32 0x47C35000#32),
    unary main_cst_5 main_v24 (broadcastInDim S16 ![] bcast_S_S16 : (⟨S_, .f32⟩ : BufTy).Contents (Elt F) → (⟨S16, .f32⟩ : BufTy).Contents (Elt F)),
    binary main_v23 main_v24 main_v25 (Host.divf : (⟨S16, .f32⟩ : BufTy).Contents (Elt F) → (⟨S16, .f32⟩ : BufTy).Contents (Elt F) → (⟨S16, .f32⟩ : BufTy).Contents (Elt F)),
    unary main_v25 main_v26 (broadcastInDim S1x16 ![1] bcast_S16_S1x16_1 : (⟨S16, .f32⟩ : BufTy).Contents (Elt F) → (⟨S1x16, .f32⟩ : BufTy).Contents (Elt F)),
    unary main_v26 main_v27 (broadcastInDim S100000x16 ![0, 1] bcast_S1x16_S100000x16_0_1 : (⟨S1x16, .f32⟩ : BufTy).Contents (Elt F) → (⟨S100000x16, .f32⟩ : BufTy).Contents (Elt F)),
    binary main_arg0 main_v27 main_v28 (subf : (⟨S100000x16, .f32⟩ : BufTy).Contents (Elt F) → (⟨S100000x16, .f32⟩ : BufTy).Contents (Elt F) → (⟨S100000x16, .f32⟩ : BufTy).Contents (Elt F)),
    binary main_v28 main_v28 main_v29 (mulf : (⟨S100000x16, .f32⟩ : BufTy).Contents (Elt F) → (⟨S100000x16, .f32⟩ : BufTy).Contents (Elt F) → (⟨S100000x16, .f32⟩ : BufTy).Contents (Elt F)),
    nullary main_cst_6 (constant S_ .f32 0x00000000#32),
    binary main_v29 main_cst_6 main_v30 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    nullary main_cst_7 (constant S_ .f32 0x47C35000#32),
    unary main_cst_7 main_v31 (broadcastInDim S16 ![] bcast_S_S16 : (⟨S_, .f32⟩ : BufTy).Contents (Elt F) → (⟨S16, .f32⟩ : BufTy).Contents (Elt F)),
    binary main_v30 main_v31 main_v32 (Host.divf : (⟨S16, .f32⟩ : BufTy).Contents (Elt F) → (⟨S16, .f32⟩ : BufTy).Contents (Elt F) → (⟨S16, .f32⟩ : BufTy).Contents (Elt F)),
    unary main_v25 main_v33 (broadcastInDim S1x16 ![1] bcast_S16_S1x16_1 : (⟨S16, .f32⟩ : BufTy).Contents (Elt F) → (⟨S1x16, .f32⟩ : BufTy).Contents (Elt F)),
    unary main_v33 main_v34 (broadcastInDim S100000x16 ![0, 1] bcast_S1x16_S100000x16_0_1 : (⟨S1x16, .f32⟩ : BufTy).Contents (Elt F) → (⟨S100000x16, .f32⟩ : BufTy).Contents (Elt F)),
    binary main_arg0 main_v34 main_v35 (subf : (⟨S100000x16, .f32⟩ : BufTy).Contents (Elt F) → (⟨S100000x16, .f32⟩ : BufTy).Contents (Elt F) → (⟨S100000x16, .f32⟩ : BufTy).Contents (Elt F)),
    nullary main_cst_8 (constant S_ .f32 0x3727C5AC#32),
    unary main_cst_8 main_v36 (broadcastInDim S16 ![] bcast_S_S16 : (⟨S_, .f32⟩ : BufTy).Contents (Elt F) → (⟨S16, .f32⟩ : BufTy).Contents (Elt F)),
    binary main_v32 main_v36 main_v37 (addf : (⟨S16, .f32⟩ : BufTy).Contents (Elt F) → (⟨S16, .f32⟩ : BufTy).Contents (Elt F) → (⟨S16, .f32⟩ : BufTy).Contents (Elt F)),
    unary main_v37 main_v38 (Host.sqrt : (⟨S16, .f32⟩ : BufTy).Contents (Elt F) → (⟨S16, .f32⟩ : BufTy).Contents (Elt F)),
    binary main_arg4 main_v38 main_v39 (Host.divf : (⟨S16, .f32⟩ : BufTy).Contents (Elt F) → (⟨S16, .f32⟩ : BufTy).Contents (Elt F) → (⟨S16, .f32⟩ : BufTy).Contents (Elt F)),
    unary main_v39 main_v40 (broadcastInDim S1x16 ![1] bcast_S16_S1x16_1 : (⟨S16, .f32⟩ : BufTy).Contents (Elt F) → (⟨S1x16, .f32⟩ : BufTy).Contents (Elt F)),
    unary main_v40 main_v41 (broadcastInDim S100000x16 ![0, 1] bcast_S1x16_S100000x16_0_1 : (⟨S1x16, .f32⟩ : BufTy).Contents (Elt F) → (⟨S100000x16, .f32⟩ : BufTy).Contents (Elt F)),
    binary main_v35 main_v41 main_v42 (mulf : (⟨S100000x16, .f32⟩ : BufTy).Contents (Elt F) → (⟨S100000x16, .f32⟩ : BufTy).Contents (Elt F) → (⟨S100000x16, .f32⟩ : BufTy).Contents (Elt F)),
    unary main_arg5 main_v43 (broadcastInDim S1x16 ![1] bcast_S16_S1x16_1 : (⟨S16, .f32⟩ : BufTy).Contents (Elt F) → (⟨S1x16, .f32⟩ : BufTy).Contents (Elt F)),
    unary main_v43 main_v44 (broadcastInDim S100000x16 ![0, 1] bcast_S1x16_S100000x16_0_1 : (⟨S1x16, .f32⟩ : BufTy).Contents (Elt F) → (⟨S100000x16, .f32⟩ : BufTy).Contents (Elt F)),
    binary main_v42 main_v44 main_v45 (addf : (⟨S100000x16, .f32⟩ : BufTy).Contents (Elt F) → (⟨S100000x16, .f32⟩ : BufTy).Contents (Elt F) → (⟨S100000x16, .f32⟩ : BufTy).Contents (Elt F)) ]

/-- From the node table, its gain and its offset to the normalised node table's stage. -/
theorem A2_v45 (V : Valuation τ sig (Elt F)) {x0 : (⟨S100000x16, .f32⟩ : BufTy).Contents (Elt F)} {x4 : (⟨S16, .f32⟩ : BufTy).Contents (Elt F)} {x5 : (⟨S16, .f32⟩ : BufTy).Contents (Elt F)}
    (h0 : V (Proc.devRef .tc main_arg0) = x0) (h4 : V (Proc.devRef .tc main_arg4) = x4) (h5 : V (Proc.devRef .tc main_arg5) = x5) :
    after A2 V (Proc.devRef .tc main_v45) = val_main_v45 (F := F) x0 x4 x5 := by
  subst h0 h4 h5
  unfold A2
  after_results_simp
  rfl

set_option maxHeartbeats 4000000 in
/-- This piece writes no argument and none of the stages a later piece reads. -/
theorem A2_keep (V : Valuation τ sig (Elt F)) (r : Ref sig .tc)
    (hr : r ∈ [main_v22, main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after A2 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl <;> (unfold A2; after_results_simp)

/-- The lookup of every edge's first end node: the operations that end in `main_v54`. -/
def A3 : List (HloOp τ sig (Elt F)) :=
  [ unary main_arg2 main_v46 ((extractStridedSlice S1x2000000 ![0, 0] · slices_S2x2000000_S1x2000000_0_0) : (⟨S2x2000000, .i32⟩ : BufTy).Contents (Elt F) → (⟨S1x2000000, .i32⟩ : BufTy).Contents (Elt F)),
    reshape main_v46 main_v47 rfl shapeCasts_S1x2000000_S2000000,
    nullary main_c (constantI S_ 32 0#32),
    unary main_c main_v48 (broadcastInDim S2000000 ![] bcast_S_S2000000 : (⟨S_, .i32⟩ : BufTy).Contents (Elt F) → (⟨S2000000, .i32⟩ : BufTy).Contents (Elt F)),
    binary main_v47 main_v48 main_v49 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 100000#32),
    unary main_c_9 main_v50 (broadcastInDim S2000000 ![] bcast_S_S2000000 : (⟨S_, .i32⟩ : BufTy).Contents (Elt F) → (⟨S2000000, .i32⟩ : BufTy).Contents (Elt F)),
    binary main_v47 main_v50 main_v51 (addi : (⟨S2000000, .i32⟩ : BufTy).Contents (Elt F) → (⟨S2000000, .i32⟩ : BufTy).Contents (Elt F) → (⟨S2000000, .i32⟩ : BufTy).Contents (Elt F)),
    ternary main_v49 main_v51 main_v47 main_v52 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v52 main_v53 (broadcastInDim S2000000x1 ![0] bcast_S2000000_S2000000x1_0 : (⟨S2000000, .i32⟩ : BufTy).Contents (Elt F) → (⟨S2000000x1, .i32⟩ : BufTy).Contents (Elt F)),
    binary main_v45 main_v53 main_v54 ((fun x i => Host.gather gather_S100000x16_S2000000x1_S2000000x16_1_0_n_n_0_1_116 x i) : (⟨S100000x16, .f32⟩ : BufTy).Contents (Elt F) → (⟨S2000000x1, .i32⟩ : BufTy).Contents (Elt F) → (⟨S2000000x16, .f32⟩ : BufTy).Contents (Elt F)) ]

/-- From the normalised node table and the node numbers to the first looked-up rows. -/
theorem A3_v54 (V : Valuation τ sig (Elt F)) {x0 : (⟨S100000x16, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)}
    (h45 : V (Proc.devRef .tc main_v45) = val_main_v45 (F := F) x0 x4 x5) (h2 : V (Proc.devRef .tc main_arg2) = x2) :
    after A3 V (Proc.devRef .tc main_v54) = val_main_v54 (F := F) x0 x2 x4 x5 := by
  subst h2
  unfold A3
  after_results_simp
  rw [h45]
  rfl

set_option maxHeartbeats 4000000 in
/-- This piece writes no argument and none of the stages a later piece reads. -/
theorem A3_keep (V : Valuation τ sig (Elt F)) (r : Ref sig .tc)
    (hr : r ∈ [main_v45, main_v22, main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after A3 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl <;> (unfold A3; after_results_simp)

/-- The lookup of every edge's second end node: the operations that end in `main_v63`. -/
def A4 : List (HloOp τ sig (Elt F)) :=
  [ unary main_arg2 main_v55 ((extractStridedSlice S1x2000000 ![1, 0] · slices_S2x2000000_S1x2000000_1_0) : (⟨S2x2000000, .i32⟩ : BufTy).Contents (Elt F) → (⟨S1x2000000, .i32⟩ : BufTy).Contents (Elt F)),
    reshape main_v55 main_v56 rfl shapeCasts_S1x2000000_S2000000,
    nullary main_c_10 (constantI S_ 32 0#32),
    unary main_c_10 main_v57 (broadcastInDim S2000000 ![] bcast_S_S2000000 : (⟨S_, .i32⟩ : BufTy).Contents (Elt F) → (⟨S2000000, .i32⟩ : BufTy).Contents (Elt F)),
    binary main_v56 main_v57 main_v58 (cmpi .slt : (⟨S2000000, .i32⟩ : BufTy).Contents (Elt F) → (⟨S2000000, .i32⟩ : BufTy).Contents (Elt F) → (⟨S2000000, .i1⟩ : BufTy).Contents (Elt F)),
    nullary main_c_11 (constantI S_ 32 100000#32),
    unary main_c_11 main_v59 (broadcastInDim S2000000 ![] bcast_S_S2000000 : (⟨S_, .i32⟩ : BufTy).Contents (Elt F) → (⟨S2000000, .i32⟩ : BufTy).Contents (Elt F)),
    binary main_v56 main_v59 main_v60 (addi : (⟨S2000000, .i32⟩ : BufTy).Contents (Elt F) → (⟨S2000000, .i32⟩ : BufTy).Contents (Elt F) → (⟨S2000000, .i32⟩ : BufTy).Contents (Elt F)),
    ternary main_v58 main_v60 main_v56 main_v61 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v61 main_v62 (broadcastInDim S2000000x1 ![0] bcast_S2000000_S2000000x1_0 : (⟨S2000000, .i32⟩ : BufTy).Contents (Elt F) → (⟨S2000000x1, .i32⟩ : BufTy).Contents (Elt F)),
    binary main_v45 main_v62 main_v63 ((fun x i => Host.gather gather_S100000x16_S2000000x1_S2000000x16_1_0_n_n_0_1_116 x i) : (⟨S100000x16, .f32⟩ : BufTy).Contents (Elt F) → (⟨S2000000x1, .i32⟩ : BufTy).Contents (Elt F) → (⟨S2000000x16, .f32⟩ : BufTy).Contents (Elt F)) ]

/-- From the normalised node table and the node numbers to the second looked-up rows. -/
theorem A4_v63 (V : Valuation τ sig (Elt F)) {x0 : (⟨S100000x16, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)}
    (h45 : V (Proc.devRef .tc main_v45) = val_main_v45 (F := F) x0 x4 x5) (h2 : V (Proc.devRef .tc main_arg2) = x2) :
    after A4 V (Proc.devRef .tc main_v63) = val_main_v63 (F := F) x0 x2 x4 x5 := by
  subst h2
  unfold A4
  after_results_simp
  rw [h45]
  rfl

set_option maxHeartbeats 4000000 in
/-- This piece writes no argument and none of the stages a later piece reads. -/
theorem A4_keep (V : Valuation τ sig (Elt F)) (r : Ref sig .tc)
    (hr : r ∈ [main_v54, main_v22, main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after A4 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl <;> (unfold A4; after_results_simp)

/-- The join of the two looked-up rows and the edge's own row. -/
def A5 : List (HloOp τ sig (Elt F)) :=
  [ nary ![main_v54, main_v63, main_v22] main_v64 (fun u => concatenate S2000000x51 1 [⟨S2000000x16, u 0⟩, ⟨S2000000x16, u 1⟩, ⟨S2000000x19, u 2⟩] concatenates_S2000000x16_S2000000x16_S2000000x19_S2000000x51_d1) ]

/-- From the three stages it joins to the joined rows' stage. -/
theorem A5_v64 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)}
    (h54 : V (Proc.devRef .tc main_v54) = val_main_v54 (F := F) x0 x2 x4 x5) (h63 : V (Proc.devRef .tc main_v63) = val_main_v63 (F := F) x0 x2 x4 x5)
    (h22 : V (Proc.devRef .tc main_v22) = val_main_v22 (F := F) x1 x6 x7) :
    after A5 V (Proc.devRef .tc main_v64) = val_main_v64 (F := F) x0 x1 x2 x4 x5 x6 x7 := by
  unfold A5
  after_results_simp
  show concatenate S2000000x51 1 [⟨S2000000x16, V (Proc.devRef .tc main_v54)⟩, ⟨S2000000x16, V (Proc.devRef .tc main_v63)⟩, ⟨S2000000x19, V (Proc.devRef .tc main_v22)⟩]
    concatenates_S2000000x16_S2000000x16_S2000000x19_S2000000x51_d1 = _
  rw [h54, h63, h22]
  rfl

set_option maxHeartbeats 4000000 in
/-- This piece writes no argument and none of the stages a later piece reads. -/
theorem A5_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after A5 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold A5; after_results_simp)

/-- The first layer and its rectifier: the operations that end in `main_v73`. -/
def L1 : List (HloOp τ sig (Elt F)) :=
  [ binary main_v64 main_arg8 main_v65 ((fun l r => Host.dotGeneral dot_S2000000x51_S51x64_S2000000x64_1_0_0_1_n_n none l r) : (⟨S2000000x51, .f32⟩ : BufTy).Contents (Elt F) → (⟨S51x64, .f32⟩ : BufTy).Contents (Elt F) → (⟨S2000000x64, .f32⟩ : BufTy).Contents (Elt F)),
    unary main_arg9 main_v66 (broadcastInDim S1x64 ![1] bcast_S64_S1x64_1 : (⟨S64, .f32⟩ : BufTy).Contents (Elt F) → (⟨S1x64, .f32⟩ : BufTy).Contents (Elt F)),
    unary main_v66 main_v67 (broadcastInDim S2000000x64 ![0, 1] bcast_S1x64_S2000000x64_0_1 : (⟨S1x64, .f32⟩ : BufTy).Contents (Elt F) → (⟨S2000000x64, .f32⟩ : BufTy).Contents (Elt F)),
    binary main_v65 main_v67 main_v68 (addf : (⟨S2000000x64, .f32⟩ : BufTy).Contents (Elt F) → (⟨S2000000x64, .f32⟩ : BufTy).Contents (Elt F) → (⟨S2000000x64, .f32⟩ : BufTy).Contents (Elt F)),
    nullary main_cst_12 (constant S_ .f32 0x00000000#32),
    unary main_cst_12 main_v69 (broadcastInDim S2000000x64 ![] bcast_S_S2000000x64 : (⟨S_, .f32⟩ : BufTy).Contents (Elt F) → (⟨S2000000x64, .f32⟩ : BufTy).Contents (Elt F)),
    binary main_v68 main_v69 main_v70 (cmpf .oge : (⟨S2000000x64, .f32⟩ : BufTy).Contents (Elt F) → (⟨S2000000x64, .f32⟩ : BufTy).Contents (Elt F) → (⟨S2000000x64, .i1⟩ : BufTy).Contents (Elt F)),
    nullary main_cst_13 (constant S_ .f32 0x3DCCCCCD#32),
    unary main_cst_13 main_v71 (broadcastInDim S2000000x64 ![] bcast_S_S2000000x64 : (⟨S_, .f32⟩ : BufTy).Contents (Elt F) → (⟨S2000000x64, .f32⟩ : BufTy).Contents (Elt F)),
    binary main_v71 main_v68 main_v72 (mulf : (⟨S2000000x64, .f32⟩ : BufTy).Contents (Elt F) → (⟨S2000000x64, .f32⟩ : BufTy).Contents (Elt F) → (⟨S2000000x64, .f32⟩ : BufTy).Contents (Elt F)),
    TRef.ternary (TRef.of (T := ⟨S2000000x64, .i1⟩) main_v70) (TRef.of (T := ⟨S2000000x64, .f32⟩) main_v68) (TRef.of (T := ⟨S2000000x64, .f32⟩) main_v72) (TRef.of (T := ⟨S2000000x64, .f32⟩) main_v73) select ]

/-- From the stage before it and its weights and offsets to its own stage. -/
theorem L1_v73 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)} {x8 : (⟨S51x64, .f32⟩ : BufTy).Contents (Elt F)} {x9 : (⟨S64, .f32⟩ : BufTy).Contents (Elt F)}
    (hin : V (Proc.devRef .tc main_v64) = val_main_v64 (F := F) x0 x1 x2 x4 x5 x6 x7)
    (hw : V (Proc.devRef .tc main_arg8) = x8) (hb : V (Proc.devRef .tc main_arg9) = x9) :
    after L1 V (Proc.devRef .tc main_v73) = val_main_v73 (F := F) x0 x1 x2 x4 x5 x6 x7 x8 x9 := by
  subst hw hb
  unfold L1
  after_results_simp
  rw [hin]
  rfl

set_option maxHeartbeats 4000000 in
/-- This piece writes no argument and none of the stages a later piece reads. -/
theorem L1_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after L1 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold L1; after_results_simp)

/-- The second layer and its rectifier: the operations that end in `main_v82`. -/
def L2 : List (HloOp τ sig (Elt F)) :=
  [ binary main_v73 main_arg10 main_v74 ((fun l r => Host.dotGeneral dot_S2000000x64_S64x64_S2000000x64_1_0_0_1_n_n none l r) : (⟨S2000000x64, .f32⟩ : BufTy).Contents (Elt F) → (⟨S64x64, .f32⟩ : BufTy).Contents (Elt F) → (⟨S2000000x64, .f32⟩ : BufTy).Contents (Elt F)),
    unary main_arg11 main_v75 (broadcastInDim S1x64 ![1] bcast_S64_S1x64_1 : (⟨S64, .f32⟩ : BufTy).Contents (Elt F) → (⟨S1x64, .f32⟩ : BufTy).Contents (Elt F)),
    unary main_v75 main_v76 (broadcastInDim S2000000x64 ![0, 1] bcast_S1x64_S2000000x64_0_1 : (⟨S1x64, .f32⟩ : BufTy).Contents (Elt F) → (⟨S2000000x64, .f32⟩ : BufTy).Contents (Elt F)),
    binary main_v74 main_v76 main_v77 (addf : (⟨S2000000x64, .f32⟩ : BufTy).Contents (Elt F) → (⟨S2000000x64, .f32⟩ : BufTy).Contents (Elt F) → (⟨S2000000x64, .f32⟩ : BufTy).Contents (Elt F)),
    nullary main_cst_14 (constant S_ .f32 0x00000000#32),
    unary main_cst_14 main_v78 (broadcastInDim S2000000x64 ![] bcast_S_S2000000x64 : (⟨S_, .f32⟩ : BufTy).Contents (Elt F) → (⟨S2000000x64, .f32⟩ : BufTy).Contents (Elt F)),
    binary main_v77 main_v78 main_v79 (cmpf .oge : (⟨S2000000x64, .f32⟩ : BufTy).Contents (Elt F) → (⟨S2000000x64, .f32⟩ : BufTy).Contents (Elt F) → (⟨S2000000x64, .i1⟩ : BufTy).Contents (Elt F)),
    nullary main_cst_15 (constant S_ .f32 0x3DCCCCCD#32),
    unary main_cst_15 main_v80 (broadcastInDim S2000000x64 ![] bcast_S_S2000000x64 : (⟨S_, .f32⟩ : BufTy).Contents (Elt F) → (⟨S2000000x64, .f32⟩ : BufTy).Contents (Elt F)),
    binary main_v80 main_v77 main_v81 (mulf : (⟨S2000000x64, .f32⟩ : BufTy).Contents (Elt F) → (⟨S2000000x64, .f32⟩ : BufTy).Contents (Elt F) → (⟨S2000000x64, .f32⟩ : BufTy).Contents (Elt F)),
    TRef.ternary (TRef.of (T := ⟨S2000000x64, .i1⟩) main_v79) (TRef.of (T := ⟨S2000000x64, .f32⟩) main_v77) (TRef.of (T := ⟨S2000000x64, .f32⟩) main_v81) (TRef.of (T := ⟨S2000000x64, .f32⟩) main_v82) select ]

/-- From the stage before it and its weights and offsets to its own stage. -/
theorem L2_v82 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)} {x8 : (⟨S51x64, .f32⟩ : BufTy).Contents (Elt F)} {x9 : (⟨S64, .f32⟩ : BufTy).Contents (Elt F)} {x10 : (⟨S64x64, .f32⟩ : BufTy).Contents (Elt F)} {x11 : (⟨S64, .f32⟩ : BufTy).Contents (Elt F)}
    (hin : V (Proc.devRef .tc main_v73) = val_main_v73 (F := F) x0 x1 x2 x4 x5 x6 x7 x8 x9)
    (hw : V (Proc.devRef .tc main_arg10) = x10) (hb : V (Proc.devRef .tc main_arg11) = x11) :
    after L2 V (Proc.devRef .tc main_v82) = val_main_v82 (F := F) x0 x1 x2 x4 x5 x6 x7 x8 x9 x10 x11 := by
  subst hw hb
  unfold L2
  after_results_simp
  rw [hin]
  rfl

set_option maxHeartbeats 4000000 in
/-- This piece writes no argument and none of the stages a later piece reads. -/
theorem L2_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after L2 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold L2; after_results_simp)

/-- The third layer and its rectifier: the operations that end in `main_v91`. -/
def L3 : List (HloOp τ sig (Elt F)) :=
  [ binary main_v82 main_arg12 main_v83 ((fun l r => Host.dotGeneral dot_S2000000x64_S64x32_S2000000x32_1_0_0_1_n_n none l r) : (⟨S2000000x64, .f32⟩ : BufTy).Contents (Elt F) → (⟨S64x32, .f32⟩ : BufTy).Contents (Elt F) → (⟨S2000000x32, .f32⟩ : BufTy).Contents (Elt F)),
    unary main_arg13 main_v84 (broadcastInDim S1x32 ![1] bcast_S32_S1x32_1 : (⟨S32, .f32⟩ : BufTy).Contents (Elt F) → (⟨S1x32, .f32⟩ : BufTy).Contents (Elt F)),
    unary main_v84 main_v85 (broadcastInDim S2000000x32 ![0, 1] bcast_S1x32_S2000000x32_0_1 : (⟨S1x32, .f32⟩ : BufTy).Contents (Elt F) → (⟨S2000000x32, .f32⟩ : BufTy).Contents (Elt F)),
    binary main_v83 main_v85 main_v86 (addf : (⟨S2000000x32, .f32⟩ : BufTy).Contents (Elt F) → (⟨S2000000x32, .f32⟩ : BufTy).Contents (Elt F) → (⟨S2000000x32, .f32⟩ : BufTy).Contents (Elt F)),
    nullary main_cst_16 (constant S_ .f32 0x00000000#32),
    unary main_cst_16 main_v87 (broadcastInDim S2000000x32 ![] bcast_S_S2000000x32 : (⟨S_, .f32⟩ : BufTy).Contents (Elt F) → (⟨S2000000x32, .f32⟩ : BufTy).Contents (Elt F)),
    binary main_v86 main_v87 main_v88 (cmpf .oge : (⟨S2000000x32, .f32⟩ : BufTy).Contents (Elt F) → (⟨S2000000x32, .f32⟩ : BufTy).Contents (Elt F) → (⟨S2000000x32, .i1⟩ : BufTy).Contents (Elt F)),
    nullary main_cst_17 (constant S_ .f32 0x3DCCCCCD#32),
    unary main_cst_17 main_v89 (broadcastInDim S2000000x32 ![] bcast_S_S2000000x32 : (⟨S_, .f32⟩ : BufTy).Contents (Elt F) → (⟨S2000000x32, .f32⟩ : BufTy).Contents (Elt F)),
    binary main_v89 main_v86 main_v90 (mulf : (⟨S2000000x32, .f32⟩ : BufTy).Contents (Elt F) → (⟨S2000000x32, .f32⟩ : BufTy).Contents (Elt F) → (⟨S2000000x32, .f32⟩ : BufTy).Contents (Elt F)),
    TRef.ternary (TRef.of (T := ⟨S2000000x32, .i1⟩) main_v88) (TRef.of (T := ⟨S2000000x32, .f32⟩) main_v86) (TRef.of (T := ⟨S2000000x32, .f32⟩) main_v90) (TRef.of (T := ⟨S2000000x32, .f32⟩) main_v91) select ]

/-- From the stage before it and its weights and offsets to its own stage. -/
theorem L3_v91 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)} {x8 : (⟨S51x64, .f32⟩ : BufTy).Contents (Elt F)} {x9 : (⟨S64, .f32⟩ : BufTy).Contents (Elt F)} {x10 : (⟨S64x64, .f32⟩ : BufTy).Contents (Elt F)} {x11 : (⟨S64, .f32⟩ : BufTy).Contents (Elt F)} {x12 : (⟨S64x32, .f32⟩ : BufTy).Contents (Elt F)} {x13 : (⟨S32, .f32⟩ : BufTy).Contents (Elt F)}
    (hin : V (Proc.devRef .tc main_v82) = val_main_v82 (F := F) x0 x1 x2 x4 x5 x6 x7 x8 x9 x10 x11)
    (hw : V (Proc.devRef .tc main_arg12) = x12) (hb : V (Proc.devRef .tc main_arg13) = x13) :
    after L3 V (Proc.devRef .tc main_v91) = val_main_v91 (F := F) x0 x1 x2 x4 x5 x6 x7 x8 x9 x10 x11 x12 x13 := by
  subst hw hb
  unfold L3
  after_results_simp
  rw [hin]
  rfl

set_option maxHeartbeats 4000000 in
/-- This piece writes no argument and none of the stages a later piece reads. -/
theorem L3_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after L3 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold L3; after_results_simp)

/-- The fourth layer and its rectifier: the operations that end in `main_v100`. -/
def L4 : List (HloOp τ sig (Elt F)) :=
  [ binary main_v91 main_arg14 main_v92 ((fun l r => Host.dotGeneral dot_S2000000x32_S32x16_S2000000x16_1_0_0_1_n_n none l r) : (⟨S2000000x32, .f32⟩ : BufTy).Contents (Elt F) → (⟨S32x16, .f32⟩ : BufTy).Contents (Elt F) → (⟨S2000000x16, .f32⟩ : BufTy).Contents (Elt F)),
    unary main_arg15 main_v93 (broadcastInDim S1x16 ![1] bcast_S16_S1x16_1 : (⟨S16, .f32⟩ : BufTy).Contents (Elt F) → (⟨S1x16, .f32⟩ : BufTy).Contents (Elt F)),
    unary main_v93 main_v94 (broadcastInDim S2000000x16 ![0, 1] bcast_S1x16_S2000000x16_0_1 : (⟨S1x16, .f32⟩ : BufTy).Contents (Elt F) → (⟨S2000000x16, .f32⟩ : BufTy).Contents (Elt F)),
    binary main_v92 main_v94 main_v95 (addf : (⟨S2000000x16, .f32⟩ : BufTy).Contents (Elt F) → (⟨S2000000x16, .f32⟩ : BufTy).Contents (Elt F) → (⟨S2000000x16, .f32⟩ : BufTy).Contents (Elt F)),
    nullary main_cst_18 (constant S_ .f32 0x00000000#32),
    unary main_cst_18 main_v96 (broadcastInDim S2000000x16 ![] bcast_S_S2000000x16 : (⟨S_, .f32⟩ : BufTy).Contents (Elt F) → (⟨S2000000x16, .f32⟩ : BufTy).Contents (Elt F)),
    binary main_v95 main_v96 main_v97 (cmpf .oge : (⟨S2000000x16, .f32⟩ : BufTy).Contents (Elt F) → (⟨S2000000x16, .f32⟩ : BufTy).Contents (Elt F) → (⟨S2000000x16, .i1⟩ : BufTy).Contents (Elt F)),
    nullary main_cst_19 (constant S_ .f32 0x3DCCCCCD#32),
    unary main_cst_19 main_v98 (broadcastInDim S2000000x16 ![] bcast_S_S2000000x16 : (⟨S_, .f32⟩ : BufTy).Contents (Elt F) → (⟨S2000000x16, .f32⟩ : BufTy).Contents (Elt F)),
    binary main_v98 main_v95 main_v99 (mulf : (⟨S2000000x16, .f32⟩ : BufTy).Contents (Elt F) → (⟨S2000000x16, .f32⟩ : BufTy).Contents (Elt F) → (⟨S2000000x16, .f32⟩ : BufTy).Contents (Elt F)),
    TRef.ternary (TRef.of (T := ⟨S2000000x16, .i1⟩) main_v97) (TRef.of (T := ⟨S2000000x16, .f32⟩) main_v95) (TRef.of (T := ⟨S2000000x16, .f32⟩) main_v99) (TRef.of (T := ⟨S2000000x16, .f32⟩) main_v100) select ]

/-- From the stage before it and its weights and offsets to its own stage. -/
theorem L4_v100 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)} {x8 : (⟨S51x64, .f32⟩ : BufTy).Contents (Elt F)} {x9 : (⟨S64, .f32⟩ : BufTy).Contents (Elt F)} {x10 : (⟨S64x64, .f32⟩ : BufTy).Contents (Elt F)} {x11 : (⟨S64, .f32⟩ : BufTy).Contents (Elt F)} {x12 : (⟨S64x32, .f32⟩ : BufTy).Contents (Elt F)} {x13 : (⟨S32, .f32⟩ : BufTy).Contents (Elt F)} {x14 : (⟨S32x16, .f32⟩ : BufTy).Contents (Elt F)} {x15 : (⟨S16, .f32⟩ : BufTy).Contents (Elt F)}
    (hin : V (Proc.devRef .tc main_v91) = val_main_v91 (F := F) x0 x1 x2 x4 x5 x6 x7 x8 x9 x10 x11 x12 x13)
    (hw : V (Proc.devRef .tc main_arg14) = x14) (hb : V (Proc.devRef .tc main_arg15) = x15) :
    after L4 V (Proc.devRef .tc main_v100) = val_main_v100 (F := F) x0 x1 x2 x4 x5 x6 x7 x8 x9 x10 x11 x12 x13 x14 x15 := by
  subst hw hb
  unfold L4
  after_results_simp
  rw [hin]
  rfl

set_option maxHeartbeats 4000000 in
/-- This piece writes no argument and none of the stages a later piece reads. -/
theorem L4_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after L4 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold L4; after_results_simp)

/-- The fifth layer and its rectifier: the operations that end in `main_v109`. -/
def L5 : List (HloOp τ sig (Elt F)) :=
  [ binary main_v100 main_arg16 main_v101 ((fun l r => Host.dotGeneral dot_S2000000x16_S16x8_S2000000x8_1_0_0_1_n_n none l r) : (⟨S2000000x16, .f32⟩ : BufTy).Contents (Elt F) → (⟨S16x8, .f32⟩ : BufTy).Contents (Elt F) → (⟨S2000000x8, .f32⟩ : BufTy).Contents (Elt F)),
    unary main_arg17 main_v102 (broadcastInDim S1x8 ![1] bcast_S8_S1x8_1 : (⟨S8, .f32⟩ : BufTy).Contents (Elt F) → (⟨S1x8, .f32⟩ : BufTy).Contents (Elt F)),
    unary main_v102 main_v103 (broadcastInDim S2000000x8 ![0, 1] bcast_S1x8_S2000000x8_0_1 : (⟨S1x8, .f32⟩ : BufTy).Contents (Elt F) → (⟨S2000000x8, .f32⟩ : BufTy).Contents (Elt F)),
    binary main_v101 main_v103 main_v104 (addf : (⟨S2000000x8, .f32⟩ : BufTy).Contents (Elt F) → (⟨S2000000x8, .f32⟩ : BufTy).Contents (Elt F) → (⟨S2000000x8, .f32⟩ : BufTy).Contents (Elt F)),
    nullary main_cst_20 (constant S_ .f32 0x00000000#32),
    unary main_cst_20 main_v105 (broadcastInDim S2000000x8 ![] bcast_S_S2000000x8 : (⟨S_, .f32⟩ : BufTy).Contents (Elt F) → (⟨S2000000x8, .f32⟩ : BufTy).Contents (Elt F)),
    binary main_v104 main_v105 main_v106 (cmpf .oge : (⟨S2000000x8, .f32⟩ : BufTy).Contents (Elt F) → (⟨S2000000x8, .f32⟩ : BufTy).Contents (Elt F) → (⟨S2000000x8, .i1⟩ : BufTy).Contents (Elt F)),
    nullary main_cst_21 (constant S_ .f32 0x3DCCCCCD#32),
    unary main_cst_21 main_v107 (broadcastInDim S2000000x8 ![] bcast_S_S2000000x8 : (⟨S_, .f32⟩ : BufTy).Contents (Elt F) → (⟨S2000000x8, .f32⟩ : BufTy).Contents (Elt F)),
    binary main_v107 main_v104 main_v108 (mulf : (⟨S2000000x8, .f32⟩ : BufTy).Contents (Elt F) → (⟨S2000000x8, .f32⟩ : BufTy).Contents (Elt F) → (⟨S2000000x8, .f32⟩ : BufTy).Contents (Elt F)),
    TRef.ternary (TRef.of (T := ⟨S2000000x8, .i1⟩) main_v106) (TRef.of (T := ⟨S2000000x8, .f32⟩) main_v104) (TRef.of (T := ⟨S2000000x8, .f32⟩) main_v108) (TRef.of (T := ⟨S2000000x8, .f32⟩) main_v109) select ]

/-- From the stage before it and its weights and offsets to its own stage. -/
theorem L5_v109 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)} {x8 : (⟨S51x64, .f32⟩ : BufTy).Contents (Elt F)} {x9 : (⟨S64, .f32⟩ : BufTy).Contents (Elt F)} {x10 : (⟨S64x64, .f32⟩ : BufTy).Contents (Elt F)} {x11 : (⟨S64, .f32⟩ : BufTy).Contents (Elt F)} {x12 : (⟨S64x32, .f32⟩ : BufTy).Contents (Elt F)} {x13 : (⟨S32, .f32⟩ : BufTy).Contents (Elt F)} {x14 : (⟨S32x16, .f32⟩ : BufTy).Contents (Elt F)} {x15 : (⟨S16, .f32⟩ : BufTy).Contents (Elt F)} {x16 : (⟨S16x8, .f32⟩ : BufTy).Contents (Elt F)} {x17 : (⟨S8, .f32⟩ : BufTy).Contents (Elt F)}
    (hin : V (Proc.devRef .tc main_v100) = val_main_v100 (F := F) x0 x1 x2 x4 x5 x6 x7 x8 x9 x10 x11 x12 x13 x14 x15)
    (hw : V (Proc.devRef .tc main_arg16) = x16) (hb : V (Proc.devRef .tc main_arg17) = x17) :
    after L5 V (Proc.devRef .tc main_v109) = val_main_v109 (F := F) x0 x1 x2 x4 x5 x6 x7 x8 x9 x10 x11 x12 x13 x14 x15 x16 x17 := by
  subst hw hb
  unfold L5
  after_results_simp
  rw [hin]
  rfl

set_option maxHeartbeats 4000000 in
/-- This piece writes no argument and none of the stages a later piece reads. -/
theorem L5_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after L5 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold L5; after_results_simp)

/-- The sixth layer: the operations that end in `main_v113`. -/
def L6 : List (HloOp τ sig (Elt F)) :=
  [ binary main_v109 main_arg18 main_v110 ((fun l r => Host.dotGeneral dot_S2000000x8_S8x2_S2000000x2_1_0_0_1_n_n none l r) : (⟨S2000000x8, .f32⟩ : BufTy).Contents (Elt F) → (⟨S8x2, .f32⟩ : BufTy).Contents (Elt F) → (⟨S2000000x2, .f32⟩ : BufTy).Contents (Elt F)),
    unary main_arg19 main_v111 (broadcastInDim S1x2 ![1] bcast_S2_S1x2_1 : (⟨S2, .f32⟩ : BufTy).Contents (Elt F) → (⟨S1x2, .f32⟩ : BufTy).Contents (Elt F)),
    unary main_v111 main_v112 (broadcastInDim S2000000x2 ![0, 1] bcast_S1x2_S2000000x2_0_1 : (⟨S1x2, .f32⟩ : BufTy).Contents (Elt F) → (⟨S2000000x2, .f32⟩ : BufTy).Contents (Elt F)),
    binary main_v110 main_v112 main_v113 (addf : (⟨S2000000x2, .f32⟩ : BufTy).Contents (Elt F) → (⟨S2000000x2, .f32⟩ : BufTy).Contents (Elt F) → (⟨S2000000x2, .f32⟩ : BufTy).Contents (Elt F)) ]

/-- From the stage before it and its weights and offsets to its own stage. -/
theorem L6_v113 (V : Valuation τ sig (Elt F)) {x0 : (⟨S100000x16, .f32⟩ : BufTy).Contents (Elt F)} {x1 : (⟨S2000000x19, .f32⟩ : BufTy).Contents (Elt F)} {x2 : (⟨S2x2000000, .i32⟩ : BufTy).Contents (Elt F)} {x4 : (⟨S16, .f32⟩ : BufTy).Contents (Elt F)} {x5 : (⟨S16, .f32⟩ : BufTy).Contents (Elt F)} {x6 : (⟨S19, .f32⟩ : BufTy).Contents (Elt F)} {x7 : (⟨S19, .f32⟩ : BufTy).Contents (Elt F)} {x8 : (⟨S51x64, .f32⟩ : BufTy).Contents (Elt F)} {x9 : (⟨S64, .f32⟩ : BufTy).Contents (Elt F)} {x10 : (⟨S64x64, .f32⟩ : BufTy).Contents (Elt F)} {x11 : (⟨S64, .f32⟩ : BufTy).Contents (Elt F)} {x12 : (⟨S64x32, .f32⟩ : BufTy).Contents (Elt F)} {x13 : (⟨S32, .f32⟩ : BufTy).Contents (Elt F)} {x14 : (⟨S32x16, .f32⟩ : BufTy).Contents (Elt F)} {x15 : (⟨S16, .f32⟩ : BufTy).Contents (Elt F)} {x16 : (⟨S16x8, .f32⟩ : BufTy).Contents (Elt F)} {x17 : (⟨S8, .f32⟩ : BufTy).Contents (Elt F)} {x18 : (⟨S8x2, .f32⟩ : BufTy).Contents (Elt F)} {x19 : (⟨S2, .f32⟩ : BufTy).Contents (Elt F)}
    (hin : V (Proc.devRef .tc main_v109) = val_main_v109 (F := F) x0 x1 x2 x4 x5 x6 x7 x8 x9 x10 x11 x12 x13 x14 x15 x16 x17)
    (hw : V (Proc.devRef .tc main_arg18) = x18) (hb : V (Proc.devRef .tc main_arg19) = x19) :
    after L6 V (Proc.devRef .tc main_v113) = val_main_v113 (F := F) x0 x1 x2 x4 x5 x6 x7 x8 x9 x10 x11 x12 x13 x14 x15 x16 x17 x18 x19 := by
  subst hw hb
  unfold L6
  after_results_simp
  rw [hin]
  rfl

set_option maxHeartbeats 4000000 in
/-- This piece writes no argument and none of the stages a later piece reads. -/
theorem L6_keep (V : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after L6 V (no_index (Proc.devRef .tc r)) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (unfold L6; after_results_simp)

/-! ## The line is its pieces, and its last stage -/

/-- The 138 operations are the eleven pieces in order. -/
theorem ops_split : (ops : List (HloOp τ sig (Elt F)))
    = A1 ++ (A2 ++ (A3 ++ (A4 ++ (A5 ++ (L1 ++ (L2 ++ (L3 ++ (L4 ++ (L5 ++ L6))))))))) := rfl

/-- Reads a buffer through every piece that does not write it. -/
macro "keep_simp" : tactic =>
  `(tactic| simp (disch := decide) only [A1_keep, A2_keep, A3_keep, A4_keep, A5_keep, L1_keep, L2_keep, L3_keep, L4_keep, L5_keep, L6_keep])

/-- After the whole line the last buffer holds the last stage of the arguments. -/
theorem after_ops_v113 (W : Valuation τ sig (Elt F)) :
    after ops W (Proc.devRef .tc main_v113)
      = val_main_v113 (F := F) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  rw [ops_split]
  simp only [after_append]
  have h22 := A1_v22 W rfl rfl rfl
  have h45 := A2_v45 (after A1 W) (x0 := (W (Proc.devRef .tc main_arg0))) (x4 := (W (Proc.devRef .tc main_arg4))) (x5 := (W (Proc.devRef .tc main_arg5))) (by keep_simp) (by keep_simp) (by keep_simp)
  have h54 := A3_v54 (after A2 (after A1 W)) h45 (x2 := (W (Proc.devRef .tc main_arg2))) (by keep_simp)
  have h45' := (A3_keep (after A2 (after A1 W)) main_v45 (by decide)).trans h45
  have h63 := A4_v63 (after A3 (after A2 (after A1 W))) h45' (x2 := (W (Proc.devRef .tc main_arg2))) (by keep_simp)
  have h54' := (A4_keep (after A3 (after A2 (after A1 W))) main_v54 (by decide)).trans h54
  have h22' := (A4_keep (after A3 (after A2 (after A1 W))) main_v22 (by decide)).trans ((A3_keep (after A2 (after A1 W)) main_v22 (by decide)).trans ((A2_keep (after A1 W) main_v22 (by decide)).trans h22))
  have h64 := A5_v64 (after A4 (after A3 (after A2 (after A1 W)))) h54' h63 h22'
  have h73 := L1_v73 (after A5 (after A4 (after A3 (after A2 (after A1 W))))) h64 (x8 := (W (Proc.devRef .tc main_arg8))) (x9 := (W (Proc.devRef .tc main_arg9))) (by keep_simp) (by keep_simp)
  have h82 := L2_v82 (after L1 (after A5 (after A4 (after A3 (after A2 (after A1 W)))))) h73 (x10 := (W (Proc.devRef .tc main_arg10))) (x11 := (W (Proc.devRef .tc main_arg11))) (by keep_simp) (by keep_simp)
  have h91 := L3_v91 (after L2 (after L1 (after A5 (after A4 (after A3 (after A2 (after A1 W))))))) h82 (x12 := (W (Proc.devRef .tc main_arg12))) (x13 := (W (Proc.devRef .tc main_arg13))) (by keep_simp) (by keep_simp)
  have h100 := L4_v100 (after L3 (after L2 (after L1 (after A5 (after A4 (after A3 (after A2 (after A1 W)))))))) h91 (x14 := (W (Proc.devRef .tc main_arg14))) (x15 := (W (Proc.devRef .tc main_arg15))) (by keep_simp) (by keep_simp)
  have h109 := L5_v109 (after L4 (after L3 (after L2 (after L1 (after A5 (after A4 (after A3 (after A2 (after A1 W))))))))) h100 (x16 := (W (Proc.devRef .tc main_arg16))) (x17 := (W (Proc.devRef .tc main_arg17))) (by keep_simp) (by keep_simp)
  exact L6_v113 (after L5 (after L4 (after L3 (after L2 (after L1 (after A5 (after A4 (after A3 (after A2 (after A1 W)))))))))) h109 (x18 := (W (Proc.devRef .tc main_arg18))) (x19 := (W (Proc.devRef .tc main_arg19))) (by keep_simp) (by keep_simp)

set_option maxHeartbeats 4000000 in
/-- After the whole line every argument holds what it held. -/
theorem after_ops_arg (W : Valuation τ sig (Elt F)) (r : Ref sig .tc)
    (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19]) :
    after ops W (Proc.devRef .tc r) = W (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl <;> (rw [ops_split]; simp only [after_append]; keep_simp)

/-! ## The run -/

set_option maxRecDepth 8192 in
set_option maxHeartbeats 55200000 in
/-- On every device, from any memory with zero counters: every weakly fair execution of the reference terminates with its
    result buffer at the last stage of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v113) = Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v113).trans (after_ops_v113 (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide)),
      (h c main_arg8).trans (after_ops_arg (launchContents m c) main_arg8 (by decide)),
      (h c main_arg9).trans (after_ops_arg (launchContents m c) main_arg9 (by decide)),
      (h c main_arg10).trans (after_ops_arg (launchContents m c) main_arg10 (by decide)),
      (h c main_arg11).trans (after_ops_arg (launchContents m c) main_arg11 (by decide)),
      (h c main_arg12).trans (after_ops_arg (launchContents m c) main_arg12 (by decide)),
      (h c main_arg13).trans (after_ops_arg (launchContents m c) main_arg13 (by decide)),
      (h c main_arg14).trans (after_ops_arg (launchContents m c) main_arg14 (by decide)),
      (h c main_arg15).trans (after_ops_arg (launchContents m c) main_arg15 (by decide)),
      (h c main_arg16).trans (after_ops_arg (launchContents m c) main_arg16 (by decide)),
      (h c main_arg17).trans (after_ops_arg (launchContents m c) main_arg17 (by decide)),
      (h c main_arg18).trans (after_ops_arg (launchContents m c) main_arg18 (by decide)),
      (h c main_arg19).trans (after_ops_arg (launchContents m c) main_arg19 (by decide))⟩)
    (run_seq scopedRefs_eq scopedSems_eq defs main (fun _ => ops) main_eq (fun _ => ops_sub) m ρ)

end Cert.Gnn.RefRun

end
-- ==== Proof.RefValue.lean ====
import proofs.«409262_j23338852286984_2_alg».proof.Proof.ReadP
import proofs.«409262_j23338852286984_2_alg».proof.Proof.Spec
import proofs.«409262_j23338852286984_2_alg».proof.Proof.LibRowGather
import Idealize.ShloMosaic.Lib.Pipeline.Value
import Idealize.ShloMosaic.Lib.ValueIdx
import Idealize.ShloMosaic.PureOps.Ideal.Laws

/-
  The reference's value, entry by entry, is the specification's network on the specification's row.

  The reference normalises the two feature tables column by column (a column's mean, the mean of its squared
  deviations, the gain over the root of the stabilised variance, the offset), looks the normalised node table up at
  each edge's two node numbers (a negative number counts from the end; the lookup clamps into the table), joins the
  two looked-up rows and the edge's own normalised row into a row of 51, and applies six affine layers with a leaky
  rectifier between them. Each stage is read at one entry and identified with the specification's name for it.
-/

noncomputable section

namespace Cert.Gnn.RefValue

open Cert.ReferenceIdeal Cert.ReferenceIdeal.Gen Cert.ReferenceIdeal.ReadP Idealize.ShloMosaic Idealize.ShloMosaic.ValueIdx

/-! ## Two shape operations read at an entry -/

/-- A row lookup read at an entry: the table's row at the looked-up number `w`, read signed and clamped into the
    table. -/
theorem gather_read {α : Type} (t : S100000x16.Idx → α) (idx : IVec S2000000x1 32) (r : Fin 2000000) (q : Fin 16)
    (w : BitVec 32) (hw : idx (ix2 r (0 : Fin 1)) = w) :
    Host.gather gather_S100000x16_S2000000x1_S2000000x16_1_0_n_n_0_1_116 t idx (ix2 r q)
      = t (ix2 (⟨min w.toInt.toNat 99999, by omega⟩ : Fin 100000) q) := by
  subst hw
  exact RowGather.gather_rows_apply (N := 100000) (C := 16) (n := 2000000) (by decide)
    gather_S100000x16_S2000000x1_S2000000x16_1_0_n_n_0_1_116_wf t idx r q

/-- The join of three tables along the columns, read at an entry: the first table on columns below 16, the second on
    columns 16 to 31, the third from column 32 on. -/
theorem concat_read (a b : S2000000x16.Idx → EReal) (c : S2000000x19.Idx → EReal) (r : Fin 2000000) (j : Fin 51) :
    concatenate S2000000x51 1 [⟨S2000000x16, a⟩, ⟨S2000000x16, b⟩, ⟨S2000000x19, c⟩]
        concatenates_S2000000x16_S2000000x16_S2000000x19_S2000000x51_d1 (ix2 r j)
      = cat3 (fun q => a (ix2 r q)) (fun q => b (ix2 r q)) (fun q => c (ix2 r q)) j := by
  unfold cat3
  by_cases h : j.val < 16
  · rw [dif_pos h]
    refine concatenate_apply_piece _ [⟨S2000000x16, a⟩, ⟨S2000000x16, b⟩, ⟨S2000000x19, c⟩] _ (ix2 r j) 0
      (show 0 < 3 by omega) S2000000x16 a rfl rfl 0 rfl (ix2 r ⟨j.val, h⟩) ?_ ?_
    · intro b hb
      match b with
      | ⟨0, _⟩ => rfl
      | ⟨1, _⟩ => exact absurd rfl hb
    · show 0 + j.val = j.val
      omega
  · rw [dif_neg h]
    by_cases h2 : j.val < 32
    · rw [dif_pos h2]
      refine concatenate_apply_piece _ [⟨S2000000x16, a⟩, ⟨S2000000x16, b⟩, ⟨S2000000x19, c⟩] _ (ix2 r j) 1
        (show 1 < 3 by omega) S2000000x16 b rfl rfl 16 rfl (ix2 r ⟨j.val - 16, by omega⟩) ?_ ?_
      · intro b hb
        match b with
        | ⟨0, _⟩ => rfl
        | ⟨1, _⟩ => exact absurd rfl hb
      · show 16 + (j.val - 16) = j.val
        omega
    · rw [dif_neg h2]
      refine concatenate_apply_piece _ [⟨S2000000x16, a⟩, ⟨S2000000x16, b⟩, ⟨S2000000x19, c⟩] _ (ix2 r j) 2
        (show 2 < 3 by omega) S2000000x19 c rfl rfl 32 rfl (ix2 r ⟨j.val - 32, by have := j.isLt; omega⟩) ?_ ?_
      · intro b hb
        match b with
        | ⟨0, _⟩ => rfl
        | ⟨1, _⟩ => exact absurd rfl hb
      · show 32 + (j.val - 32) = j.val
        omega

/-! ## The argument arrays -/

variable (x0 : (⟨S100000x16, .f32⟩ : BufTy).Contents (Elt Ideal)) (x1 : (⟨S2000000x19, .f32⟩ : BufTy).Contents (Elt Ideal))
  (x2 : (⟨S2x2000000, .i32⟩ : BufTy).Contents (Elt Ideal))
  (x4 x5 : (⟨S16, .f32⟩ : BufTy).Contents (Elt Ideal)) (x6 x7 : (⟨S19, .f32⟩ : BufTy).Contents (Elt Ideal))
  (x8 : (⟨S51x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))
  (x12 : (⟨S64x32, .f32⟩ : BufTy).Contents (Elt Ideal)) (x13 : (⟨S32, .f32⟩ : BufTy).Contents (Elt Ideal))
  (x14 : (⟨S32x16, .f32⟩ : BufTy).Contents (Elt Ideal)) (x15 : (⟨S16, .f32⟩ : BufTy).Contents (Elt Ideal))
  (x16 : (⟨S16x8, .f32⟩ : BufTy).Contents (Elt Ideal)) (x17 : (⟨S8, .f32⟩ : BufTy).Contents (Elt Ideal))
  (x18 : (⟨S8x2, .f32⟩ : BufTy).Contents (Elt Ideal)) (x19 : (⟨S2, .f32⟩ : BufTy).Contents (Elt Ideal))

/-! ## Where each layout operation reads: the composed index functions on indices given by coordinates -/

/-- Two indices of a rank-2 shape (or two of a rank-1 shape) with the same coordinates are equal. -/
local macro "coords2" : tactic =>
  `(tactic| exact funext fun a => Fin.ext (by match a with | ⟨0, _⟩ => rfl | ⟨1, _⟩ => rfl))
local macro "coords1" : tactic =>
  `(tactic| exact funext fun a => Fin.ext (by match a with | ⟨0, _⟩ => rfl))

-- the edge table's statistics: a column sum runs over the rows; a per-column value is spread along the rows
theorem i0 (q : Fin 19) (k : Fin 2000000) : idx_main_v0 (ix1 q) k = ix2 k q := by coords2
theorem i3 (q : Fin 19) : idx_main_v3 (ix2 (0 : Fin 1) q) = ix1 q := by coords1
theorem i4 (k : Fin 2000000) (q : Fin 19) : idx_main_v4 (ix2 k q) = ix2 (0 : Fin 1) q := by coords2
theorem i7 (q : Fin 19) (k : Fin 2000000) : idx_main_v7 (ix1 q) k = ix2 k q := by coords2
theorem i10 (q : Fin 19) : idx_main_v10 (ix2 (0 : Fin 1) q) = ix1 q := by coords1
theorem i11 (k : Fin 2000000) (q : Fin 19) : idx_main_v11 (ix2 k q) = ix2 (0 : Fin 1) q := by coords2
theorem i17 (q : Fin 19) : idx_main_v17 (ix2 (0 : Fin 1) q) = ix1 q := by coords1
theorem i18 (k : Fin 2000000) (q : Fin 19) : idx_main_v18 (ix2 k q) = ix2 (0 : Fin 1) q := by coords2
theorem i20 (q : Fin 19) : idx_main_v20 (ix2 (0 : Fin 1) q) = ix1 q := by coords1
theorem i21 (k : Fin 2000000) (q : Fin 19) : idx_main_v21 (ix2 k q) = ix2 (0 : Fin 1) q := by coords2
-- the node table's statistics
theorem i23 (q : Fin 16) (k : Fin 100000) : idx_main_v23 (ix1 q) k = ix2 k q := by coords2
theorem i26 (q : Fin 16) : idx_main_v26 (ix2 (0 : Fin 1) q) = ix1 q := by coords1
theorem i27 (k : Fin 100000) (q : Fin 16) : idx_main_v27 (ix2 k q) = ix2 (0 : Fin 1) q := by coords2
theorem i30 (q : Fin 16) (k : Fin 100000) : idx_main_v30 (ix1 q) k = ix2 k q := by coords2
theorem i33 (q : Fin 16) : idx_main_v33 (ix2 (0 : Fin 1) q) = ix1 q := by coords1
theorem i34 (k : Fin 100000) (q : Fin 16) : idx_main_v34 (ix2 k q) = ix2 (0 : Fin 1) q := by coords2
theorem i40 (q : Fin 16) : idx_main_v40 (ix2 (0 : Fin 1) q) = ix1 q := by coords1
theorem i41 (k : Fin 100000) (q : Fin 16) : idx_main_v41 (ix2 k q) = ix2 (0 : Fin 1) q := by coords2
theorem i43 (q : Fin 16) : idx_main_v43 (ix2 (0 : Fin 1) q) = ix1 q := by coords1
theorem i44 (k : Fin 100000) (q : Fin 16) : idx_main_v44 (ix2 k q) = ix2 (0 : Fin 1) q := by coords2

/-! ## The two normalised tables -/

/-- The edge table's column mean. -/
theorem edge_mean (q : Fin 19) : val_main_v2 (F := Ideal) x1 (ix1 q) = colMean nEdges x1 q := by
  simp only [val_main_v2_apply, val_main_v0_apply, val_main_v1_apply, val_main_cst_apply, val_main_cst_0_apply, i0,
    Ideal.hostDivf_def, Ideal.ofBits_def, Ideal.ofBits_zero_f32, zero_add]
  rfl

/-- The edge table's column variance: the mean of the squared deviations from the column mean. -/
theorem edge_var (q : Fin 19) : val_main_v9 (F := Ideal) x1 (ix1 q) = varDev nEdges x1 q := by
  simp only [val_main_v9_apply, val_main_v7_apply, val_main_v8_apply, val_main_cst_1_apply, val_main_cst_2_apply,
    val_main_v6_apply, val_main_v5_apply, val_main_v4_apply, val_main_v3_apply, i7, i4, i3, edge_mean,
    Ideal.hostDivf_def, Ideal.mulf_def, Ideal.subf_def, Ideal.ofBits_def, Ideal.ofBits_zero_f32, zero_add]
  rfl

/-- The edge table's column multiplier: the gain over the root of the stabilised variance. -/
theorem edge_scale (q : Fin 19) :
    val_main_v16 (F := Ideal) x1 x6 (ix1 q) = scaleOf (x6 (ix1 q)) (varDev nEdges x1 q) := by
  simp only [val_main_v16_apply, val_main_v15_apply, val_main_v14_apply, val_main_v13_apply, val_main_cst_3_apply,
    edge_var, Ideal.hostDivf_def, Ideal.hostUnary_sqrt_def, Ideal.addf_def, Ideal.ofBits_def]
  rfl

/-- The normalised edge table at an entry, in centred form. -/
theorem edge_norm (r : Fin 2000000) (q : Fin 19) :
    val_main_v22 (F := Ideal) x1 x6 x7 (ix2 r q)
      = bnCentred (x1 (ix2 r q)) (colMean nEdges x1 q) (scaleOf (x6 (ix1 q)) (varDev nEdges x1 q)) (x7 (ix1 q)) := by
  simp only [val_main_v22_apply, val_main_v19_apply, val_main_v12_apply, val_main_v11_apply, val_main_v10_apply,
    val_main_v18_apply, val_main_v17_apply, val_main_v21_apply, val_main_v20_apply, i11, i10, i18, i17, i21, i20,
    edge_mean, edge_scale, Ideal.addf_def, Ideal.mulf_def, Ideal.subf_def]
  rfl

/-- The node table's column mean. -/
theorem node_mean (q : Fin 16) : val_main_v25 (F := Ideal) x0 (ix1 q) = colMean nNodes x0 q := by
  simp only [val_main_v25_apply, val_main_v23_apply, val_main_v24_apply, val_main_cst_4_apply, val_main_cst_5_apply, i23,
    Ideal.hostDivf_def, Ideal.ofBits_def, Ideal.ofBits_zero_f32, zero_add]
  rfl

/-- The node table's column variance. -/
theorem node_var (q : Fin 16) : val_main_v32 (F := Ideal) x0 (ix1 q) = varDev nNodes x0 q := by
  simp only [val_main_v32_apply, val_main_v30_apply, val_main_v31_apply, val_main_cst_6_apply, val_main_cst_7_apply,
    val_main_v29_apply, val_main_v28_apply, val_main_v27_apply, val_main_v26_apply, i30, i27, i26, node_mean,
    Ideal.hostDivf_def, Ideal.mulf_def, Ideal.subf_def, Ideal.ofBits_def, Ideal.ofBits_zero_f32, zero_add]
  rfl

/-- The node table's column multiplier. -/
theorem node_scale (q : Fin 16) :
    val_main_v39 (F := Ideal) x0 x4 (ix1 q) = scaleOf (x4 (ix1 q)) (varDev nNodes x0 q) := by
  simp only [val_main_v39_apply, val_main_v38_apply, val_main_v37_apply, val_main_v36_apply, val_main_cst_8_apply,
    node_var, Ideal.hostDivf_def, Ideal.hostUnary_sqrt_def, Ideal.addf_def, Ideal.ofBits_def]
  rfl

/-- The normalised node table at an entry, in centred form. -/
theorem node_norm (n : Fin 100000) (q : Fin 16) :
    val_main_v45 (F := Ideal) x0 x4 x5 (ix2 n q)
      = bnCentred (x0 (ix2 n q)) (colMean nNodes x0 q) (scaleOf (x4 (ix1 q)) (varDev nNodes x0 q)) (x5 (ix1 q)) := by
  simp only [val_main_v45_apply, val_main_v42_apply, val_main_v35_apply, val_main_v34_apply, val_main_v33_apply,
    val_main_v41_apply, val_main_v40_apply, val_main_v44_apply, val_main_v43_apply, i34, i33, i41, i40, i44, i43,
    node_mean, node_scale, Ideal.addf_def, Ideal.mulf_def, Ideal.subf_def]
  rfl

/-! ## The node lookups -/

-- an edge's node number: row 0 or 1 of the node-number table at the edge's column (a reshape's flat offset below the
-- row length is the offset itself)
theorem i46 (r : Fin 2000000) : idx_main_v46 (idx_main_v47 (ix1 r)) = ix2 (0 : Fin 2) r :=
  funext fun a => Fin.ext (by match a with | ⟨0, _⟩ => rfl | ⟨1, _⟩ => exact Nat.mod_eq_of_lt r.isLt)
theorem i53 (r : Fin 2000000) : idx_main_v53 (ix2 r (0 : Fin 1)) = ix1 r := by coords1
theorem i55 (r : Fin 2000000) : idx_main_v55 (idx_main_v56 (ix1 r)) = ix2 (1 : Fin 2) r :=
  funext fun a => Fin.ext (by match a with | ⟨0, _⟩ => rfl | ⟨1, _⟩ => exact Nat.mod_eq_of_lt r.isLt)
theorem i62 (r : Fin 2000000) : idx_main_v62 (ix2 r (0 : Fin 1)) = ix1 r := by coords1

/-- The first lookup's row number: the edge's first node number, a negative one counted from the end. -/
theorem src_index (r : Fin 2000000) :
    val_main_v53 (F := Ideal) x2 (ix2 r (0 : Fin 1)) = wrapIdx (x2 (ix2 (0 : Fin 2) r)) := by
  simp only [val_main_v53_apply, val_main_v52_apply, val_main_v49_apply, val_main_v51_apply, val_main_v48_apply,
    val_main_v50_apply, val_main_c_apply, val_main_c_9_apply, val_main_v47_apply, val_main_v46_apply, i53, i46]
  rfl

/-- The second lookup's row number. -/
theorem dst_index (r : Fin 2000000) :
    val_main_v62 (F := Ideal) x2 (ix2 r (0 : Fin 1)) = wrapIdx (x2 (ix2 (1 : Fin 2) r)) := by
  simp only [val_main_v62_apply, val_main_v61_apply, val_main_v58_apply, val_main_v60_apply, val_main_v57_apply,
    val_main_v59_apply, val_main_c_10_apply, val_main_c_11_apply, val_main_v56_apply, val_main_v55_apply, i62, i55]
  rfl

/-- The first looked-up row: the normalised node table's row at the edge's first node. -/
theorem src_read (r : Fin 2000000) (q : Fin 16) :
    val_main_v54 (F := Ideal) x0 x2 x4 x5 (ix2 r q)
      = val_main_v45 (F := Ideal) x0 x4 x5 (ix2 (rowOf (x2 (ix2 (0 : Fin 2) r))) q) :=
  gather_read _ _ r q _ (src_index x2 r)

/-- The second looked-up row. -/
theorem dst_read (r : Fin 2000000) (q : Fin 16) :
    val_main_v63 (F := Ideal) x0 x2 x4 x5 (ix2 r q)
      = val_main_v45 (F := Ideal) x0 x4 x5 (ix2 (rowOf (x2 (ix2 (1 : Fin 2) r))) q) :=
  gather_read _ _ r q _ (dst_index x2 r)

/-! ## The joined row -/

/-- An edge's row of 51: its two end nodes' normalised rows and its own. -/
theorem row_read (r : Fin 2000000) (j : Fin 51) :
    val_main_v64 (F := Ideal) x0 x1 x2 x4 x5 x6 x7 (ix2 r j) = rowRef x0 x1 x2 x4 x5 x6 x7 r j := by
  refine (concat_read _ _ _ r j).trans ?_
  simp only [src_read, dst_read, node_norm, edge_norm]
  rfl

/-! ## The six layers -/

-- a layer's product reads the previous row along its columns and the weights along their rows; its offset is spread
-- along the rows
theorem l65 (r : Fin 2000000) (j : Fin 64) (k : Fin 51) : lidx_main_v65 (ix2 r j) k = ix2 r k := by coords2
theorem r65 (r : Fin 2000000) (j : Fin 64) (k : Fin 51) : ridx_main_v65 (ix2 r j) k = ix2 k j := by coords2
theorem i66 (j : Fin 64) : idx_main_v66 (ix2 (0 : Fin 1) j) = ix1 j := by coords1
theorem i67 (r : Fin 2000000) (j : Fin 64) : idx_main_v67 (ix2 r j) = ix2 (0 : Fin 1) j := by coords2
theorem l74 (r : Fin 2000000) (j : Fin 64) (k : Fin 64) : lidx_main_v74 (ix2 r j) k = ix2 r k := by coords2
theorem r74 (r : Fin 2000000) (j : Fin 64) (k : Fin 64) : ridx_main_v74 (ix2 r j) k = ix2 k j := by coords2
theorem i75 (j : Fin 64) : idx_main_v75 (ix2 (0 : Fin 1) j) = ix1 j := by coords1
theorem i76 (r : Fin 2000000) (j : Fin 64) : idx_main_v76 (ix2 r j) = ix2 (0 : Fin 1) j := by coords2
theorem l83 (r : Fin 2000000) (j : Fin 32) (k : Fin 64) : lidx_main_v83 (ix2 r j) k = ix2 r k := by coords2
theorem r83 (r : Fin 2000000) (j : Fin 32) (k : Fin 64) : ridx_main_v83 (ix2 r j) k = ix2 k j := by coords2
theorem i84 (j : Fin 32) : idx_main_v84 (ix2 (0 : Fin 1) j) = ix1 j := by coords1
theorem i85 (r : Fin 2000000) (j : Fin 32) : idx_main_v85 (ix2 r j) = ix2 (0 : Fin 1) j := by coords2
theorem l92 (r : Fin 2000000) (j : Fin 16) (k : Fin 32) : lidx_main_v92 (ix2 r j) k = ix2 r k := by coords2
theorem r92 (r : Fin 2000000) (j : Fin 16) (k : Fin 32) : ridx_main_v92 (ix2 r j) k = ix2 k j := by coords2
theorem i93 (j : Fin 16) : idx_main_v93 (ix2 (0 : Fin 1) j) = ix1 j := by coords1
theorem i94 (r : Fin 2000000) (j : Fin 16) : idx_main_v94 (ix2 r j) = ix2 (0 : Fin 1) j := by coords2
theorem l101 (r : Fin 2000000) (j : Fin 8) (k : Fin 16) : lidx_main_v101 (ix2 r j) k = ix2 r k := by coords2
theorem r101 (r : Fin 2000000) (j : Fin 8) (k : Fin 16) : ridx_main_v101 (ix2 r j) k = ix2 k j := by coords2
theorem i102 (j : Fin 8) : idx_main_v102 (ix2 (0 : Fin 1) j) = ix1 j := by coords1
theorem i103 (r : Fin 2000000) (j : Fin 8) : idx_main_v103 (ix2 r j) = ix2 (0 : Fin 1) j := by coords2
theorem l110 (r : Fin 2000000) (j : Fin 2) (k : Fin 8) : lidx_main_v110 (ix2 r j) k = ix2 r k := by coords2
theorem r110 (r : Fin 2000000) (j : Fin 2) (k : Fin 8) : ridx_main_v110 (ix2 r j) k = ix2 k j := by coords2
theorem i111 (j : Fin 2) : idx_main_v111 (ix2 (0 : Fin 1) j) = ix1 j := by coords1
theorem i112 (r : Fin 2000000) (j : Fin 2) : idx_main_v112 (ix2 r j) = ix2 (0 : Fin 1) j := by coords2

/-- Layer 1 before its rectifier. -/
theorem pre1 (r : Fin 2000000) (j : Fin 64) :
    val_main_v68 (F := Ideal) x0 x1 x2 x4 x5 x6 x7 x8 x9 (ix2 r j)
      = lin x8 (fun j => x9 (ix1 j)) (rowRef x0 x1 x2 x4 x5 x6 x7 r) j := by
  simp only [val_main_v68_apply, val_main_v65_apply, val_main_v67_apply, val_main_v66_apply, l65, r65, i67, i66,
    row_read x0 x1 x2 x4 x5 x6 x7, Ideal.addf_def]
  rfl

/-- Layer 1: the leaky rectifier is the comparison with zero choosing between the value and its multiple. -/
theorem out1 (r : Fin 2000000) (j : Fin 64) :
    val_main_v73 (F := Ideal) x0 x1 x2 x4 x5 x6 x7 x8 x9 (ix2 r j) = act1 (paramsOf x8 x9 x10 x11 x12 x13 x14 x15 x16 x17 x18 x19) (rowRef x0 x1 x2 x4 x5 x6 x7 r) j := by
  simp only [val_main_v73_apply, val_main_v70_apply, val_main_v72_apply, val_main_v69_apply, val_main_v71_apply,
    val_main_cst_12_apply, val_main_cst_13_apply, pre1 x0 x1 x2 x4 x5 x6 x7 x8 x9]
  rfl

/-- Layer 2 before its rectifier. -/
theorem pre2 (r : Fin 2000000) (j : Fin 64) :
    val_main_v77 (F := Ideal) x0 x1 x2 x4 x5 x6 x7 x8 x9 x10 x11 (ix2 r j)
      = lin x10 (fun j => x11 (ix1 j)) (act1 (paramsOf x8 x9 x10 x11 x12 x13 x14 x15 x16 x17 x18 x19) (rowRef x0 x1 x2 x4 x5 x6 x7 r)) j := by
  simp only [val_main_v77_apply, val_main_v74_apply, val_main_v76_apply, val_main_v75_apply, l74, r74, i76, i75,
    out1 x0 x1 x2 x4 x5 x6 x7 x8 x9 x10 x11 x12 x13 x14 x15 x16 x17 x18 x19, Ideal.addf_def]
  rfl

/-- Layer 2: the leaky rectifier is the comparison with zero choosing between the value and its multiple. -/
theorem out2 (r : Fin 2000000) (j : Fin 64) :
    val_main_v82 (F := Ideal) x0 x1 x2 x4 x5 x6 x7 x8 x9 x10 x11 (ix2 r j) = act2 (paramsOf x8 x9 x10 x11 x12 x13 x14 x15 x16 x17 x18 x19) (rowRef x0 x1 x2 x4 x5 x6 x7 r) j := by
  simp only [val_main_v82_apply, val_main_v79_apply, val_main_v81_apply, val_main_v78_apply, val_main_v80_apply,
    val_main_cst_14_apply, val_main_cst_15_apply, pre2 x0 x1 x2 x4 x5 x6 x7 x8 x9 x10 x11 x12 x13 x14 x15 x16 x17 x18 x19]
  rfl

/-- Layer 3 before its rectifier. -/
theorem pre3 (r : Fin 2000000) (j : Fin 32) :
    val_main_v86 (F := Ideal) x0 x1 x2 x4 x5 x6 x7 x8 x9 x10 x11 x12 x13 (ix2 r j)
      = lin x12 (fun j => x13 (ix1 j)) (act2 (paramsOf x8 x9 x10 x11 x12 x13 x14 x15 x16 x17 x18 x19) (rowRef x0 x1 x2 x4 x5 x6 x7 r)) j := by
  simp only [val_main_v86_apply, val_main_v83_apply, val_main_v85_apply, val_main_v84_apply, l83, r83, i85, i84,
    out2 x0 x1 x2 x4 x5 x6 x7 x8 x9 x10 x11 x12 x13 x14 x15 x16 x17 x18 x19, Ideal.addf_def]
  rfl

/-- Layer 3: the leaky rectifier is the comparison with zero choosing between the value and its multiple. -/
theorem out3 (r : Fin 2000000) (j : Fin 32) :
    val_main_v91 (F := Ideal) x0 x1 x2 x4 x5 x6 x7 x8 x9 x10 x11 x12 x13 (ix2 r j) = act3 (paramsOf x8 x9 x10 x11 x12 x13 x14 x15 x16 x17 x18 x19) (rowRef x0 x1 x2 x4 x5 x6 x7 r) j := by
  simp only [val_main_v91_apply, val_main_v88_apply, val_main_v90_apply, val_main_v87_apply, val_main_v89_apply,
    val_main_cst_16_apply, val_main_cst_17_apply, pre3 x0 x1 x2 x4 x5 x6 x7 x8 x9 x10 x11 x12 x13 x14 x15 x16 x17 x18 x19]
  rfl

/-- Layer 4 before its rectifier. -/
theorem pre4 (r : Fin 2000000) (j : Fin 16) :
    val_main_v95 (F := Ideal) x0 x1 x2 x4 x5 x6 x7 x8 x9 x10 x11 x12 x13 x14 x15 (ix2 r j)
      = lin x14 (fun j => x15 (ix1 j)) (act3 (paramsOf x8 x9 x10 x11 x12 x13 x14 x15 x16 x17 x18 x19) (rowRef x0 x1 x2 x4 x5 x6 x7 r)) j := by
  simp only [val_main_v95_apply, val_main_v92_apply, val_main_v94_apply, val_main_v93_apply, l92, r92, i94, i93,
    out3 x0 x1 x2 x4 x5 x6 x7 x8 x9 x10 x11 x12 x13 x14 x15 x16 x17 x18 x19, Ideal.addf_def]
  rfl

/-- Layer 4: the leaky rectifier is the comparison with zero choosing between the value and its multiple. -/
theorem out4 (r : Fin 2000000) (j : Fin 16) :
    val_main_v100 (F := Ideal) x0 x1 x2 x4 x5 x6 x7 x8 x9 x10 x11 x12 x13 x14 x15 (ix2 r j) = act4 (paramsOf x8 x9 x10 x11 x12 x13 x14 x15 x16 x17 x18 x19) (rowRef x0 x1 x2 x4 x5 x6 x7 r) j := by
  simp only [val_main_v100_apply, val_main_v97_apply, val_main_v99_apply, val_main_v96_apply, val_main_v98_apply,
    val_main_cst_18_apply, val_main_cst_19_apply, pre4 x0 x1 x2 x4 x5 x6 x7 x8 x9 x10 x11 x12 x13 x14 x15 x16 x17 x18 x19]
  rfl

/-- Layer 5 before its rectifier. -/
theorem pre5 (r : Fin 2000000) (j : Fin 8) :
    val_main_v104 (F := Ideal) x0 x1 x2 x4 x5 x6 x7 x8 x9 x10 x11 x12 x13 x14 x15 x16 x17 (ix2 r j)
      = lin x16 (fun j => x17 (ix1 j)) (act4 (paramsOf x8 x9 x10 x11 x12 x13 x14 x15 x16 x17 x18 x19) (rowRef x0 x1 x2 x4 x5 x6 x7 r)) j := by
  simp only [val_main_v104_apply, val_main_v101_apply, val_main_v103_apply, val_main_v102_apply, l101, r101, i103, i102,
    out4 x0 x1 x2 x4 x5 x6 x7 x8 x9 x10 x11 x12 x13 x14 x15 x16 x17 x18 x19, Ideal.addf_def]
  rfl

/-- Layer 5: the leaky rectifier is the comparison with zero choosing between the value and its multiple. -/
theorem out5 (r : Fin 2000000) (j : Fin 8) :
    val_main_v109 (F := Ideal) x0 x1 x2 x4 x5 x6 x7 x8 x9 x10 x11 x12 x13 x14 x15 x16 x17 (ix2 r j) = act5 (paramsOf x8 x9 x10 x11 x12 x13 x14 x15 x16 x17 x18 x19) (rowRef x0 x1 x2 x4 x5 x6 x7 r) j := by
  simp only [val_main_v109_apply, val_main_v106_apply, val_main_v108_apply, val_main_v105_apply, val_main_v107_apply,
    val_main_cst_20_apply, val_main_cst_21_apply, pre5 x0 x1 x2 x4 x5 x6 x7 x8 x9 x10 x11 x12 x13 x14 x15 x16 x17 x18 x19]
  rfl

/-- THE REFERENCE'S VALUE at edge `r`, score `k`: the network on the edge's row. -/
theorem ref_value (r : Fin 2000000) (k : Fin 2) :
    val_main_v113 (F := Ideal) x0 x1 x2 x4 x5 x6 x7 x8 x9 x10 x11 x12 x13 x14 x15 x16 x17 x18 x19 (ix2 r k) = mlp (paramsOf x8 x9 x10 x11 x12 x13 x14 x15 x16 x17 x18 x19) (rowRef x0 x1 x2 x4 x5 x6 x7 r) k := by
  simp only [val_main_v113_apply, val_main_v110_apply, val_main_v112_apply, val_main_v111_apply, l110, r110, i112, i111,
    out5 x0 x1 x2 x4 x5 x6 x7 x8 x9 x10 x11 x12 x13 x14 x15 x16 x17 x18 x19, Ideal.addf_def]
  rfl

end Cert.Gnn.RefValue

end
-- ==== Proof.Algebra.lean ====
/-
  The two ways of normalising a column agree on finite entries.

  For a table of reals with N rows, column q has mean m = (∑ a)/N, and the mean of the squared deviations
  (∑ (a - m)²)/N is a non-negative real that equals (∑ a²)/N - m² (expand the square; the constant sums to N·m²).
  So the floor at zero changes nothing, the scale g / √(var + ε) is a real, and v·s + (b - m·s) = (v - m)·s + b.
-/
import proofs.«409262_j23338852286984_2_alg».proof.Proof.Spec
import Idealize.ShloMosaic.PureOps.Ideal
import Mathlib.Data.EReal.Basic
import Mathlib.Data.EReal.Operations
import Mathlib.Data.EReal.Inv
import Mathlib.Algebra.BigOperators.Fin
import Mathlib.Tactic.Ring
import Mathlib.Tactic.FieldSimp
import Mathlib.Tactic.Positivity
import Mathlib.Tactic.Linarith
import Mathlib.Tactic.NormNum

noncomputable section

namespace Cert.Gnn.Algebra

open Idealize.ShloMosaic Idealize.ShloMosaic.ValueIdx

/-! ## The literals -/

/-- The word of 0.0 denotes 0. -/
theorem zeroF_eq : zeroF = 0 := by
  simp [Ideal.ofBits, Ideal.ieee]

/-- The word of 100000.0 denotes the real 100000. -/
theorem nNodes_eq : nNodes = ((100000 : ℝ) : EReal) := by
  simp [Ideal.ofBits, Ideal.ieee, -EReal.coe_mul]; norm_num

/-- The word of 2000000.0 denotes the real 2000000. -/
theorem nEdges_eq : nEdges = ((2000000 : ℝ) : EReal) := by
  simp [Ideal.ofBits, Ideal.ieee, -EReal.coe_mul]; norm_num

/-- The stabiliser's word denotes a positive real. -/
theorem epsF_pos : ∃ ε : ℝ, 0 < ε ∧ epsF = (ε : EReal) := by
  refine ⟨(2 ^ 23 + 2606508 : ℕ) * (2 : ℝ) ^ ((110 : ℤ) - 127 - 23), by positivity, ?_⟩
  simp [Ideal.ofBits, Ideal.ieee, -EReal.coe_mul]

/-! ## Sums of reals -/

/-- A finite sum of reals, read in the extended reals, is the real sum. -/
theorem coe_sum {ι : Type*} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The mean of the squared deviations is the mean of the squares less the squared mean, for N the number of terms. -/
theorem var_real {n : ℕ} (a : Fin n → ℝ) (N : ℝ) (hN : N = n) (h0 : N ≠ 0) :
    (∑ r, (a r - (∑ r, a r) * (1 / N)) * (a r - (∑ r, a r) * (1 / N))) * (1 / N)
      = (∑ r, a r * a r) * (1 / N) - ((∑ r, a r) * (1 / N)) * ((∑ r, a r) * (1 / N)) := by
  generalize hS : (∑ r, a r) = S
  generalize hm : S * (1 / N) = m
  have hexp : ∀ r, (a r - m) * (a r - m) = a r * a r - 2 * m * a r + m * m := fun r => by ring
  have hsum : (∑ r, (a r - m) * (a r - m)) = (∑ r, a r * a r) - 2 * m * S + N * (m * m) := by
    simp only [hexp, Finset.sum_add_distrib, Finset.sum_sub_distrib, ← Finset.mul_sum, Finset.sum_const,
      Finset.card_univ, Fintype.card_fin, nsmul_eq_mul, hS, hN]
    ring
  rw [hsum, ← hm]
  field_simp
  ring

/-- The mean of the squared deviations is not negative. -/
theorem var_nonneg {n : ℕ} (a : Fin n → ℝ) (m N : ℝ) (h0 : 0 < N) :
    0 ≤ (∑ r, (a r - m) * (a r - m)) * (1 / N) := by
  apply mul_nonneg
  · exact Finset.sum_nonneg fun r _ => mul_self_nonneg _
  · positivity

/-! ## Column statistics of a table of reals -/

section Table

variable {n c : ℕ} (f : (⟨2, ![n, c]⟩ : Shape).Idx → ℝ) (N : ℝ) (q : Fin c)

/-- The real mean of column q. -/
def meanR : ℝ := (∑ r : Fin n, f (ix2 r q)) * (1 / N)
/-- The real variance of column q, as the mean of the squared deviations. -/
def varR : ℝ := (∑ r : Fin n, (f (ix2 r q) - meanR f N q) * (f (ix2 r q) - meanR f N q)) * (1 / N)

theorem colMean_coe (h0 : N ≠ 0) : colMean (N : EReal) (fun i => ((f i : ℝ) : EReal)) q = (meanR f N q : EReal) := by
  unfold colMean colSum meanR
  rw [Ideal.div_coe h0, coe_sum, ← EReal.coe_mul]

theorem varDev_coe (h0 : N ≠ 0) : varDev (N : EReal) (fun i => ((f i : ℝ) : EReal)) q = (varR f N q : EReal) := by
  unfold varDev varR
  rw [colMean_coe f N q h0, Ideal.div_coe h0]
  simp only [← EReal.coe_sub, ← EReal.coe_mul]
  rw [coe_sum, ← EReal.coe_mul]

theorem varMom_coe (hN : N = n) (h0 : N ≠ 0) : varMom (N : EReal) (fun i => ((f i : ℝ) : EReal)) q = (varR f N q : EReal) := by
  unfold varMom colSumSq
  rw [colMean_coe f N q h0, Ideal.div_coe h0]
  simp only [← EReal.coe_mul]
  rw [coe_sum, ← EReal.coe_mul, ← EReal.coe_sub]
  congr 1
  unfold varR meanR
  exact (var_real (fun r => f (ix2 r q)) N hN h0).symm

theorem varR_nonneg (h0 : 0 < N) : 0 ≤ varR f N q := var_nonneg _ _ _ h0

end Table

/-! ## The floor, the scale, the two normal forms -/

/-- The floor at zero leaves a non-negative real alone. -/
theorem max_zeroF {v : ℝ} (hv : 0 ≤ v) : max (v : EReal) zeroF = (v : EReal) := by
  rw [zeroF_eq]; exact max_eq_left (EReal.coe_nonneg.2 hv)

/-- The scale of a real gain over a non-negative real variance is a real. -/
theorem scaleOf_real (g v : ℝ) (hv : 0 ≤ v) : ∃ s : ℝ, scaleOf (g : EReal) (v : EReal) = (s : EReal) := by
  obtain ⟨ε, hε, he⟩ := epsF_pos
  have hpos : 0 < v + ε := by linarith
  have hs : Real.sqrt (v + ε) ≠ 0 := (Real.sqrt_pos.2 hpos).ne'
  refine ⟨g * (1 / Real.sqrt (v + ε)), ?_⟩
  unfold scaleOf
  rw [he, ← EReal.coe_add, Ideal.sqrt_coe, if_neg (not_lt.2 hpos.le), Ideal.div_coe hs, ← EReal.coe_mul]

/-- On reals the affine form is the centred form. -/
theorem bnAffine_eq_bnCentred (v m s b : ℝ) :
    bnAffine (v : EReal) (m : EReal) (s : EReal) (b : EReal) = bnCentred (v : EReal) (m : EReal) (s : EReal) (b : EReal) := by
  unfold bnAffine bnCentred
  simp only [← EReal.coe_mul, ← EReal.coe_sub, ← EReal.coe_add]
  congr 1
  ring

/-! ## One column's entry in the two forms -/

/-- A node-table column: affine form over the floored variance of deviations equals the centred form. -/
theorem node_entry {n c : ℕ} (f : (⟨2, ![n, c]⟩ : Shape).Idx → ℝ) (N : ℝ) (h0 : 0 < N) (q : Fin c) (v g b : ℝ) :
    bnAffine (v : EReal) (colMean (N : EReal) (fun i => ((f i : ℝ) : EReal)) q)
        (scaleOf (g : EReal) (max (varDev (N : EReal) (fun i => ((f i : ℝ) : EReal)) q) zeroF)) (b : EReal)
      = bnCentred (v : EReal) (colMean (N : EReal) (fun i => ((f i : ℝ) : EReal)) q)
        (scaleOf (g : EReal) (varDev (N : EReal) (fun i => ((f i : ℝ) : EReal)) q)) (b : EReal) := by
  rw [colMean_coe f N q h0.ne', varDev_coe f N q h0.ne', max_zeroF (varR_nonneg f N q h0)]
  obtain ⟨s, hs⟩ := scaleOf_real g (varR f N q) (varR_nonneg f N q h0)
  rw [hs]
  exact bnAffine_eq_bnCentred _ _ _ _

/-- An edge-table column: affine form over the floored variance of moments equals the centred form over the variance of
    deviations. -/
theorem edge_entry {n c : ℕ} (f : (⟨2, ![n, c]⟩ : Shape).Idx → ℝ) (N : ℝ) (hN : N = n) (h0 : 0 < N) (q : Fin c) (v g b : ℝ) :
    bnAffine (v : EReal) (colMean (N : EReal) (fun i => ((f i : ℝ) : EReal)) q)
        (scaleOf (g : EReal) (max (varMom (N : EReal) (fun i => ((f i : ℝ) : EReal)) q) zeroF)) (b : EReal)
      = bnCentred (v : EReal) (colMean (N : EReal) (fun i => ((f i : ℝ) : EReal)) q)
        (scaleOf (g : EReal) (varDev (N : EReal) (fun i => ((f i : ℝ) : EReal)) q)) (b : EReal) := by
  rw [colMean_coe f N q h0.ne', varDev_coe f N q h0.ne', varMom_coe f N q hN h0.ne', max_zeroF (varR_nonneg f N q h0)]
  obtain ⟨s, hs⟩ := scaleOf_real g (varR f N q) (varR_nonneg f N q h0)
  rw [hs]
  exact bnAffine_eq_bnCentred _ _ _ _

/-! ## The rows agree -/

/-- On finite tables, gains and offsets, the kernel's row of 51 is the reference's. -/
theorem rowKer_eq_rowRef (x : (⟨2, ![100000, 16]⟩ : Shape).Idx → EReal) (e : (⟨2, ![2000000, 19]⟩ : Shape).Idx → EReal)
    (ei : (⟨2, ![2, 2000000]⟩ : Shape).Idx → BitVec 32)
    (gx bx : (⟨1, ![16]⟩ : Shape).Idx → EReal) (ge be : (⟨1, ![19]⟩ : Shape).Idx → EReal)
    (hx : ∀ i, ∃ v : ℝ, x i = (v : EReal)) (he : ∀ i, ∃ v : ℝ, e i = (v : EReal))
    (hgx : ∀ i, ∃ v : ℝ, gx i = (v : EReal)) (hbx : ∀ i, ∃ v : ℝ, bx i = (v : EReal))
    (hge : ∀ i, ∃ v : ℝ, ge i = (v : EReal)) (hbe : ∀ i, ∃ v : ℝ, be i = (v : EReal)) (r : Fin 2000000) :
    Cert.Gnn.rowKer x e ei gx bx ge be r = Cert.Gnn.rowRef x e ei gx bx ge be r := by
  choose fx hfx using hx
  choose fe hfe using he
  choose fgx hfgx using hgx
  choose fbx hfbx using hbx
  choose fge hfge using hge
  choose fbe hfbe using hbe
  obtain rfl : x = fun i => ((fx i : ℝ) : EReal) := funext hfx
  obtain rfl : e = fun i => ((fe i : ℝ) : EReal) := funext hfe
  obtain rfl : gx = fun i => ((fgx i : ℝ) : EReal) := funext hfgx
  obtain rfl : bx = fun i => ((fbx i : ℝ) : EReal) := funext hfbx
  obtain rfl : ge = fun i => ((fge i : ℝ) : EReal) := funext hfge
  obtain rfl : be = fun i => ((fbe i : ℝ) : EReal) := funext hfbe
  have hNn : (0 : ℝ) < 100000 := by norm_num
  have hNe : (0 : ℝ) < 2000000 := by norm_num
  have hNe' : (2000000 : ℝ) = ((2000000 : ℕ) : ℝ) := by norm_num
  unfold rowKer rowRef
  rw [nNodes_eq, nEdges_eq]
  congr 1
  · funext q
    exact node_entry fx 100000 hNn q _ _ _
  · funext q
    exact node_entry fx 100000 hNn q _ _ _
  · funext q
    exact edge_entry fe 2000000 hNe' hNe q _ _ _

end Cert.Gnn.Algebra

end
-- ==== Proof.PreFacts.lean ====
/-
  What the precondition says of the tables the two programs read.

  The precondition is one bit: the conjunction, over the eighteen real-valued argument arrays, of "every entry's absolute
  value is below +∞", and-ed with "every node number is at least 0 and below 100000". When that bit is 1:
    * every entry of the node table, the edge table and the four gain / offset rows is a real number (an extended real
      whose absolute value max(v, -v) is below +∞ is neither infinity);
    * every node number, read signed, lies in [0, 100000), that is, inside the node table.
-/
import proofs.«409262_j23338852286984_2_alg».proof.Pre_finite_inputs
import proofs.«409262_j23338852286984_2_alg».proof.Defs
import proofs.«409262_j23338852286984_2_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.Gnn.PreFacts

open Idealize.ShloMosaic Idealize.ShloMosaic.ValueIdx

/-- A rank-0 array has one index. -/
local instance : Subsingleton (⟨0, ![]⟩ : Shape).Idx := ⟨fun a b => funext fun d => d.elim0⟩

/-! ## One entry -/

/-- The word `0x7F800000` is `+∞`. -/
theorem ofBits_inf : Ideal.ofBits .f32 0x7F800000#32 = (⊤ : EReal) := by
  simp [Ideal.ofBits, Ideal.ieee]

/-- An extended real whose absolute value `max v (-v)` is below `+∞` is a real number. -/
theorem real_of_abs_lt_top (x : EReal) (h : max x (-x) < ⊤) : ∃ v : ℝ, x = (v : EReal) := by
  induction x using EReal.rec with
  | bot => simp at h
  | coe r => exact ⟨r, rfl⟩
  | top => simp at h

/-- The comparison "absolute value below the word of `+∞`" holding at an entry says the entry is a real number. -/
theorem real_of_cmp (x : EReal)
    (h : Ideal.cmp .olt (max x (-x)) (Ideal.ofBits .f32 0x7F800000#32) = 1#1) : ∃ v : ℝ, x = (v : EReal) := by
  rw [ofBits_inf] at h
  change BitVec.ofBool (decide (max x (-x) < ⊤)) = 1#1 at h
  exact real_of_abs_lt_top x (of_decide_eq_true ((StableHlo.Predicate.ofBool_eq_one_iff _).1 h))

/-! ## One array: `all(|a| < +∞)` read back -/

/-- If the conjunction over all entries of "absolute value below `+∞`" is 1, every entry is a real number. -/
theorem all_real {s : Shape} (hb : (⟨0, ![]⟩ : Shape).BroadcastsInDim s (![] : Fin 0 → Fin s.rank)) {axes : List (Fin s.rank)}
    (hr : s.ReducesTo axes (⟨0, ![]⟩ : Shape)) (hu : 0 < (⟨0, ![]⟩ : Shape).numel) (a : FVec Ideal s .f32)
    (h : Host.reduce IntOp.andi (cmpf .olt (Host.absf a)
          (broadcastInDim s ![] hb (constant (F := Ideal) (⟨0, ![]⟩ : Shape) .f32 0x7F800000#32)))
          (constantI (⟨0, ![]⟩ : Shape) 1 1#1) hr hu ix0 = 1#1) :
    ∀ i, ∃ v : ℝ, a i = (v : EReal) := by
  intro i
  have e := Host.reduce_andi_all _ _ hr hu ix0 h i
  exact real_of_cmp (a i) e

/-- If the conjunction over all words of "at least 0 and below 100000, read signed" is 1, every word is inside the table. -/
theorem all_inTable {s : Shape} (hb : (⟨0, ![]⟩ : Shape).BroadcastsInDim s (![] : Fin 0 → Fin s.rank)) {axes : List (Fin s.rank)}
    (hr : s.ReducesTo axes (⟨0, ![]⟩ : Shape)) (hu : 0 < (⟨0, ![]⟩ : Shape).numel) (a : IVec s 32)
    (h : Host.reduce IntOp.andi (andi (cmpi .sge a (broadcastInDim s ![] hb (constantI (⟨0, ![]⟩ : Shape) 32 0#32)))
          (cmpi .slt a (broadcastInDim s ![] hb (constantI (⟨0, ![]⟩ : Shape) 32 100000#32))))
          (constantI (⟨0, ![]⟩ : Shape) 1 1#1) hr hu ix0 = 1#1) :
    ∀ i, InTable (a i) := by
  intro i
  have e := Host.reduce_andi_all _ _ hr hu ix0 h i
  obtain ⟨e1, e2⟩ := IntOp.andi_eq_one.1 e
  have e1' := IntOp.cmpi_sge.1 e1
  have e2' := IntOp.cmpi_slt.1 e2
  refine ⟨?_, ?_⟩
  · simpa [broadcastInDim, constantI] using e1'
  · simpa [broadcastInDim, constantI] using e2'

/-! ## The whole precondition -/

section Whole

open Cert.Pre_finite_inputs

variable [Cert.Pre_finite_inputs.Facts]

/-- A conjunction of two bit arrays at an index is the conjunction of the two bits. -/
theorem andi_at {s : Shape} (x y : IVec s 1) (i : s.Idx) : andi x y i = IntOp.andi (x i) (y i) := rfl

variable (a0 : FVec Ideal S100000x16 .f32) (a1 : FVec Ideal S2000000x19 .f32) (a2 : IVec S2x2000000 32) (a3 : IVec S100000 32)
  (a4 a5 : FVec Ideal S16 .f32) (a6 a7 : FVec Ideal S19 .f32) (a8 : FVec Ideal S51x64 .f32) (a9 : FVec Ideal S64 .f32)
  (a10 : FVec Ideal S64x64 .f32) (a11 : FVec Ideal S64 .f32) (a12 : FVec Ideal S64x32 .f32) (a13 : FVec Ideal S32 .f32)
  (a14 : FVec Ideal S32x16 .f32) (a15 : FVec Ideal S16 .f32) (a16 : FVec Ideal S16x8 .f32) (a17 : FVec Ideal S8 .f32)
  (a18 : FVec Ideal S8x2 .f32) (a19 : FVec Ideal S2 .f32)

/-- The precondition's bit, taken apart: one conjunction over all entries per argument array, in the order the
    precondition and-s them (the node numbers' range last). -/
theorem split_pre
    (h : fn (F := Ideal) a0 a1 a2 a3 a4 a5 a6 a7 a8 a9 a10 a11 a12 a13 a14 a15 a16 a17 a18 a19 = (fun _ => 1#1)) :
    ((∀ i, ∃ v : ℝ, a0 i = (v : EReal)) ∧ (∀ i, ∃ v : ℝ, a1 i = (v : EReal)) ∧ (∀ i, ∃ v : ℝ, a4 i = (v : EReal))
      ∧ (∀ i, ∃ v : ℝ, a5 i = (v : EReal)) ∧ (∀ i, ∃ v : ℝ, a6 i = (v : EReal)) ∧ (∀ i, ∃ v : ℝ, a7 i = (v : EReal)))
    ∧ ((∀ i, ∃ v : ℝ, a8 i = (v : EReal)) ∧ (∀ i, ∃ v : ℝ, a9 i = (v : EReal)) ∧ (∀ i, ∃ v : ℝ, a10 i = (v : EReal))
      ∧ (∀ i, ∃ v : ℝ, a11 i = (v : EReal)) ∧ (∀ i, ∃ v : ℝ, a12 i = (v : EReal)) ∧ (∀ i, ∃ v : ℝ, a13 i = (v : EReal))
      ∧ (∀ i, ∃ v : ℝ, a14 i = (v : EReal)) ∧ (∀ i, ∃ v : ℝ, a15 i = (v : EReal)) ∧ (∀ i, ∃ v : ℝ, a16 i = (v : EReal))
      ∧ (∀ i, ∃ v : ℝ, a17 i = (v : EReal)) ∧ (∀ i, ∃ v : ℝ, a18 i = (v : EReal)) ∧ (∀ i, ∃ v : ℝ, a19 i = (v : EReal)))
    ∧ (∀ i, InTable (a2 i)) := by
  have h0 := congrFun h ix0
  dsimp only [fn, fn_part1, fn_part2, fn_part3, fn_part4, fn_part5] at h0
  simp only [andi_at, IntOp.andi_eq_one] at h0
  obtain ⟨⟨⟨⟨⟨⟨⟨⟨⟨⟨⟨⟨⟨⟨⟨⟨⟨⟨h_0, h_1⟩, h_4⟩, h_5⟩, h_6⟩, h_7⟩, h_8⟩, h_9⟩, h_10⟩, h_11⟩, h_12⟩, h_13⟩, h_14⟩, h_15⟩, h_16⟩, h_17⟩, h_18⟩, h_19⟩, h_2⟩ := h0
  exact ⟨⟨all_real _ _ _ a0 h_0, all_real _ _ _ a1 h_1, all_real _ _ _ a4 h_4, all_real _ _ _ a5 h_5, all_real _ _ _ a6 h_6,
      all_real _ _ _ a7 h_7⟩,
    ⟨all_real _ _ _ a8 h_8, all_real _ _ _ a9 h_9, all_real _ _ _ a10 h_10, all_real _ _ _ a11 h_11, all_real _ _ _ a12 h_12,
      all_real _ _ _ a13 h_13, all_real _ _ _ a14 h_14, all_real _ _ _ a15 h_15, all_real _ _ _ a16 h_16,
      all_real _ _ _ a17 h_17, all_real _ _ _ a18 h_18, all_real _ _ _ a19 h_19⟩,
    all_inTable _ _ _ a2 h_2⟩

/-- Under the precondition every entry of the node table, of the edge table and of the four gain / offset rows is a real
    number. -/
theorem finite_of_pre
    (h : fn (F := Ideal) a0 a1 a2 a3 a4 a5 a6 a7 a8 a9 a10 a11 a12 a13 a14 a15 a16 a17 a18 a19 = (fun _ => 1#1)) :
    (∀ i, ∃ v : ℝ, a0 i = (v : EReal)) ∧ (∀ i, ∃ v : ℝ, a1 i = (v : EReal)) ∧ (∀ i, ∃ v : ℝ, a4 i = (v : EReal))
      ∧ (∀ i, ∃ v : ℝ, a5 i = (v : EReal)) ∧ (∀ i, ∃ v : ℝ, a6 i = (v : EReal)) ∧ (∀ i, ∃ v : ℝ, a7 i = (v : EReal)) :=
  (split_pre a0 a1 a2 a3 a4 a5 a6 a7 a8 a9 a10 a11 a12 a13 a14 a15 a16 a17 a18 a19 h).1

/-- Under the precondition every entry of the six weight matrices and six offset vectors is a real number. -/
theorem finite_weights_of_pre
    (h : fn (F := Ideal) a0 a1 a2 a3 a4 a5 a6 a7 a8 a9 a10 a11 a12 a13 a14 a15 a16 a17 a18 a19 = (fun _ => 1#1)) :
    (∀ i, ∃ v : ℝ, a8 i = (v : EReal)) ∧ (∀ i, ∃ v : ℝ, a9 i = (v : EReal)) ∧ (∀ i, ∃ v : ℝ, a10 i = (v : EReal))
      ∧ (∀ i, ∃ v : ℝ, a11 i = (v : EReal)) ∧ (∀ i, ∃ v : ℝ, a12 i = (v : EReal)) ∧ (∀ i, ∃ v : ℝ, a13 i = (v : EReal))
      ∧ (∀ i, ∃ v : ℝ, a14 i = (v : EReal)) ∧ (∀ i, ∃ v : ℝ, a15 i = (v : EReal)) ∧ (∀ i, ∃ v : ℝ, a16 i = (v : EReal))
      ∧ (∀ i, ∃ v : ℝ, a17 i = (v : EReal)) ∧ (∀ i, ∃ v : ℝ, a18 i = (v : EReal)) ∧ (∀ i, ∃ v : ℝ, a19 i = (v : EReal)) :=
  (split_pre a0 a1 a2 a3 a4 a5 a6 a7 a8 a9 a10 a11 a12 a13 a14 a15 a16 a17 a18 a19 h).2.1

/-- Under the precondition both node numbers of every edge are inside the node table. -/
theorem inTable_of_pre
    (h : fn (F := Ideal) a0 a1 a2 a3 a4 a5 a6 a7 a8 a9 a10 a11 a12 a13 a14 a15 a16 a17 a18 a19 = (fun _ => 1#1)) :
    ∀ (a : Fin 2) (r : Fin 2000000), InTable (a2 (ix2 a r)) :=
  fun a r => (split_pre a0 a1 a2 a3 a4 a5 a6 a7 a8 a9 a10 a11 a12 a13 a14 a15 a16 a17 a18 a19 h).2.2 (ix2 a r)

end Whole

/-! ## The same, from the kernel program's precondition at a device -/

section AtDevice

open Idealize.SL.Sem

variable [Cert.Pre_finite_inputs.Facts]

/-- Under the kernel program's precondition, at every device, the node table, the edge table and the four gain / offset
    rows hold real numbers only. -/
theorem finite_of_Pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ v : ℝ, (m ((c.tc : Thread Cert.KernelIdeal.nD Cert.KernelIdeal.τ).loc Cert.KernelIdeal.main_arg0)) i = (v : EReal))
    ∧ (∀ i, ∃ v : ℝ, (m ((c.tc : Thread Cert.KernelIdeal.nD Cert.KernelIdeal.τ).loc Cert.KernelIdeal.main_arg1)) i = (v : EReal))
    ∧ (∀ i, ∃ v : ℝ, (m ((c.tc : Thread Cert.KernelIdeal.nD Cert.KernelIdeal.τ).loc Cert.KernelIdeal.main_arg4)) i = (v : EReal))
    ∧ (∀ i, ∃ v : ℝ, (m ((c.tc : Thread Cert.KernelIdeal.nD Cert.KernelIdeal.τ).loc Cert.KernelIdeal.main_arg5)) i = (v : EReal))
    ∧ (∀ i, ∃ v : ℝ, (m ((c.tc : Thread Cert.KernelIdeal.nD Cert.KernelIdeal.τ).loc Cert.KernelIdeal.main_arg6)) i = (v : EReal))
    ∧ (∀ i, ∃ v : ℝ, (m ((c.tc : Thread Cert.KernelIdeal.nD Cert.KernelIdeal.τ).loc Cert.KernelIdeal.main_arg7)) i = (v : EReal)) :=
  finite_of_pre _ _ _ _ _ _ _ _ _ _ _ _ _ _ _ _ _ _ _ _ (h c)

/-- Under the kernel program's precondition, at every device, both node numbers of every edge are inside the node table. -/
theorem inTable_of_Pre (m : (ℓ : Loc Cert.KernelIdeal.nD Cert.KernelIdeal.τ Cert.KernelIdeal.sig) → Buf (Elt Ideal) ℓ)
    (h : Cert.Pre_KernelIdeal m) (c : Dev Cert.KernelIdeal.nD) :
    ∀ (a : Fin 2) (r : Fin 2000000), InTable ((m ((c.tc : Thread Cert.KernelIdeal.nD Cert.KernelIdeal.τ).loc Cert.KernelIdeal.main_arg2)) (ix2 a r)) :=
  inTable_of_pre _ _ _ _ _ _ _ _ _ _ _ _ _ _ _ _ _ _ _ _ (h c)

end AtDevice

end Cert.Gnn.PreFacts

end
-- ==== Proof.lean ====
/-
  An edge-scoring network on a graph with 100,000 nodes and 2,000,000 edges: the kernel's program and the reference
  compute the same scores over the extended reals, on finite inputs and node numbers inside the node table.

  Both batch-normalise the node table `x : [100000, 16]` and the edge table `e : [2000000, 19]` per column, form for every
  edge the row of 51 numbers (its two end nodes' normalised features and its own), and apply six affine layers with a leaky
  rectifier between them. They differ in three places, none of which changes a value on that domain:
    * the reference normalises a column as (v - mean) * scale + offset with the variance the mean of the squared deviations;
      the kernel's program folds mean and offset into one addend, v * scale + (offset - mean * scale), floors the variance at
      zero, and for the edge table takes the variance as the mean of the squares less the squared mean, from two column sums
      it accumulates over 400 blocks of 5000 rows — on finite entries these are one number (Proof/Algebra.lean);
    * the reference normalises the node table and then looks rows up; the kernel's program looks raw rows up and normalises them
      afterwards — a per-column map commutes with a row lookup; outside the table the reference reads a clamped row and the
      kernel's program a fill, which is why the comparison is on node numbers inside the table (the added conjunct of the
      precondition, decoded in Proof/PreFacts.lean);
    * the kernel's matrix products take both operands through a narrower float format first, which is the identity on the
      extended reals; its blocks of 5000 edges tile the 2,000,000 (Proof/KBody.lean, Proof/KRegion1.lean).
  The kernel's result array after the run is read off the run of its two regions and the host operations between them
  (Proof/KRun.lean, Proof/KRegion0.lean, Proof/KHost.lean, Proof/KValue.lean); the reference's off its run, stage by stage
  (Proof/RefRun.lean), read at an index in Proof/RefValue.lean. Both are `mlp` of the weights at a row (Proof/Spec.lean), and the
  two rows agree (Proof/Algebra.lean).
-/
import proofs.«409262_j23338852286984_2_alg».proof.Defs
import proofs.«409262_j23338852286984_2_alg».proof.Proof.Gen.Kernel
import proofs.«409262_j23338852286984_2_alg».proof.Proof.Gen.Kernel.Skeleton
import proofs.«409262_j23338852286984_2_alg».proof.Proof.Gen.Kernel.Launch
import proofs.«409262_j23338852286984_2_alg».proof.Proof.Gen.Kernel.Points
import proofs.«409262_j23338852286984_2_alg».proof.Proof.Gen.Kernel.Frame
import proofs.«409262_j23338852286984_2_alg».proof.Proof.Gen.KernelIdeal
import proofs.«409262_j23338852286984_2_alg».proof.Proof.Gen.KernelIdeal.Skeleton
import proofs.«409262_j23338852286984_2_alg».proof.Proof.Gen.KernelIdeal.Launch
import proofs.«409262_j23338852286984_2_alg».proof.Proof.Gen.KernelIdeal.Points
import proofs.«409262_j23338852286984_2_alg».proof.Proof.Gen.KernelIdeal.Frame
import proofs.«409262_j23338852286984_2_alg».proof.Proof.Gen.ReferenceIdeal
import proofs.«409262_j23338852286984_2_alg».proof.Proof.Gen.Pre_finite_inputs
import proofs.«409262_j23338852286984_2_alg».proof.Proof.KRun
import proofs.«409262_j23338852286984_2_alg».proof.Proof.KValue
import proofs.«409262_j23338852286984_2_alg».proof.Proof.RefRun
import proofs.«409262_j23338852286984_2_alg».proof.Proof.RefValue
import proofs.«409262_j23338852286984_2_alg».proof.Proof.Algebra
import proofs.«409262_j23338852286984_2_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem Cert.Gnn

/-- The word-level kernel's frame: its two regions and the host operations around them, whole. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame, the same text at the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gnn.RefRun.run m ρ)

/-- Both runs end; edge `r`'s score `k` is, on the kernel's side, the network on the affine-form row and, on the
    reference's, the network on the centred-form row of arguments that agree; on finite tables the two rows are one. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v51), Cert.KernelIdeal.GenRun.run_value m ρ, ?_⟩
  refine (θ_run Cert.ReferenceIdeal.defs _ _).mono (fun _ h c => ⟨(h c).1.trans ?_, (h c).2⟩) (Cert.Gnn.RefRun.run m' ρ')
  obtain ⟨h0, h1, h2, h3, h4, h5, h6, h7, h8, h9, h10, h11, h12, h13, h14, h15, h16, h17, h18, h19⟩ := hagree c
  rw [h0, h1, h2, h4, h5, h6, h7, h8, h9, h10, h11, h12, h13, h14, h15, h16, h17, h18, h19]
  funext idx
  obtain ⟨r, k, rfl⟩ : ∃ (r : Fin 2000000) (k : Fin 2), idx = ix2 r k := ⟨idx 0, idx 1, eq_ix2 idx⟩
  obtain ⟨fx, fe, fgx, fbx, fge, fbe⟩ := Cert.Gnn.PreFacts.finite_of_Pre m hpre c
  have hin := Cert.Gnn.PreFacts.inTable_of_Pre m hpre c
  rw [Cert.Gnn.RefValue.ref_value]
  rw [← Cert.Gnn.Algebra.rowKer_eq_rowRef _ _ _ _ _ _ _ fx fe fgx fbx fge fbe r]
  exact (Cert.Gnn.KValue.result_value m ρ c hin r k).symm

/-- The idealization changed nothing the ledger records, so `preserves` holds trivially; the rest is above. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
